-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S200000 : Shape := ⟨1, ![200000]⟩
abbrev S256x1 : Shape := ⟨2, ![256, 1]⟩
abbrev S1 : Shape := ⟨1, ![1]⟩
abbrev S256x256 : Shape := ⟨2, ![256, 256]⟩
abbrev S256 : Shape := ⟨1, ![256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S200000 : S_.BroadcastsInDim S200000 (![] : Fin 0 → Fin S200000.rank)
  reducesTo_S200000_S_d0 : S200000.ReducesTo [0] S_

variable [Facts]

def fn_part2 {F : FTy → Type} [FloatOps F] (main_v28 : IVec S_ 1) (main_v33 : IVec S200000 1) : IVec S_ 1 :=
  let main_c_12 : IVec S_ 1 := constantI S_ 1 1#1
  let main_v34 : IVec S_ 1 := (fun x v => Host.reduce IntOp.andi x v reducesTo_S200000_S_d0 h_S_) main_v33 main_c_12
  let main_v35 : IVec S_ 1 := andi main_v28 main_v34
  main_v35

def fn_part1 {F : FTy → Type} [FloatOps F] (main_arg2 : IVec S200000 32) (main_arg5 : FVec F S256x256 .f32) (main_arg6 : FVec F S256 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_c_10 : IVec S_ 32 := constantI S_ 32 0#32
  let main_v29 : IVec S200000 32 := broadcastInDim S200000 ![] bcast_S_S200000 main_c_10
  let main_v30 : IVec S200000 1 := cmpi .sge main_arg2 main_v29
  let main_c_11 : IVec S_ 32 := constantI S_ 32 8#32
  let main_v31 : IVec S200000 32 := broadcastInDim S200000 ![] bcast_S_S200000 main_c_11
  let main_v32 : IVec S200000 1 := cmpi .slt main_arg2 main_v31
  let main_v33 : IVec S200000 1 := andi main_v30 main_v32
  fn_part2 (F := F) main_v28 main_v33

def fn {F : FTy → Type} [FloatOps F] (main_arg0 : FVec F S200000x256 .f32) (main_arg1 : FVec F S200000x256 .f32) (main_arg2 : IVec S200000 32) (main_arg3 : FVec F S256x1 .f32) (main_arg4 : FVec F S1 .f32) (main_arg5 : FVec F S256x256 .f32) (main_arg6 : FVec F S256 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x256 .f32 := Host.absf main_arg1
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg2 main_arg5 main_arg6 main_v13 main_v16
-- ==== Kernel.lean ====
abbrev S200000x256 : Shape := ⟨2, ![200000, 256]⟩
abbrev S200000 : Shape := ⟨1, ![200000]⟩
abbrev S256x1 : Shape := ⟨2, ![256, 1]⟩
abbrev S1 : Shape := ⟨1, ![1]⟩
abbrev S256x256 : Shape := ⟨2, ![256, 256]⟩
abbrev S256 : Shape := ⟨1, ![256]⟩
abbrev S200000x1 : Shape := ⟨2, ![200000, 1]⟩
abbrev S1x1 : Shape := ⟨2, ![1, 1]⟩
abbrev S1x256 : Shape := ⟨2, ![1, 256]⟩
abbrev S2x8x256 : Shape := ⟨3, ![2, 8, 256]⟩
abbrev S2x8x1 : Shape := ⟨3, ![2, 8, 1]⟩
abbrev S10000x256 : Shape := ⟨2, ![10000, 256]⟩
abbrev S10000x1 : Shape := ⟨2, ![10000, 1]⟩
abbrev S1x8x256 : Shape := ⟨3, ![1, 8, 256]⟩
abbrev S1x8x1 : Shape := ⟨3, ![1, 8, 1]⟩
abbrev S8x256 : Shape := ⟨2, ![8, 256]⟩
abbrev S8x1 : Shape := ⟨2, ![8, 1]⟩
abbrev S10000x8 : Shape := ⟨2, ![10000, 8]⟩
abbrev S8 : Shape := ⟨1, ![8]⟩

abbrev nBuf : Space → Nat
  | .hbm => 15
  | .vmem => 28
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S200000, .i32⟩
  | .hbm, ⟨3, _⟩ => ⟨S256x1, .f32⟩
  | .hbm, ⟨4, _⟩ => ⟨S1, .f32⟩
  | .hbm, ⟨5, _⟩ => ⟨S256x256, .f32⟩
  | .hbm, ⟨6, _⟩ => ⟨S256, .f32⟩
  | .hbm, ⟨7, _⟩ => ⟨S200000x1, .i32⟩
  | .hbm, ⟨8, _⟩ => ⟨S1x1, .f32⟩
  | .hbm, ⟨9, _⟩ => ⟨S1x256, .f32⟩
  | .hbm, ⟨10, _⟩ => ⟨S2x8x256, .f32⟩
  | .hbm, ⟨11, _⟩ => ⟨S2x8x1, .f32⟩
  | .hbm, ⟨12, _⟩ => ⟨S200000x1, .f32⟩
  | .hbm, ⟨13, _⟩ => ⟨S8x256, .f32⟩
  | .hbm, ⟨14, _⟩ => ⟨S200000x256, .f32⟩
  | .local _ .vmem, ⟨0, _⟩ => ⟨S10000x256, .f32⟩
  | .local _ .vmem, ⟨1, _⟩ => ⟨S10000x256, .f32⟩
  | .local _ .vmem, ⟨2, _⟩ => ⟨S10000x256, .f32⟩
  | .local _ .vmem, ⟨3, _⟩ => ⟨S10000x256, .f32⟩
  | .local _ .vmem, ⟨4, _⟩ => ⟨S10000x1, .i32⟩
  | .local _ .vmem, ⟨5, _⟩ => ⟨S10000x1, .i32⟩
  | .local _ .vmem, ⟨6, _⟩ => ⟨S256x1, .f32⟩
  | .local _ .vmem, ⟨7, _⟩ => ⟨S1x1, .f32⟩
  | .local _ .vmem, ⟨8, _⟩ => ⟨S1x8x256, .f32⟩
  | .local _ .vmem, ⟨9, _⟩ => ⟨S1x8x256, .f32⟩
  | .local _ .vmem, ⟨10, _⟩ => ⟨S1x8x1, .f32⟩
  | .local _ .vmem, ⟨11, _⟩ => ⟨S1x8x1, .f32⟩
  | .local _ .vmem, ⟨12, _⟩ => ⟨S10000x1, .f32⟩
  | .local _ .vmem, ⟨13, _⟩ => ⟨S10000x1, .f32⟩
  | .local _ .vmem, ⟨14, _⟩ => ⟨S2x8x256, .f32⟩
  | .local _ .vmem, ⟨15, _⟩ => ⟨S2x8x1, .f32⟩
  | .local _ .vmem, ⟨16, _⟩ => ⟨S256x256, .f32⟩
  | .local _ .vmem, ⟨17, _⟩ => ⟨S1x256, .f32⟩
  | .local _ .vmem, ⟨18, _⟩ => ⟨S8x256, .f32⟩
  | .local _ .vmem, ⟨19, _⟩ => ⟨S10000x256, .f32⟩
  | .local _ .vmem, ⟨20, _⟩ => ⟨S10000x256, .f32⟩
  | .local _ .vmem, ⟨21, _⟩ => ⟨S10000x1, .f32⟩
  | .local _ .vmem, ⟨22, _⟩ => ⟨S10000x1, .f32⟩
  | .local _ .vmem, ⟨23, _⟩ => ⟨S10000x1, .i32⟩
  | .local _ .vmem, ⟨24, _⟩ => ⟨S10000x1, .i32⟩
  | .local _ .vmem, ⟨25, _⟩ => ⟨S8x256, .f32⟩
  | .local _ .vmem, ⟨26, _⟩ => ⟨S10000x256, .f32⟩
  | .local _ .vmem, ⟨27, _⟩ => ⟨S10000x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem4_1 : DmaSem sig := 27

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S10000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S10000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x8x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x8x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S8x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S200000_S200000x1 : S200000.ShapeCasts S200000x1
  shapeCasts_S1_S1x1 : S1.ShapeCasts S1x1
  shapeCasts_S256_S1x256 : S256.ShapeCasts S1x256
  inb_S1x8x256_S1x8x256_0_0_0 : ∀ a, (![0, 0, 0] : Fin 3 → Nat) a + S1x8x256.size a ≤ S1x8x256.size a
  h_S1x8x256 : 0 < S1x8x256.numel
  shapeCasts_S1x8x256_S8x256 : S1x8x256.ShapeCasts S8x256
  shapeCasts_S8x256_S1x8x256 : S8x256.ShapeCasts S1x8x256
  inb_S1x8x1_S1x8x1_0_0_0 : ∀ a, (![0, 0, 0] : Fin 3 → Nat) a + S1x8x1.size a ≤ S1x8x1.size a
  h_S1x8x1 : 0 < S1x8x1.numel
  shapeCasts_S1x8x1_S8x1 : S1x8x1.ShapeCasts S8x1
  shapeCasts_S8x1_S1x8x1 : S8x1.ShapeCasts S1x8x1
  inb_S10000x256_S10000x256_0_0 : ∀ a, (![0, 0] : Fin 2 → Nat) a + S10000x256.size a ≤ S10000x256.size a
  h_S10000x256 : 0 < S10000x256.numel
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  broadcasts_S10000x1_S10000x256 : S10000x1.Broadcasts S10000x256
  shapeCasts_S10000x1_S10000x1 : S10000x1.ShapeCasts S10000x1
  iota_S10000x8_d1_w32 : S10000x8.Iotas .tc 32 [1]
  broadcasts_S10000x1_S10000x8 : S10000x1.Broadcasts S10000x8
  natLt_1_32 : 1 < 32
  inb_S2x8x256_S2x8x256_0_0_0 : ∀ a, (![0, 0, 0] : Fin 3 → Nat) a + S2x8x256.size a ≤ S2x8x256.size a
  h_S2x8x256 : 0 < S2x8x256.numel
  shapeCasts_S2x8x256_S2x8x256 : S2x8x256.ShapeCasts S2x8x256
  reduces_S2x8x256_S8x256 : S2x8x256.Reduces [0] S8x256
  inb_S2x8x1_S2x8x1_0_0_0 : ∀ a, (![0, 0, 0] : Fin 3 → Nat) a + S2x8x1.size a ≤ S2x8x1.size a
  h_S2x8x1 : 0 < S2x8x1.numel
  shapeCasts_S2x8x1_S2x8x1 : S2x8x1.ShapeCasts S2x8x1
  reduces_S2x8x1_S8x1 : S2x8x1.Reduces [0] S8x1
  broadcasts_S8x1_S8x256 : S8x1.Broadcasts S8x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8x256 : S1x256.Broadcasts S8x256
  reduces_S8x256_S8 : S8x256.Reduces [1] S8
  shapeCasts_S8_S8x1 : S8.ShapeCasts S8x1
  inb_S8x256_S8x256_0_0 : ∀ a, (![0, 0] : Fin 2 → Nat) a + S8x256.size a ≤ S8x256.size a
  h_S8x256 : 0 < S8x256.numel
  shapeCasts_S8x256_S8x256 : S8x256.ShapeCasts S8x256
  dot_S10000x256_S256x1_S10000x1_1_0_0_1_n_n_wf : DotDims.WF S10000x256 S256x1 S10000x1 [1] [0] [0] [1] [] []
  dot_S10000x8_S10000x256_S8x256_0_0_1_1_n_n_wf : DotDims.WF S10000x8 S10000x256 S8x256 [0] [0] [1] [1] [] []
  dot_S10000x8_S10000x1_S8x1_0_0_1_1_n_n_wf : DotDims.WF S10000x8 S10000x1 S8x1 [0] [0] [1] [1] [] []
  dot_S8x256_S256x256_S8x256_1_1_0_0_n_n_wf : DotDims.WF S8x256 S256x256 S8x256 [1] [1] [0] [0] [] []
  dot_S10000x8_S8x256_S10000x256_1_0_0_1_n_n_wf : DotDims.WF S10000x8 S8x256 S10000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S200000x256.size a
  hwx0_0 : ∀ i : grid0.Coords, EltTy.bits .f32 = 32 ∨ (Rect.block (s := S200000x256) S10000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S200000x256.size a
  hwx0_1 : ∀ i : grid0.Coords, EltTy.bits .f32 = 32 ∨ (Rect.block (s := S200000x256) S10000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S200000x1.size a
  hwx0_2 : ∀ i : grid0.Coords, EltTy.bits .i32 = 32 ∨ (Rect.block (s := S200000x1) S10000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x256.size a ≤ S2x8x256.size a
  hwx0_5 : ∀ i : grid0.Coords, EltTy.bits .f32 = 32 ∨ (Rect.block (s := S2x8x256) S1x8x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x1.size a ≤ S2x8x1.size a
  hwx0_6 : ∀ i : grid0.Coords, EltTy.bits .f32 = 32 ∨ (Rect.block (s := S2x8x1) S1x8x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x1.size a ≤ S200000x1.size a
  hwx0_7 : ∀ i : grid0.Coords, EltTy.bits .f32 = 32 ∨ (Rect.block (s := S200000x1) S10000x1.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x8x256.size a ≤ S2x8x256.size a
  hwx1_0 : ∀ i : grid1.Coords, EltTy.bits .f32 = 32 ∨ (Rect.block (s := S2x8x256) S2x8x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x8x1.size a ≤ S2x8x1.size a
  hwx1_1 : ∀ i : grid1.Coords, EltTy.bits .f32 = 32 ∨ (Rect.block (s := S2x8x1) S2x8x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x256.size a ≤ S8x256.size a
  hwx1_4 : ∀ i : grid1.Coords, EltTy.bits .f32 = 32 ∨ (Rect.block (s := S8x256) S8x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x256.size a ≤ S200000x256.size a
  hwx2_0 : ∀ i : grid2.Coords, EltTy.bits .f32 = 32 ∨ (Rect.block (s := S200000x256) S10000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S200000x1.size a
  hwx2_1 : ∀ i : grid2.Coords, EltTy.bits .f32 = 32 ∨ (Rect.block (s := S200000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S200000x1.size a
  hwx2_2 : ∀ i : grid2.Coords, EltTy.bits .i32 = 32 ∨ (Rect.block (s := S200000x1) S10000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8x256.size a ≤ S8x256.size a
  hwx2_3 : ∀ i : grid2.Coords, EltTy.bits .f32 = 32 ∨ (Rect.block (s := S8x256) S8x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x256.size a ≤ S200000x256.size a
  hwx2_4 : ∀ i : grid2.Coords, EltTy.bits .f32 = 32 ∨ (Rect.block (s := S200000x256) S10000x256.size (cc2_transform_4 i) (hinb2_4 i)).WholeWords (EltTy.packing .f32)

variable [Facts₀]

def dot_S10000x256_S256x1_S10000x1_1_0_0_1_n_n : DotDims S10000x256 S256x1 S10000x1 where
  lhsContracting := [1]
  rhsContracting := [0]
  lhsNonContracting := [0]
  rhsNonContracting := [1]
  lhsBatch := []
  rhsBatch := []
  wf := dot_S10000x256_S256x1_S10000x1_1_0_0_1_n_n_wf
def dot_S10000x8_S10000x256_S8x256_0_0_1_1_n_n : DotDims S10000x8 S10000x256 S8x256 where
  lhsContracting := [0]
  rhsContracting := [0]
  lhsNonContracting := [1]
  rhsNonContracting := [1]
  lhsBatch := []
  rhsBatch := []
  wf := dot_S10000x8_S10000x256_S8x256_0_0_1_1_n_n_wf
def dot_S10000x8_S10000x1_S8x1_0_0_1_1_n_n : DotDims S10000x8 S10000x1 S8x1 where
  lhsContracting := [0]
  rhsContracting := [0]
  lhsNonContracting := [1]
  rhsNonContracting := [1]
  lhsBatch := []
  rhsBatch := []
  wf := dot_S10000x8_S10000x1_S8x1_0_0_1_1_n_n_wf
def dot_S8x256_S256x256_S8x256_1_1_0_0_n_n : DotDims S8x256 S256x256 S8x256 where
  lhsContracting := [1]
  rhsContracting := [1]
  lhsNonContracting := [0]
  rhsNonContracting := [0]
  lhsBatch := []
  rhsBatch := []
  wf := dot_S8x256_S256x256_S8x256_1_1_0_0_n_n_wf
def dot_S10000x8_S8x256_S10000x256_1_0_0_1_n_n : DotDims S10000x8 S8x256 S10000x256 where
  lhsContracting := [1]
  rhsContracting := [0]
  lhsNonContracting := [0]
  rhsNonContracting := [1]
  lhsBatch := []
  rhsBatch := []
  wf := dot_S10000x8_S8x256_S10000x256_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1x8x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1x8x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_2) S10000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v3_0) S2x8x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S2x8x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S8x256.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S10000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3_2) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S8x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S10000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S200000x256 : Shape := ⟨2, ![200000, 256]⟩
abbrev S200000 : Shape := ⟨1, ![200000]⟩
abbrev S256x1 : Shape := ⟨2, ![256, 1]⟩
abbrev S1 : Shape := ⟨1, ![1]⟩
abbrev S256x256 : Shape := ⟨2, ![256, 256]⟩
abbrev S256 : Shape := ⟨1, ![256]⟩
abbrev S200000x1 : Shape := ⟨2, ![200000, 1]⟩
abbrev S1x1 : Shape := ⟨2, ![1, 1]⟩
abbrev S_ : Shape := ⟨0, ![]⟩
abbrev S8x256 : Shape := ⟨2, ![8, 256]⟩
abbrev S8x1 : Shape := ⟨2, ![8, 1]⟩
abbrev S1x256 : Shape := ⟨2, ![1, 256]⟩
abbrev S8 : Shape := ⟨1, ![8]⟩

abbrev nBuf : Space → Nat
  | .hbm => 69
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S200000, .i32⟩
  | .hbm, ⟨3, _⟩ => ⟨S256x1, .f32⟩
  | .hbm, ⟨4, _⟩ => ⟨S1, .f32⟩
  | .hbm, ⟨5, _⟩ => ⟨S256x256, .f32⟩
  | .hbm, ⟨6, _⟩ => ⟨S256, .f32⟩
  | .hbm, ⟨7, _⟩ => ⟨S200000x1, .f32⟩
  | .hbm, ⟨8, _⟩ => ⟨S1x1, .f32⟩
  | .hbm, ⟨9, _⟩ => ⟨S200000x1, .f32⟩
  | .hbm, ⟨10, _⟩ => ⟨S200000x1, .f32⟩
  | .hbm, ⟨11, _⟩ => ⟨S200000x1, .f32⟩
  | .hbm, ⟨12, _⟩ => ⟨S200000x1, .f32⟩
  | .hbm, ⟨13, _⟩ => ⟨S_, .f32⟩
  | .hbm, ⟨14, _⟩ => ⟨S200000x1, .f32⟩
  | .hbm, ⟨15, _⟩ => ⟨S200000x1, .f32⟩
  | .hbm, ⟨16, _⟩ => ⟨S_, .f32⟩
  | .hbm, ⟨17, _⟩ => ⟨S200000x1, .f32⟩
  | .hbm, ⟨18, _⟩ => ⟨S200000x1, .f32⟩
  | .hbm, ⟨19, _⟩ => ⟨S200000x256, .f32⟩
  | .hbm, ⟨20, _⟩ => ⟨S200000x256, .f32⟩
  | .hbm, ⟨21, _⟩ => ⟨S_, .f32⟩
  | .hbm, ⟨22, _⟩ => ⟨S8x256, .f32⟩
  | .hbm, ⟨23, _⟩ => ⟨S200000x1, .i32⟩
  | .hbm, ⟨24, _⟩ => ⟨S8x256, .f32⟩
  | .hbm, ⟨25, _⟩ => ⟨S_, .f32⟩
  | .hbm, ⟨26, _⟩ => ⟨S200000x1, .f32⟩
  | .hbm, ⟨27, _⟩ => ⟨S_, .f32⟩
  | .hbm, ⟨28, _⟩ => ⟨S8x1, .f32⟩
  | .hbm, ⟨29, _⟩ => ⟨S200000x1, .i32⟩
  | .hbm, ⟨30, _⟩ => ⟨S8x1, .f32⟩
  | .hbm, ⟨31, _⟩ => ⟨S_, .f32⟩
  | .hbm, ⟨32, _⟩ => ⟨S8x1, .f32⟩
  | .hbm, ⟨33, _⟩ => ⟨S8x1, .f32⟩
  | .hbm, ⟨34, _⟩ => ⟨S8x256, .f32⟩
  | .hbm, ⟨35, _⟩ => ⟨S8x256, .f32⟩
  | .hbm, ⟨36, _⟩ => ⟨S256x256, .f32⟩
  | .hbm, ⟨37, _⟩ => ⟨S8x256, .f32⟩
  | .hbm, ⟨38, _⟩ => ⟨S1x256, .f32⟩
  | .hbm, ⟨39, _⟩ => ⟨S8x256, .f32⟩
  | .hbm, ⟨40, _⟩ => ⟨S8x256, .f32⟩
  | .hbm, ⟨41, _⟩ => ⟨S_, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S8x1, .f32⟩
  | .hbm, ⟨47, _⟩ => ⟨S8x256, .f32⟩
  | .hbm, ⟨48, _⟩ => ⟨S8x256, .f32⟩
  | .hbm, ⟨49, _⟩ => ⟨S8x256, .f32⟩
  | .hbm, ⟨50, _⟩ => ⟨S_, .f32⟩
  | .hbm, ⟨51, _⟩ => ⟨S8, .f32⟩
  | .hbm, ⟨52, _⟩ => ⟨S8x1, .f32⟩
  | .hbm, ⟨53, _⟩ => ⟨S8x256, .f32⟩
  | .hbm, ⟨54, _⟩ => ⟨S8x256, .f32⟩
  | .hbm, ⟨55, _⟩ => ⟨S_, .f32⟩
  | .hbm, ⟨56, _⟩ => ⟨S8x256, .f32⟩
  | .hbm, ⟨57, _⟩ => ⟨S8x256, .f32⟩
  | .hbm, ⟨58, _⟩ => ⟨S_, .i32⟩
  | .hbm, ⟨59, _⟩ => ⟨S200000, .i32⟩
  | .hbm, ⟨60, _⟩ => ⟨S200000, .i1⟩
  | .hbm, ⟨61, _⟩ => ⟨S_, .i32⟩
  | .hbm, ⟨62, _⟩ => ⟨S200000, .i32⟩
  | .hbm, ⟨63, _⟩ => ⟨S200000, .i32⟩
  | .hbm, ⟨64, _⟩ => ⟨S200000, .i32⟩
  | .hbm, ⟨65, _⟩ => ⟨S200000x1, .i32⟩
  | .hbm, ⟨66, _⟩ => ⟨S200000x256, .f32⟩
  | .hbm, ⟨67, _⟩ => ⟨S200000x256, .f32⟩
  | .hbm, ⟨68, _⟩ => ⟨S200000x256, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_c : Ref sig .tc := ⟨.hbm, 58, rfl⟩
abbrev main_v41 : Ref sig .tc := ⟨.hbm, 59, rfl⟩
abbrev main_v42 : Ref sig .tc := ⟨.hbm, 60, rfl⟩
abbrev main_c_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  bcast_S200000x1_S200000x256_0_1 : S200000x1.BroadcastsInDim S200000x256 (![0, 1] : Fin 2 → Fin S200000x256.rank)
  bcast_S_S8x256 : S_.BroadcastsInDim S8x256 (![] : Fin 0 → Fin S8x256.rank)
  bcast_S200000_S200000x1_0 : S200000.BroadcastsInDim S200000x1 (![0] : Fin 1 → Fin S200000x1.rank)
  bcast_S_S8x1 : S_.BroadcastsInDim S8x1 (![] : Fin 0 → Fin S8x1.rank)
  bcast_S8x1_S8x256_0_1 : S8x1.BroadcastsInDim S8x256 (![0, 1] : Fin 2 → Fin S8x256.rank)
  transposes_S256x256_S256x256_1_0 : S256x256.Transposes [1, 0] S256x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  reducesTo_S8x256_S8_d1 : S8x256.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S_S200000 : S_.BroadcastsInDim S200000 (![] : Fin 0 → Fin S200000.rank)
  dot_S200000x256_S256x1_S200000x1_1_0_0_1_n_n_wf : DotDims.WF S200000x256 S256x1 S200000x1 [1] [0] [0] [1] [] []
  scatter_S8x256_S200000x1_S200000x256_1_0_0_1_wf : ScatterDims.WF S8x256 S200000x1 S200000x256 [1] [0] [0] 1
  scatter_S8x1_S200000x1_S200000x1_1_0_0_1_wf : ScatterDims.WF S8x1 S200000x1 S200000x1 [1] [0] [0] 1
  dot_S8x256_S256x256_S8x256_1_0_0_1_n_n_wf : DotDims.WF S8x256 S256x256 S8x256 [1] [0] [0] [1] [] []
  gather_S8x256_S200000x1_S200000x256_1_0_n_n_0_1_1256_wf : GatherDims.WF S8x256 S200000x1 S200000x256 [1] [0] [] [0] [] 1 ![1, 256]

variable [Facts₀]

def dot_S200000x256_S256x1_S200000x1_1_0_0_1_n_n : DotDims S200000x256 S256x1 S200000x1 where
  lhsContracting := [1]
  rhsContracting := [0]
  lhsNonContracting := [0]
  rhsNonContracting := [1]
  lhsBatch := []
  rhsBatch := []
  wf := dot_S200000x256_S256x1_S200000x1_1_0_0_1_n_n_wf
def scatter_S8x256_S200000x1_S200000x256_1_0_0_1 : ScatterDims S8x256 S200000x1 S200000x256 where
  updateWindowDims := [1]
  insertedWindowDims := [0]
  scatterDimsToOperandDims := [0]
  indexVectorDim := 1
  wf := scatter_S8x256_S200000x1_S200000x256_1_0_0_1_wf
def scatter_S8x1_S200000x1_S200000x1_1_0_0_1 : ScatterDims S8x1 S200000x1 S200000x1 where
  updateWindowDims := [1]
  insertedWindowDims := [0]
  scatterDimsToOperandDims := [0]
  indexVectorDim := 1
  wf := scatter_S8x1_S200000x1_S200000x1_1_0_0_1_wf
def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf
def gather_S8x256_S200000x1_S200000x256_1_0_n_n_0_1_1256 : GatherDims S8x256 S200000x1 S200000x256 where
  offsetDims := [1]
  collapsedSliceDims := [0]
  operandBatchingDims := []
  startIndicesBatchingDims := []
  startIndexMap := [0]
  indexVectorDim := 1
  sliceSizes := ![1, 256]
  wf := gather_S8x256_S200000x1_S200000x256_1_0_n_n_0_1_1256_wf

class Facts : Prop extends Facts₀ where

variable [Facts]
-- ==== Proof.LibDotCols.lean ====
/-
  A product of two matrices that contracts the left operand's LAST axis with the right operand's FIRST, read at an entry.

  For a left operand of shape [R, K], a right operand of shape [K, N] and dimension numbers
  "contract axis 1 with axis 0, free axes 0 and 1, no batch axes", the contraction shape has the one axis of extent
  K, the left operand is read at (p, k) and the right at (k, n); so over the extended reals the product accumulated
  into an accumulator `acc` is, at (p, n), `acc (p, n) + ∑ k, l (p, k) * r (k, n)`: row p of the left operand against
  column n of the right.  Stated for ANY such record of dimension numbers, whatever its name, from the six equations
  that say which lists it holds (each `rfl` for a printed record).
-/
import Idealize.ShloMosaic.PureOps.Ideal.Laws
import Idealize.ShloMosaic.Lib.ValueIdx

noncomputable section

namespace Cert.LibDotCols

open Idealize.ShloMosaic Idealize.ShloMosaic.ValueIdx

variable {R K N : Nat} (D : DotDims ⟨2, ![R, K]⟩ ⟨2, ![K, N]⟩ ⟨2, ![R, N]⟩)

/-- Two coordinates of an index named by equal numbers are equal. -/
private theorem coord_congr {s : Shape} (i : s.Idx) (a b : Nat) (ha : a < s.rank) (hb : b < s.rank) (h : a = b) :
    (i ⟨a, ha⟩).val = (i ⟨b, hb⟩).val := by subst h; rfl

/-- One axis is contracted. -/
theorem contr_rank (hlc : D.lhsContracting = [1]) : D.contr.rank = 1 := by
  rw [D.rank_contr, hlc]; rfl

/-- Its extent is K, the left operand's second extent. -/
theorem contr_size (hlc : D.lhsContracting = [1]) :
    D.contr.size ⟨0, by rw [contr_rank D hlc]; exact Nat.one_pos⟩ = K := by
  have h := D.size_contr 0 (by rw [hlc]; exact Nat.one_pos)
  refine h.trans ?_
  simp only [hlc, List.getElem_cons_zero]
  rfl

/-- The left operand's row is the result's row. -/
theorem lhs_row (hln : D.lhsNonContracting = [0]) (hlb : D.lhsBatch = [])
    (i : (⟨2, ![R, N]⟩ : Shape).Idx) (q : D.contr.Idx) : (D.lhsIdx i q 0).val = (i 0).val := by
  unfold DotDims.lhsIdx
  rw [dif_neg (show ¬(0 : Fin (⟨2, ![R, K]⟩ : Shape).rank) ∈ D.lhsBatch by rw [hlb]; exact List.not_mem_nil),
    dif_pos (show (0 : Fin (⟨2, ![R, K]⟩ : Shape).rank) ∈ D.lhsNonContracting by rw [hln]; exact List.mem_singleton.mpr rfl)]
  simp only [Fin.val_cast]
  exact coord_congr i _ 0 _ (show 0 < 2 from Nat.two_pos) (by simp [hlb, hln])

/-- The left operand's column is the contraction coordinate. -/
theorem lhs_col (hlc : D.lhsContracting = [1]) (i : (⟨2, ![R, N]⟩ : Shape).Idx) (q : D.contr.Idx) :
    (D.lhsIdx i q 1).val = (q ⟨0, by rw [contr_rank D hlc]; exact Nat.one_pos⟩).val :=
  D.lhsIdx_val_of_single hlc i q

/-- The right operand's row is the contraction coordinate. -/
theorem rhs_row (hlc : D.lhsContracting = [1]) (hrc : D.rhsContracting = [0]) (i : (⟨2, ![R, N]⟩ : Shape).Idx)
    (q : D.contr.Idx) : (D.rhsIdx i q 0).val = (q ⟨0, by rw [contr_rank D hlc]; exact Nat.one_pos⟩).val :=
  D.rhsIdx_val_of_single hrc i q

/-- The right operand's column is the result's column. -/
theorem rhs_col (hln : D.lhsNonContracting = [0]) (hrn : D.rhsNonContracting = [1]) (hlb : D.lhsBatch = [])
    (hrb : D.rhsBatch = []) (i : (⟨2, ![R, N]⟩ : Shape).Idx) (q : D.contr.Idx) : (D.rhsIdx i q 1).val = (i 1).val := by
  unfold DotDims.rhsIdx
  rw [dif_neg (show ¬(1 : Fin (⟨2, ![K, N]⟩ : Shape).rank) ∈ D.rhsBatch by rw [hrb]; exact List.not_mem_nil),
    dif_pos (show (1 : Fin (⟨2, ![K, N]⟩ : Shape).rank) ∈ D.rhsNonContracting by rw [hrn]; exact List.mem_singleton.mpr rfl)]
  simp only [Fin.val_cast]
  exact coord_congr i _ 1 _ (show 1 < 2 from Nat.one_lt_two) (by simp [hlb, hln, hrn])

/-- THE PRODUCT AT AN ENTRY: at (p, n) it is the accumulator's entry plus row p of the left operand against column n
    of the right. -/
theorem matmul_cols {φ₁ φ₂ : FTy} (prec : Option ContractPrecision)
    (hlc : D.lhsContracting = [1]) (hrc : D.rhsContracting = [0]) (hln : D.lhsNonContracting = [0])
    (hrn : D.rhsNonContracting = [1]) (hlb : D.lhsBatch = []) (hrb : D.rhsBatch = [])
    (l : FVec Ideal ⟨2, ![R, K]⟩ φ₁) (r : FVec Ideal ⟨2, ![K, N]⟩ φ₂) (acc : FVec Ideal ⟨2, ![R, N]⟩ .f32) (p : Fin R) (n : Fin N) :
    FloatOps.matmul D prec l r acc (ix2 p n) = acc (ix2 p n) + ∑ k : Fin K, l (ix2 p k) * r (ix2 k n) := by
  rw [Ideal.matmul_apply,
    ← Equiv.sum_comp (contrEquiv1 D K (contr_rank D hlc) (contr_size D hlc)).symm]
  refine congrArg (acc (ix2 p n) + ·) (Finset.sum_congr rfl fun k _ => ?_)
  have hk := contrEquiv1_symm_val D K (contr_rank D hlc) (contr_size D hlc) k
  have el : D.lhsIdx (ix2 p n) ((contrEquiv1 D K (contr_rank D hlc) (contr_size D hlc)).symm k) = ix2 p k :=
    funext fun a => Fin.ext (by
      match a with
      | ⟨0, _⟩ => exact lhs_row D hln hlb _ _
      | ⟨1, _⟩ => exact (lhs_col D hlc _ _).trans hk)
  have er : D.rhsIdx (ix2 p n) ((contrEquiv1 D K (contr_rank D hlc) (contr_size D hlc)).symm k) = ix2 k n :=
    funext fun a => Fin.ext (by
      match a with
      | ⟨0, _⟩ => exact (rhs_row D hlc hrc _ _).trans hk
      | ⟨1, _⟩ => exact rhs_col D hln hrn hlb hrb _ _)
  rw [el, er]

end Cert.LibDotCols

end
-- ==== Proof.LibDotFirst.lean ====
/-
  A product of two matrices that contracts the FIRST axis of both operands, read at an entry.

  For a left operand of shape [K, R], a right operand of shape [K, N] and dimension numbers
  "contract axis 0 with axis 0, free axes 1 and 1, no batch axes", the contraction shape has the one axis of extent
  K, the left operand is read at (k, p) and the right at (k, n); so over the extended reals the product accumulated
  into an accumulator `acc` is, at (p, n), `acc (p, n) + ∑ k, l (k, p) * r (k, n)`: column p of the left operand
  against column n of the right (the left operand enters transposed).  Stated for ANY such record of dimension
  numbers, whatever its name, from the six equations that say which lists it holds (each `rfl` for a printed record).
-/
import Idealize.ShloMosaic.PureOps.Ideal.Laws
import Idealize.ShloMosaic.Lib.ValueIdx

noncomputable section

namespace Cert.LibDotFirst

open Idealize.ShloMosaic Idealize.ShloMosaic.ValueIdx

variable {K R N : Nat} (D : DotDims ⟨2, ![K, R]⟩ ⟨2, ![K, N]⟩ ⟨2, ![R, N]⟩)

/-- An index read at two positions named by equal numbers gives equal coordinates. -/
private theorem coord_congr {s : Shape} (i : s.Idx) (a b : Nat) (ha : a < s.rank) (hb : b < s.rank) (h : a = b) :
    (i ⟨a, ha⟩).val = (i ⟨b, hb⟩).val := by subst h; rfl

/-- One axis is contracted. -/
theorem contr_rank (hlc : D.lhsContracting = [0]) : D.contr.rank = 1 := by
  rw [D.rank_contr, hlc]; rfl

/-- Its extent is K, the left operand's first extent. -/
theorem contr_size (hlc : D.lhsContracting = [0]) :
    D.contr.size ⟨0, by rw [contr_rank D hlc]; exact Nat.one_pos⟩ = K := by
  have h := D.size_contr 0 (by rw [hlc]; exact Nat.one_pos)
  refine h.trans ?_
  simp only [hlc, List.getElem_cons_zero]
  rfl

/-- The left operand's row is the contraction coordinate. -/
theorem lhs_row (hlc : D.lhsContracting = [0]) (i : (⟨2, ![R, N]⟩ : Shape).Idx) (q : D.contr.Idx) :
    (D.lhsIdx i q 0).val = (q ⟨0, by rw [contr_rank D hlc]; exact Nat.one_pos⟩).val :=
  D.lhsIdx_val_of_single hlc i q

/-- The left operand's column is the result's row. -/
theorem lhs_col (hln : D.lhsNonContracting = [1]) (hlb : D.lhsBatch = [])
    (i : (⟨2, ![R, N]⟩ : Shape).Idx) (q : D.contr.Idx) : (D.lhsIdx i q 1).val = (i 0).val := by
  unfold DotDims.lhsIdx
  rw [dif_neg (show ¬(1 : Fin (⟨2, ![K, R]⟩ : Shape).rank) ∈ D.lhsBatch by rw [hlb]; exact List.not_mem_nil),
    dif_pos (show (1 : Fin (⟨2, ![K, R]⟩ : Shape).rank) ∈ D.lhsNonContracting by rw [hln]; exact List.mem_singleton.mpr rfl)]
  simp only [Fin.val_cast]
  exact coord_congr i _ 0 _ (show 0 < 2 from Nat.two_pos) (by simp [hlb, hln])

/-- The right operand's row is the contraction coordinate. -/
theorem rhs_row (hlc : D.lhsContracting = [0]) (hrc : D.rhsContracting = [0]) (i : (⟨2, ![R, N]⟩ : Shape).Idx)
    (q : D.contr.Idx) : (D.rhsIdx i q 0).val = (q ⟨0, by rw [contr_rank D hlc]; exact Nat.one_pos⟩).val :=
  D.rhsIdx_val_of_single hrc i q

/-- The right operand's column is the result's column. -/
theorem rhs_col (hln : D.lhsNonContracting = [1]) (hrn : D.rhsNonContracting = [1]) (hlb : D.lhsBatch = [])
    (hrb : D.rhsBatch = []) (i : (⟨2, ![R, N]⟩ : Shape).Idx) (q : D.contr.Idx) : (D.rhsIdx i q 1).val = (i 1).val := by
  unfold DotDims.rhsIdx
  rw [dif_neg (show ¬(1 : Fin (⟨2, ![K, N]⟩ : Shape).rank) ∈ D.rhsBatch by rw [hrb]; exact List.not_mem_nil),
    dif_pos (show (1 : Fin (⟨2, ![K, N]⟩ : Shape).rank) ∈ D.rhsNonContracting by rw [hrn]; exact List.mem_singleton.mpr rfl)]
  simp only [Fin.val_cast]
  exact coord_congr i _ 1 _ (show 1 < 2 from Nat.one_lt_two) (by simp [hlb, hln, hrn])

/-- THE PRODUCT AT AN ENTRY: at (p, n) it is the accumulator's entry plus column p of the left operand against
    column n of the right. -/
theorem matmul_first {φ₁ φ₂ : FTy} (prec : Option ContractPrecision)
    (hlc : D.lhsContracting = [0]) (hrc : D.rhsContracting = [0]) (hln : D.lhsNonContracting = [1])
    (hrn : D.rhsNonContracting = [1]) (hlb : D.lhsBatch = []) (hrb : D.rhsBatch = [])
    (l : FVec Ideal ⟨2, ![K, R]⟩ φ₁) (r : FVec Ideal ⟨2, ![K, N]⟩ φ₂) (acc : FVec Ideal ⟨2, ![R, N]⟩ .f32) (p : Fin R) (n : Fin N) :
    FloatOps.matmul D prec l r acc (ix2 p n) = acc (ix2 p n) + ∑ k : Fin K, l (ix2 k p) * r (ix2 k n) := by
  rw [Ideal.matmul_apply,
    ← Equiv.sum_comp (contrEquiv1 D K (contr_rank D hlc) (contr_size D hlc)).symm]
  refine congrArg (acc (ix2 p n) + ·) (Finset.sum_congr rfl fun k _ => ?_)
  have hk := contrEquiv1_symm_val D K (contr_rank D hlc) (contr_size D hlc) k
  have el : D.lhsIdx (ix2 p n) ((contrEquiv1 D K (contr_rank D hlc) (contr_size D hlc)).symm k) = ix2 k p :=
    funext fun a => Fin.ext (by
      match a with
      | ⟨0, _⟩ => exact (lhs_row D hlc _ _).trans hk
      | ⟨1, _⟩ => exact lhs_col D hln hlb _ _)
  have er : D.rhsIdx (ix2 p n) ((contrEquiv1 D K (contr_rank D hlc) (contr_size D hlc)).symm k) = ix2 k n :=
    funext fun a => Fin.ext (by
      match a with
      | ⟨0, _⟩ => exact (rhs_row D hlc hrc _ _).trans hk
      | ⟨1, _⟩ => exact rhs_col D hln hrn hlb hrb _ _)
  rw [el, er]

end Cert.LibDotFirst

end
-- ==== Proof.LibSegmentSum.lean ====
import Mathlib.Data.EReal.Inv
import Mathlib.Algebra.BigOperators.Fin
import Mathlib.Algebra.BigOperators.Group.Finset.Basic
import Mathlib.Algebra.BigOperators.Group.Finset.Piecewise
import Mathlib.Data.Fintype.BigOperators
import Mathlib.Logic.Equiv.Fin.Basic

/-!
# Segment sums and gathers written as one-hot matrix products

A gather `h[src e]` can be computed as the product of a one-hot row `(src e = k)_k` with `h`,
and a scatter-add (segment sum) `∑_{e : dst e = n} m e` as the product of the transposed
one-hot matrix `(n = dst e)_e` with `m`; either product can be accumulated block by block.
The lemmas of this file say that these products are the plain gather and the plain segment sum,
over the extended reals (where `0 * x = 0` for every `x`, infinite ones included) and with
node identifiers read as 32-bit two's complement words.
-/

namespace Cert.LibSegmentSum

open Finset

/-! ## Sums read block by block -/

/-- The position `a * B + b` of the `b`-th entry of the `a`-th block lies below `A * B`. -/
theorem blk_lt {A B : ℕ} (a : Fin A) (b : Fin B) : a.val * B + b.val < A * B := by
  calc a.val * B + b.val < a.val * B + B := Nat.add_lt_add_left b.isLt _
    _ = (a.val + 1) * B := (Nat.succ_mul _ _).symm
    _ ≤ A * B := Nat.mul_le_mul_right _ a.isLt

/-- A sum over `A * B` positions is the sum over the `A` blocks of the sums over the `B`
positions `a * B + b` of each block. -/
theorem sum_blocks {M : Type*} [AddCommMonoid M] (A B : ℕ) (f : Fin (A * B) → M) :
    ∑ a : Fin A, ∑ b : Fin B, f ⟨a.val * B + b.val, blk_lt a b⟩ = ∑ n : Fin (A * B), f n := by
  calc ∑ a : Fin A, ∑ b : Fin B, f ⟨a.val * B + b.val, blk_lt a b⟩
      = ∑ x : Fin A × Fin B, f ⟨x.1.val * B + x.2.val, blk_lt x.1 x.2⟩ :=
        (Fintype.sum_prod_type' (fun a b => f ⟨a.val * B + b.val, blk_lt a b⟩)).symm
    _ = ∑ x : Fin A × Fin B, f (finProdFinEquiv x) := by
        refine Fintype.sum_congr _ _ fun x => congrArg f (Fin.ext ?_)
        show x.1.val * B + x.2.val = x.2.val + B * x.1.val
        rw [Nat.mul_comm, Nat.add_comm]
    _ = ∑ n : Fin (A * B), f n := Equiv.sum_comp finProdFinEquiv f

/-- An accumulator that starts at `0` and adds `g a` at step `a` holds `∑ a < A, g a`
after `A` steps. -/
theorem acc_eq_sum {M : Type*} [AddCommMonoid M] (A : ℕ) (g : ℕ → M) (acc : ℕ → M)
    (h0 : acc 0 = 0) (hs : ∀ a, a < A → acc (a + 1) = acc a + g a) :
    acc A = ∑ a : Fin A, g a.val := by
  induction A with
  | zero => simpa using h0
  | succ A ih =>
    rw [hs A (Nat.lt_succ_self A), ih (fun a ha => hs a (Nat.lt_succ_of_lt ha)),
      Fin.sum_univ_castSucc]
    rfl

/-- The accumulator recursion of a blocked sum: starting at `0` and adding at step `a` the
partial sum `0 + ∑ b, f (a * B + b)` of block `a` gives, after `A` steps, the whole sum. -/
theorem acc_blocks {M : Type*} [AddCommMonoid M] (A B : ℕ) (f : Fin (A * B) → M) (acc : ℕ → M)
    (h0 : acc 0 = 0)
    (hs : ∀ a (ha : a < A), acc (a + 1)
      = acc a + (0 + ∑ b : Fin B, f ⟨a * B + b.val, blk_lt ⟨a, ha⟩ b⟩)) :
    acc A = ∑ n : Fin (A * B), f n := by
  have h := acc_eq_sum A
    (fun a => if ha : a < A then (0 + ∑ b : Fin B, f ⟨a * B + b.val, blk_lt ⟨a, ha⟩ b⟩) else 0)
    acc h0 (fun a ha => by rw [hs a ha, dif_pos ha])
  rw [h, ← sum_blocks]
  refine Fintype.sum_congr _ _ fun a => ?_
  rw [dif_pos a.isLt, zero_add]

/-- `sum_blocks` at `125` blocks of `800`: a sum over `100000` positions. -/
theorem sum_blocks_125_800 {M : Type*} [AddCommMonoid M] (f : Fin 100000 → M) :
    ∑ a : Fin 125, ∑ b : Fin 800, f ⟨a.val * 800 + b.val, blk_lt (A := 125) a b⟩
      = ∑ n : Fin 100000, f n :=
  sum_blocks 125 800 f

/-- `sum_blocks` at `208` blocks of `8192`: a sum over `1703936` positions. -/
theorem sum_blocks_208_8192 {M : Type*} [AddCommMonoid M] (f : Fin 1703936 → M) :
    ∑ a : Fin 208, ∑ b : Fin 8192, f ⟨a.val * 8192 + b.val, blk_lt (A := 208) a b⟩
      = ∑ n : Fin 1703936, f n :=
  sum_blocks 208 8192 f

/-- `acc_blocks` at `125` blocks of `800`. -/
theorem acc_blocks_125_800 {M : Type*} [AddCommMonoid M] (f : Fin 100000 → M) (acc : ℕ → M)
    (h0 : acc 0 = 0)
    (hs : ∀ a (ha : a < 125), acc (a + 1)
      = acc a + (0 + ∑ b : Fin 800, f ⟨a * 800 + b.val, blk_lt (A := 125) ⟨a, ha⟩ b⟩)) :
    acc 125 = ∑ n : Fin 100000, f n :=
  acc_blocks 125 800 f acc h0 hs

/-- `acc_blocks` at `208` blocks of `8192`. -/
theorem acc_blocks_208_8192 {M : Type*} [AddCommMonoid M] (f : Fin 1703936 → M) (acc : ℕ → M)
    (h0 : acc 0 = 0)
    (hs : ∀ a (ha : a < 208), acc (a + 1)
      = acc a + (0 + ∑ b : Fin 8192, f ⟨a * 8192 + b.val, blk_lt (A := 208) ⟨a, ha⟩ b⟩)) :
    acc 208 = ∑ n : Fin 1703936, f n :=
  acc_blocks 208 8192 f acc h0 hs

/-! ## Node identifiers as 32-bit words -/

/-- A natural number below `2^31`, written as a 32-bit word, reads back as itself in two's
complement. -/
theorem toInt_ofNat_small (n : ℕ) (hn : n < 2 ^ 31) : (BitVec.ofNat 32 n).toInt = (n : ℤ) := by
  have hm : n % 2 ^ 32 = n := Nat.mod_eq_of_lt (by omega)
  rw [BitVec.toInt_eq_toNat_cond, BitVec.toNat_ofNat, hm]
  split <;> omega

/-- A word whose two's complement value lies in `[0, N)` has a natural value below `N`. -/
theorem toNat_lt_of_range {s : BitVec 32} {N : ℕ} (hs : 0 ≤ s.toInt ∧ s.toInt < (N : ℤ)) :
    s.toInt.toNat < N := by
  obtain ⟨h0, h1⟩ := hs
  omega

/-- For `n < 2^31`, a word equals the word of `n` exactly when its two's complement value
is `n`. -/
theorem eq_ofNat_iff (s : BitVec 32) (n : ℕ) (hn : n < 2 ^ 31) :
    s = BitVec.ofNat 32 n ↔ s.toInt = (n : ℤ) := by
  rw [← BitVec.toInt_inj, toInt_ofNat_small n hn]

/-- The same with the two sides of the equation exchanged. -/
theorem ofNat_eq_iff (s : BitVec 32) (n : ℕ) (hn : n < 2 ^ 31) :
    BitVec.ofNat 32 n = s ↔ s.toInt = (n : ℤ) := by
  rw [eq_comm]; exact eq_ofNat_iff s n hn

/-! ## One-hot selection -/

/-- The product of the one-hot row of an in-range identifier `s` with a column `h` is the
entry `h s`: a gather. -/
theorem onehot_select (N : ℕ) (hN : N ≤ 2 ^ 31) (s : BitVec 32) (h : Fin N → EReal)
    (hs : 0 ≤ s.toInt ∧ s.toInt < (N : ℤ)) :
    ∑ n : Fin N, (if s = BitVec.ofNat 32 n.val then (1 : EReal) else 0) * h n
      = h ⟨s.toInt.toNat, toNat_lt_of_range hs⟩ := by
  have key : ∀ n : Fin N, s = BitVec.ofNat 32 n.val ↔ n = ⟨s.toInt.toNat, toNat_lt_of_range hs⟩ := by
    intro n
    have hn := n.isLt
    rw [eq_ofNat_iff s n.val (by omega), Fin.ext_iff]
    show s.toInt = (n.val : ℤ) ↔ n.val = s.toInt.toNat
    obtain ⟨h0, h1⟩ := hs
    omega
  simp only [key, ite_mul, one_mul, zero_mul]
  rw [Finset.sum_ite_eq']
  exact if_pos (mem_univ _)

/-- The one-hot row of an identifier that is negative or not below `N` is zero, and so is its
product with any column. -/
theorem onehot_select_out (N : ℕ) (hN : N ≤ 2 ^ 31) (s : BitVec 32) (h : Fin N → EReal)
    (hs : s.toInt < 0 ∨ (N : ℤ) ≤ s.toInt) :
    ∑ n : Fin N, (if s = BitVec.ofNat 32 n.val then (1 : EReal) else 0) * h n = 0 := by
  refine Finset.sum_eq_zero fun n _ => ?_
  have hn := n.isLt
  have hne : ¬ s = BitVec.ofNat 32 n.val := by
    rw [eq_ofNat_iff s n.val (by omega)]
    omega
  rw [if_neg hne, zero_mul]

/-! ## A message-passing layer with zero padding -/

/-- Gather, weight and scatter-add as two one-hot products over a zero-padded edge list:
for `E` edges `(src e, dst e)` with weights `nrm e`, every `src e` in `[0, N)`, extended by
`P` padding edges of weight `0` (whatever their end points), the product of the transposed
one-hot matrix of the destinations with the weighted gathered rows is the segment sum
`∑_{e : dst e = n} nrm e * h (src e)`.  Nothing is asked of `dst`: a destination that is
negative or not below `N` matches no `n` on either side. -/
theorem layer_padded (N E P : ℕ) (hN : N ≤ 2 ^ 31)
    (src dst : Fin E → BitVec 32) (nrm : Fin E → EReal) (h : Fin N → EReal)
    (hsrc : ∀ e, 0 ≤ (src e).toInt ∧ (src e).toInt < (N : ℤ))
    (srcP dstP : Fin (E + P) → BitVec 32) (nrmP : Fin (E + P) → EReal)
    (hsrcP : ∀ (e : Fin (E + P)) (he : e.val < E), srcP e = src ⟨e.val, he⟩)
    (hdstP : ∀ (e : Fin (E + P)) (he : e.val < E), dstP e = dst ⟨e.val, he⟩)
    (hnrmP : ∀ (e : Fin (E + P)) (he : e.val < E), nrmP e = nrm ⟨e.val, he⟩)
    (hnrm0 : ∀ e : Fin (E + P), E ≤ e.val → nrmP e = 0)
    (n : Fin N) :
    ∑ e : Fin (E + P), (if BitVec.ofNat 32 n.val = dstP e then (1 : EReal) else 0)
        * ((∑ k : Fin N, (if srcP e = BitVec.ofNat 32 k.val then (1 : EReal) else 0) * h k)
            * nrmP e)
      = ∑ e ∈ Finset.univ.filter (fun e : Fin E => (dst e).toInt = (n.val : ℤ)),
          nrm e * h ⟨(src e).toInt.toNat, toNat_lt_of_range (hsrc e)⟩ := by
  have hn : n.val < 2 ^ 31 := lt_of_lt_of_le n.isLt hN
  rw [Fin.sum_univ_add]
  -- the padding edges carry weight zero
  have hpad : ∑ i : Fin P, (if BitVec.ofNat 32 n.val = dstP (Fin.natAdd E i) then (1 : EReal) else 0)
        * ((∑ k : Fin N, (if srcP (Fin.natAdd E i) = BitVec.ofNat 32 k.val then (1 : EReal) else 0)
              * h k) * nrmP (Fin.natAdd E i)) = 0 :=
    Finset.sum_eq_zero fun i _ => by
      rw [hnrm0 (Fin.natAdd E i) (Nat.le_add_right E i.val), mul_zero, mul_zero]
  rw [hpad, add_zero, Finset.sum_filter]
  refine Fintype.sum_congr _ _ fun e => ?_
  have he : (Fin.castAdd P e).val < E := e.isLt
  rw [hsrcP _ he, hdstP _ he, hnrmP _ he]
  show (if BitVec.ofNat 32 n.val = dst e then (1 : EReal) else 0)
      * ((∑ k : Fin N, (if src e = BitVec.ofNat 32 k.val then (1 : EReal) else 0) * h k) * nrm e)
    = if (dst e).toInt = (n.val : ℤ) then
        nrm e * h ⟨(src e).toInt.toNat, toNat_lt_of_range (hsrc e)⟩ else 0
  rw [onehot_select N hN (src e) h (hsrc e)]
  by_cases hd : (dst e).toInt = (n.val : ℤ)
  · rw [if_pos hd, if_pos ((ofNat_eq_iff (dst e) n.val hn).2 hd), one_mul, mul_comm]
  · rw [if_neg hd, if_neg (fun h' => hd ((ofNat_eq_iff (dst e) n.val hn).1 h')), zero_mul]

/-- `layer_padded` at `100000` nodes and `1700000` edges padded to `1703936`. -/
theorem layer_padded_100000
    (src dst : Fin 1700000 → BitVec 32) (nrm : Fin 1700000 → EReal) (h : Fin 100000 → EReal)
    (hsrc : ∀ e, 0 ≤ (src e).toInt ∧ (src e).toInt < ((100000 : ℕ) : ℤ))
    (srcP dstP : Fin 1703936 → BitVec 32) (nrmP : Fin 1703936 → EReal)
    (hsrcP : ∀ (e : Fin 1703936) (he : e.val < 1700000), srcP e = src ⟨e.val, he⟩)
    (hdstP : ∀ (e : Fin 1703936) (he : e.val < 1700000), dstP e = dst ⟨e.val, he⟩)
    (hnrmP : ∀ (e : Fin 1703936) (he : e.val < 1700000), nrmP e = nrm ⟨e.val, he⟩)
    (hnrm0 : ∀ e : Fin 1703936, 1700000 ≤ e.val → nrmP e = 0)
    (n : Fin 100000) :
    ∑ e : Fin 1703936, (if BitVec.ofNat 32 n.val = dstP e then (1 : EReal) else 0)
        * ((∑ k : Fin 100000, (if srcP e = BitVec.ofNat 32 k.val then (1 : EReal) else 0) * h k)
            * nrmP e)
      = ∑ e ∈ Finset.univ.filter (fun e : Fin 1700000 => (dst e).toInt = (n.val : ℤ)),
          nrm e * h ⟨(src e).toInt.toNat, toNat_lt_of_range (hsrc e)⟩ :=
  layer_padded 100000 1700000 3936 (by norm_num) src dst nrm h hsrc srcP dstP nrmP
    hsrcP hdstP hnrmP hnrm0 n

end Cert.LibSegmentSum
-- ==== Proof.Spec.lean ====
import proofs.«419765_j47863115546696_2_alg».proof.Proof.LibSegmentSum
import Idealize.ShloMosaic.PureOps.Ideal
import Idealize.ShloMosaic.Lib.ValueIdx
import Mathlib.Algebra.BigOperators.Group.Finset.Basic
import Mathlib.Data.Finset.Fold

/-!
# What both programs compute

Points `n < 200000` carry an image row `img n` and a flow row `flow n` of 256 channels and a
segment number `bidx n`, a 32-bit word read in two's complement.

* `gate n = 1 / (1 + exp (-(flow n · ws + bs)))`, and `gated n ch = gate n * img n ch`.
* For a segment `b < 8`, `sums b ch` adds `gated e ch` over the points `e` whose word reads `b`, and
  `counts b` counts them; a point whose word reads no `b < 8` is in no segment.
* `mean b k = sums b k / max (counts b) 1`, `lin b ch = mean b · wc ch + bc ch`, and `feat b` is the
  softmax of the row `lin b` (shifted by the row's maximum) times 256.
* `out n ch = gated n ch * feat (row n) ch + img n ch`, where `row n` is the point's segment.

The literals `1.0`, `256.0` and `-inf` stay as the 32-bit patterns both programs print.
-/

noncomputable section

namespace Cert.Spec

open Idealize.ShloMosaic Idealize.ShloMosaic.ValueIdx
open scoped BigOperators

/-- The pattern of `1.0`. -/
abbrev one32 : EReal := Ideal.ofBits .f32 0x3F800000#32
/-- The pattern of `256.0`. -/
abbrev c256 : EReal := Ideal.ofBits .f32 0x43800000#32
/-- The pattern of `-inf`. -/
abbrev negInf32 : EReal := Ideal.ofBits .f32 0xFF800000#32

variable (img flow : Fin 200000 → Fin 256 → EReal) (bidx : Fin 200000 → BitVec 32)
  (ws : Fin 256 → EReal) (bs : EReal) (wc : Fin 256 → Fin 256 → EReal) (bc : Fin 256 → EReal)

/-- The gate of point `n`: the logistic function of the flow row against `ws`, plus `bs`. -/
def gate (n : Fin 200000) : EReal := Ideal.logistic ((∑ k : Fin 256, flow n k * ws k) + bs)

/-- The gated image row. -/
def gated (n : Fin 200000) (ch : Fin 256) : EReal := gate flow ws bs n * img n ch

/-- The points of segment `b`: those whose word, read signed, is `b`. -/
def seg (b : Fin 8) : Finset (Fin 200000) := Finset.univ.filter fun e => (bidx e).toInt = (b.val : ℤ)

/-- The segment's sum of gated rows. -/
def sums (b : Fin 8) (ch : Fin 256) : EReal := ∑ e ∈ seg bidx b, gated img flow ws bs e ch

/-- The segment's number of points, as a sum of ones. -/
def counts (b : Fin 8) : EReal := ∑ _e ∈ seg bidx b, one32

/-! ### From the segments' sums and counts to the feature rows -/

section Feat
variable (S : Fin 8 → Fin 256 → EReal) (N : Fin 8 → EReal)

/-- A segment's mean row, from its sum `S b` and its count `N b` (an empty segment divides by one). -/
def meanOf (b : Fin 8) (k : Fin 256) : EReal := Ideal.div (S b k) (max (N b) one32)

/-- The dense layer on the mean rows: row `b` against row `ch` of `wc`, plus `bc ch`. -/
def linOf (b : Fin 8) (ch : Fin 256) : EReal := (∑ k : Fin 256, meanOf S N b k * wc ch k) + bc ch

/-- The largest entry of row `b`, folded from `-inf`. -/
def rowmaxOf (b : Fin 8) : EReal := (Finset.univ : Finset (Fin 256)).fold max negInf32 (fun ch => linOf wc bc S N b ch)

/-- The shifted exponentials of row `b`. -/
def exOf (b : Fin 8) (ch : Fin 256) : EReal := Ideal.exp (linOf wc bc S N b ch - rowmaxOf wc bc S N b)

/-- The softmax of row `b`, times 256. -/
def featOf (b : Fin 8) (ch : Fin 256) : EReal :=
  Ideal.div (exOf wc bc S N b ch) (∑ k : Fin 256, exOf wc bc S N b k) * c256

end Feat

/-- The feature rows of the input: the softmax chain on the segments' sums and counts. -/
def feat (b : Fin 8) (ch : Fin 256) : EReal :=
  featOf wc bc (sums img flow bidx ws bs) (counts bidx) b ch

/-- The segment of point `n`: its word read signed, cut to the eight segments. -/
def row (n : Fin 200000) : Fin 8 := ⟨min (bidx n).toInt.toNat 7, by omega⟩

/-- The result at point `n`, channel `ch`. -/
def out (n : Fin 200000) (ch : Fin 256) : EReal :=
  gated img flow ws bs n ch * feat img flow bidx ws bs wc bc (row bidx n) ch + img n ch

/-- The result as an array over `[200000, 256]`. -/
def outArr : (⟨2, ![200000, 256]⟩ : Shape).Idx → EReal :=
  fun i => out img flow bidx ws bs wc bc ⟨(i 0).val, (i 0).isLt⟩ ⟨(i 1).val, (i 1).isLt⟩

theorem outArr_apply (n : Fin 200000) (ch : Fin 256) :
    outArr img flow bidx ws bs wc bc (ix2 n ch) = out img flow bidx ws bs wc bc n ch := rfl

/-! ## The two halves a two-core reduction keeps apart -/

/-- The points of segment `b` in half `ci` of the point range (100000 points each), by their position in the half. -/
def segHalf (ci : Fin 2) (b : Fin 8) : Finset (Fin 100000) :=
  Finset.univ.filter fun e => (bidx ⟨ci.val * 100000 + e.val, by have := ci.isLt; have := e.isLt; omega⟩).toInt = (b.val : ℤ)

/-- Half `ci`'s share of the segment's sum. -/
def sumsHalf (ci : Fin 2) (b : Fin 8) (ch : Fin 256) : EReal :=
  ∑ e ∈ segHalf bidx ci b, gated img flow ws bs ⟨ci.val * 100000 + e.val, by have := ci.isLt; have := e.isLt; omega⟩ ch

/-- Half `ci`'s share of the segment's count. -/
def countsHalf (ci : Fin 2) (b : Fin 8) : EReal := ∑ _e ∈ segHalf bidx ci b, one32

/-- A sum over the 200000 points is the sum over the first 100000 plus the sum over the last 100000. -/
theorem sum_halves {M : Type*} [AddCommMonoid M] (f : Fin 200000 → M) :
    (∑ e : Fin 100000, f ⟨(0 : Fin 2).val * 100000 + e.val, by have := e.isLt; simp; omega⟩)
      + (∑ e : Fin 100000, f ⟨(1 : Fin 2).val * 100000 + e.val, by have := e.isLt; simp; omega⟩)
      = ∑ n : Fin 200000, f n := by
  have h := Cert.LibSegmentSum.sum_blocks 2 100000 (fun n : Fin (2 * 100000) => f ⟨n.val, n.isLt⟩)
  rw [Fin.sum_univ_two] at h
  exact h

/-- The two halves' shares add up to the segment's sum: a point is in the segment by its own word, whichever half
    it lies in. -/
theorem sumsHalf_add (b : Fin 8) (ch : Fin 256) :
    sumsHalf img flow bidx ws bs 0 b ch + sumsHalf img flow bidx ws bs 1 b ch = sums img flow bidx ws bs b ch := by
  unfold sumsHalf sums segHalf seg
  rw [Finset.sum_filter, Finset.sum_filter, Finset.sum_filter]
  exact sum_halves (fun n => if (bidx n).toInt = (b.val : ℤ) then gated img flow ws bs n ch else 0)

/-- The two halves' shares add up to the segment's count. -/
theorem countsHalf_add (b : Fin 8) :
    countsHalf bidx 0 b + countsHalf bidx 1 b = counts bidx b := by
  unfold countsHalf counts segHalf seg
  rw [Finset.sum_filter, Finset.sum_filter, Finset.sum_filter]
  exact sum_halves (fun n => if (bidx n).toInt = (b.val : ℤ) then one32 else 0)

end Cert.Spec

end
-- ==== Proof.R0Body.lean ====
import proofs.«419765_j47863115546696_2_alg».proof.Proof.Gen.KernelIdeal.Frame
import proofs.«419765_j47863115546696_2_alg».proof.Proof.LibDotCols
import proofs.«419765_j47863115546696_2_alg».proof.Proof.LibDotFirst
import proofs.«419765_j47863115546696_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The reducing kernel's body at one grid point

What the body leaves in its three output buffers, in both of its cases (the first point of a core's
range resets the two accumulators before adding; every other point adds to what the point before left),
and each of those values read at an index.
-/

set_option maxRecDepth 16384

noncomputable section

namespace Cert.KernelIdeal.R0Body

open Cert.KernelIdeal Cert.KernelIdeal.Gen
open Idealize.ShloMosaic Idealize.ShloMosaic.TcCoe Idealize.SL.Sem Idealize.ShloMosaic.ValueIdx
open scoped BigOperators

open Idealize.ShloMosaic.Tactic

/-- The rank-3 zero offsets, however spelt, are the constant zero. -/
theorem hz3 : (![0, 0, 0] : Fin 3 → Nat) = fun _ => 0 := funext fun a => by fin_cases a <;> rfl

/-- The rank-2 zero offsets, however spelt, are the constant zero. -/
theorem hz2 : (![0, 0] : Fin 2 → Nat) = fun _ => 0 := funext fun a => by fin_cases a <;> rfl

/-! ## What each case leaves, as the body's payloads -/

/-- At a core's first point the sums buffer ends at the point's update of the zero block. -/
theorem out_A_5 (c : Dev nD) (i : grid0.Coords) (arg2 : Memref sig .tc .vmem S10000x256 .f32) (harg2 : arg2.IsWhole) (arg3 : Memref sig .tc .vmem S10000x256 .f32) (harg3 : arg3.IsWhole) (arg4 : Memref sig .tc .vmem S10000x1 .i32) (harg4 : arg4.IsWhole) (arg5 : Memref sig .tc .vmem S256x1 .f32) (harg5 : arg5.IsWhole) (arg6 : Memref sig .tc .vmem S1x1 .f32) (harg6 : arg6.IsWhole) (arg7 : Memref sig .tc .vmem S1x8x256 .f32) (harg7 : arg7.IsWhole) (arg8 : Memref sig .tc .vmem S1x8x1 .f32) (harg8 : arg8.IsWhole) (arg9 : Memref sig .tc .vmem S10000x1 .f32) (harg9 : arg9.IsWhole) (hc0 : cond0_0 i) (x0 : Vec Ideal S10000x256 .f32) (x1 : Vec Ideal S10000x256 .f32) (x2 : Vec Ideal S10000x1 .i32) (x3 : Vec Ideal S256x1 .f32) (x4 : Vec Ideal S1x1 .f32) :
    out0_A_5 c i arg2 harg2 arg3 harg3 arg4 harg4 arg5 harg5 arg6 harg6 arg7 harg7 arg8 harg8 arg9 harg9 hc0 x0 x1 x2 x3 x4 = k0_pay7 x0 x1 x3 x4 x2 (k0_pay2 (F := Ideal)) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x8x256) hz3, View.readCov_unit_zero (S := S1x8x256) _ hz3]
  simp only [View.readAt_eq_ld, harg2.read_unread, harg3.read_unread, harg4.read_unread, harg5.read_unread,
    harg6.read_unread, harg7.read_unread, harg8.read_unread, View.ld_unit_zero (S := S10000x256) hz2,
    View.ld_unit_zero (S := S10000x1) hz2, View.ld_unit_zero (S := S256x1) hz2, View.ld_unit_zero (S := S1x1) hz2,
    View.ld_unit_zero (S := S1x8x256) hz3, View.ld_unit_zero (S := S1x8x1) hz3]

/-- At a core's first point the counts buffer ends at the point's update of the zero block. -/
theorem out_A_6 (c : Dev nD) (i : grid0.Coords) (arg2 : Memref sig .tc .vmem S10000x256 .f32) (harg2 : arg2.IsWhole) (arg3 : Memref sig .tc .vmem S10000x256 .f32) (harg3 : arg3.IsWhole) (arg4 : Memref sig .tc .vmem S10000x1 .i32) (harg4 : arg4.IsWhole) (arg5 : Memref sig .tc .vmem S256x1 .f32) (harg5 : arg5.IsWhole) (arg6 : Memref sig .tc .vmem S1x1 .f32) (harg6 : arg6.IsWhole) (arg7 : Memref sig .tc .vmem S1x8x256 .f32) (harg7 : arg7.IsWhole) (arg8 : Memref sig .tc .vmem S1x8x1 .f32) (harg8 : arg8.IsWhole) (arg9 : Memref sig .tc .vmem S10000x1 .f32) (harg9 : arg9.IsWhole) (hc0 : cond0_0 i) (x0 : Vec Ideal S10000x256 .f32) (x1 : Vec Ideal S10000x256 .f32) (x2 : Vec Ideal S10000x1 .i32) (x3 : Vec Ideal S256x1 .f32) (x4 : Vec Ideal S1x1 .f32) :
    out0_A_6 c i arg2 harg2 arg3 harg3 arg4 harg4 arg5 harg5 arg6 harg6 arg7 harg7 arg8 harg8 arg9 harg9 hc0 x0 x1 x2 x3 x4 = k0_pay1 (k0_pay6 x2) (k0_pay3 (F := Ideal)) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x8x1) hz3, View.readCov_unit_zero (S := S1x8x1) _ hz3]
  simp only [View.readAt_eq_ld, harg2.read_unread, harg3.read_unread, harg4.read_unread, harg5.read_unread,
    harg6.read_unread, harg7.read_unread, harg8.read_unread, View.ld_unit_zero (S := S10000x256) hz2,
    View.ld_unit_zero (S := S10000x1) hz2, View.ld_unit_zero (S := S256x1) hz2, View.ld_unit_zero (S := S1x1) hz2,
    View.ld_unit_zero (S := S1x8x256) hz3, View.ld_unit_zero (S := S1x8x1) hz3]

/-- At a core's first point the gate buffer ends at the point's gates. -/
theorem out_A_7 (c : Dev nD) (i : grid0.Coords) (arg2 : Memref sig .tc .vmem S10000x256 .f32) (harg2 : arg2.IsWhole) (arg3 : Memref sig .tc .vmem S10000x256 .f32) (harg3 : arg3.IsWhole) (arg4 : Memref sig .tc .vmem S10000x1 .i32) (harg4 : arg4.IsWhole) (arg5 : Memref sig .tc .vmem S256x1 .f32) (harg5 : arg5.IsWhole) (arg6 : Memref sig .tc .vmem S1x1 .f32) (harg6 : arg6.IsWhole) (arg7 : Memref sig .tc .vmem S1x8x256 .f32) (harg7 : arg7.IsWhole) (arg8 : Memref sig .tc .vmem S1x8x1 .f32) (harg8 : arg8.IsWhole) (arg9 : Memref sig .tc .vmem S10000x1 .f32) (harg9 : arg9.IsWhole) (hc0 : cond0_0 i) (x0 : Vec Ideal S10000x256 .f32) (x1 : Vec Ideal S10000x256 .f32) (x2 : Vec Ideal S10000x1 .i32) (x3 : Vec Ideal S256x1 .f32) (x4 : Vec Ideal S1x1 .f32) :
    out0_A_7 c i arg2 harg2 arg3 harg3 arg4 harg4 arg5 harg5 arg6 harg6 arg7 harg7 arg8 harg8 arg9 harg9 hc0 x0 x1 x2 x3 x4 = k0_pay4 x1 x3 x4 := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz2]
  simp only [View.readAt_eq_ld, harg2.read_unread, harg3.read_unread, harg4.read_unread, harg5.read_unread,
    harg6.read_unread, harg7.read_unread, harg8.read_unread, View.ld_unit_zero (S := S10000x256) hz2,
    View.ld_unit_zero (S := S10000x1) hz2, View.ld_unit_zero (S := S256x1) hz2, View.ld_unit_zero (S := S1x1) hz2,
    View.ld_unit_zero (S := S1x8x256) hz3, View.ld_unit_zero (S := S1x8x1) hz3]

/-- At any other point the sums buffer ends at the point's update of what it held. -/
theorem out_B_5 (c : Dev nD) (i : grid0.Coords) (arg2 : Memref sig .tc .vmem S10000x256 .f32) (harg2 : arg2.IsWhole) (arg3 : Memref sig .tc .vmem S10000x256 .f32) (harg3 : arg3.IsWhole) (arg4 : Memref sig .tc .vmem S10000x1 .i32) (harg4 : arg4.IsWhole) (arg5 : Memref sig .tc .vmem S256x1 .f32) (harg5 : arg5.IsWhole) (arg6 : Memref sig .tc .vmem S1x1 .f32) (harg6 : arg6.IsWhole) (arg7 : Memref sig .tc .vmem S1x8x256 .f32) (harg7 : arg7.IsWhole) (arg8 : Memref sig .tc .vmem S1x8x1 .f32) (harg8 : arg8.IsWhole) (arg9 : Memref sig .tc .vmem S10000x1 .f32) (harg9 : arg9.IsWhole) (hc0 : ¬cond0_0 i) (x0 : Vec Ideal S10000x256 .f32) (x1 : Vec Ideal S10000x256 .f32) (x2 : Vec Ideal S10000x1 .i32) (x3 : Vec Ideal S256x1 .f32) (x4 : Vec Ideal S1x1 .f32) (xo5 : Vec Ideal S1x8x256 .f32) (xo6 : Vec Ideal S1x8x1 .f32) :
    out0_B_5 c i arg2 harg2 arg3 harg3 arg4 harg4 arg5 harg5 arg6 harg6 arg7 harg7 arg8 harg8 arg9 harg9 hc0 x0 x1 x2 x3 x4 xo5 xo6 = k0_pay7 x0 x1 x3 x4 x2 xo5 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xo5 xo6)]
  unfold kernelRun0_B
  dsimp only
  sl_unfold_words
  rw [View.canon_unit_zero hz3]
  simp only [View.readAt_eq_ld, harg2.read_unread, harg3.read_unread, harg4.read_unread, harg5.read_unread,
    harg6.read_unread, harg7.read_unread, harg8.read_unread, View.ld_unit_zero (S := S10000x256) hz2,
    View.ld_unit_zero (S := S10000x1) hz2, View.ld_unit_zero (S := S256x1) hz2, View.ld_unit_zero (S := S1x1) hz2,
    View.ld_unit_zero (S := S1x8x256) hz3, View.ld_unit_zero (S := S1x8x1) hz3]

/-- At any other point the counts buffer ends at the point's update of what it held. -/
theorem out_B_6 (c : Dev nD) (i : grid0.Coords) (arg2 : Memref sig .tc .vmem S10000x256 .f32) (harg2 : arg2.IsWhole) (arg3 : Memref sig .tc .vmem S10000x256 .f32) (harg3 : arg3.IsWhole) (arg4 : Memref sig .tc .vmem S10000x1 .i32) (harg4 : arg4.IsWhole) (arg5 : Memref sig .tc .vmem S256x1 .f32) (harg5 : arg5.IsWhole) (arg6 : Memref sig .tc .vmem S1x1 .f32) (harg6 : arg6.IsWhole) (arg7 : Memref sig .tc .vmem S1x8x256 .f32) (harg7 : arg7.IsWhole) (arg8 : Memref sig .tc .vmem S1x8x1 .f32) (harg8 : arg8.IsWhole) (arg9 : Memref sig .tc .vmem S10000x1 .f32) (harg9 : arg9.IsWhole) (hc0 : ¬cond0_0 i) (x0 : Vec Ideal S10000x256 .f32) (x1 : Vec Ideal S10000x256 .f32) (x2 : Vec Ideal S10000x1 .i32) (x3 : Vec Ideal S256x1 .f32) (x4 : Vec Ideal S1x1 .f32) (xo5 : Vec Ideal S1x8x256 .f32) (xo6 : Vec Ideal S1x8x1 .f32) :
    out0_B_6 c i arg2 harg2 arg3 harg3 arg4 harg4 arg5 harg5 arg6 harg6 arg7 harg7 arg8 harg8 arg9 harg9 hc0 x0 x1 x2 x3 x4 xo5 xo6 = k0_pay1 (k0_pay6 x2) xo6 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 xo5 xo6)]
  unfold kernelRun0_B
  dsimp only
  sl_unfold_words
  rw [View.canon_unit_zero hz3]
  simp only [View.readAt_eq_ld, harg2.read_unread, harg3.read_unread, harg4.read_unread, harg5.read_unread,
    harg6.read_unread, harg7.read_unread, harg8.read_unread, View.ld_unit_zero (S := S10000x256) hz2,
    View.ld_unit_zero (S := S10000x1) hz2, View.ld_unit_zero (S := S256x1) hz2, View.ld_unit_zero (S := S1x1) hz2,
    View.ld_unit_zero (S := S1x8x256) hz3, View.ld_unit_zero (S := S1x8x1) hz3]

/-- At any other point the gate buffer ends at the point's gates. -/
theorem out_B_7 (c : Dev nD) (i : grid0.Coords) (arg2 : Memref sig .tc .vmem S10000x256 .f32) (harg2 : arg2.IsWhole) (arg3 : Memref sig .tc .vmem S10000x256 .f32) (harg3 : arg3.IsWhole) (arg4 : Memref sig .tc .vmem S10000x1 .i32) (harg4 : arg4.IsWhole) (arg5 : Memref sig .tc .vmem S256x1 .f32) (harg5 : arg5.IsWhole) (arg6 : Memref sig .tc .vmem S1x1 .f32) (harg6 : arg6.IsWhole) (arg7 : Memref sig .tc .vmem S1x8x256 .f32) (harg7 : arg7.IsWhole) (arg8 : Memref sig .tc .vmem S1x8x1 .f32) (harg8 : arg8.IsWhole) (arg9 : Memref sig .tc .vmem S10000x1 .f32) (harg9 : arg9.IsWhole) (hc0 : ¬cond0_0 i) (x0 : Vec Ideal S10000x256 .f32) (x1 : Vec Ideal S10000x256 .f32) (x2 : Vec Ideal S10000x1 .i32) (x3 : Vec Ideal S256x1 .f32) (x4 : Vec Ideal S1x1 .f32) (xo5 : Vec Ideal S1x8x256 .f32) (xo6 : Vec Ideal S1x8x1 .f32) :
    out0_B_7 c i arg2 harg2 arg3 harg3 arg4 harg4 arg5 harg5 arg6 harg6 arg7 harg7 arg8 harg8 arg9 harg9 hc0 x0 x1 x2 x3 x4 xo5 xo6 = k0_pay4 x1 x3 x4 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 xo5 xo6)]
  unfold kernelRun0_B
  dsimp only
  sl_unfold_words
  rw [View.canon_unit_zero hz2]
  simp only [View.readAt_eq_ld, harg2.read_unread, harg3.read_unread, harg4.read_unread, harg5.read_unread,
    harg6.read_unread, harg7.read_unread, harg8.read_unread, View.ld_unit_zero (S := S10000x256) hz2,
    View.ld_unit_zero (S := S10000x1) hz2, View.ld_unit_zero (S := S256x1) hz2, View.ld_unit_zero (S := S1x1) hz2,
    View.ld_unit_zero (S := S1x8x256) hz3, View.ld_unit_zero (S := S1x8x1) hz3]

/-! ## The payloads at an index -/

/-! ### Layout and scalar readings the payloads meet -/

/-- A column kept as a unit axis and broadcast along it: a `[a, 1]` array broadcast to `[a, b]` reads, at `(p, c)`,
the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The logistic function applied entrywise, read at an index. -/
theorem logistic_apply {s : Shape} {φ : FTy} (a : FVec Ideal s φ) (i : s.Idx) : logistic a i = Ideal.logistic (a i) := rfl

/-- Two words compared for equality, the bit widened to a word and read as a signed number: one where the words are
equal, zero where they differ. -/
theorem sitofp_cmpi_eq (X Y : BitVec 32) :
    FloatOps.sitofp (F := Ideal) .f32 ((IntOp.cmpi .eq X Y).setWidth 32) = if X = Y then (1 : EReal) else 0 := by
  show ((((IntOp.cmpi .eq X Y).setWidth 32).toInt : ℝ) : EReal) = _
  by_cases h : X = Y
  · have e : IntOp.cmpi .eq X Y = 1#1 := by
      show BitVec.ofBool (X == Y) = 1#1
      rw [beq_iff_eq.mpr h]; rfl
    have e1 : ((1#1 : BitVec 1).setWidth 32).toInt = 1 := by decide
    rw [e, if_pos h, e1]; simp
  · have e : IntOp.cmpi .eq X Y = 0#1 := by
      show BitVec.ofBool (X == Y) = 0#1
      rw [beq_eq_false_iff_ne.mpr h]; rfl
    have e0 : ((0#1 : BitVec 1).setWidth 32).toInt = 0 := by decide
    rw [e, if_neg h, e0]; simp

/-- Whether row `r` of the block belongs to segment `b`, as the number the body multiplies by. -/
def hot (x2 : Vec Ideal S10000x1 .i32) (r : Fin 10000) (b : Fin 8) : EReal :=
  if (x2 (ix2 r (0 : Fin 1)) : BitVec 32) = BitVec.ofNat 32 b.val then 1 else 0

/-- The one-hot entry: row `r`'s word compared with the column number `b`, widened and converted, is `hot`. -/
theorem pay5_apply (x2 : Vec Ideal S10000x1 .i32) (r : Fin 10000) (b : Fin 8) :
    k0_pay5 x2 (ix2 r b) = hot x2 r b := by
  have e1 : broadcastTo S10000x8 (shapeCast S10000x1 x2 shapeCasts_S10000x1_S10000x1) broadcasts_S10000x1_S10000x8 (ix2 r b)
      = x2 (ix2 r (0 : Fin 1)) := by
    rw [broadcastTo_a1_ab_apply, shapeCast_self]
  have e2 : iota .tc S10000x8 32 [1] iota_S10000x8_d1_w32 (ix2 r b) = BitVec.ofNat 32 b.val :=
    iota_single_apply .tc S10000x8 32 1 iota_S10000x8_d1_w32 (ix2 r b)
  show FloatOps.sitofp (F := Ideal) .f32 ((IntOp.cmpi .eq
      (broadcastTo S10000x8 (shapeCast S10000x1 x2 shapeCasts_S10000x1_S10000x1) broadcasts_S10000x1_S10000x8 (ix2 r b))
      (iota .tc S10000x8 32 [1] iota_S10000x8_d1_w32 (ix2 r b))).setWidth 32) = _
  rw [e1, e2]
  exact sitofp_cmpi_eq _ _

/-- The gate of row `r` of the block: the logistic function of the flow row against `ws`, plus `bs`. -/
theorem pay4_apply (x1 : Vec Ideal S10000x256 .f32) (x3 : Vec Ideal S256x1 .f32) (x4 : Vec Ideal S1x1 .f32) (r : Fin 10000) :
    k0_pay4 x1 x3 x4 (ix2 r (0 : Fin 1))
      = Ideal.logistic ((∑ k : Fin 256, x1 (ix2 r k) * x3 (ix2 k (0 : Fin 1))) + x4 (ix2 (0 : Fin 1) (0 : Fin 1))) := by
  have em := Cert.LibDotCols.matmul_cols (φ₁ := .f32) (φ₂ := .f32) dot_S10000x256_S256x1_S10000x1_1_0_0_1_n_n none rfl rfl rfl rfl rfl rfl x1 x3
    (constant S10000x1 .f32 0x00000000#32) r (0 : Fin 1)
  have ez : constant (F := Ideal) S10000x1 .f32 0x00000000#32 (ix2 r (0 : Fin 1)) = 0 := Ideal.ofBits_zero_f32
  rw [ez, zero_add] at em
  have eb : broadcastTo S10000x1 (shapeCast S1x1 x4 shapeCasts_S1x1_S1x1) broadcasts_S1x1_S10000x1 (ix2 r (0 : Fin 1))
      = x4 (ix2 (0 : Fin 1) (0 : Fin 1)) := by
    rw [broadcastTo_1b_ab_apply, shapeCast_self]
  show logistic (addf (FloatOps.matmul (F := Ideal) (φ₁ := .f32) (φ₂ := .f32) dot_S10000x256_S256x1_S10000x1_1_0_0_1_n_n none x1 x3
        (constant S10000x1 .f32 0x00000000#32))
      (broadcastTo S10000x1 (shapeCast S1x1 x4 shapeCasts_S1x1_S1x1) broadcasts_S1x1_S10000x1)) (ix2 r (0 : Fin 1)) = _
  rw [logistic_apply, addf_apply, em, eb]

/-- The reset block of the sums is zero. -/
theorem pay2_apply (b : Fin 8) (ch : Fin 256) : k0_pay2 (F := Ideal) (ix3 (0 : Fin 1) b ch) = 0 := by
  show shapeCast S1x8x256 (broadcast S8x256 (Scalar.ofBits (F := Ideal) .f32 0x00000000#32)) shapeCasts_S8x256_S1x8x256
      (ix3 (0 : Fin 1) b ch) = 0
  rw [shapeCast_ab_1ab_apply]
  exact Ideal.ofBits_zero_f32

/-- The reset block of the counts is zero. -/
theorem pay3_apply (b : Fin 8) : k0_pay3 (F := Ideal) (ix3 (0 : Fin 1) b (0 : Fin 1)) = 0 := by
  show shapeCast S1x8x1 (broadcast S8x1 (Scalar.ofBits (F := Ideal) .f32 0x00000000#32)) shapeCasts_S8x1_S1x8x1
      (ix3 (0 : Fin 1) b (0 : Fin 1)) = 0
  rw [shapeCast_ab_1ab_apply]
  exact Ideal.ofBits_zero_f32

/-- The sums update at `(b, ch)`: what the buffer held plus the block's gated rows of segment `b`. -/
theorem pay7_apply (x0 : Vec Ideal S10000x256 .f32) (x1 : Vec Ideal S10000x256 .f32) (x2 : Vec Ideal S10000x1 .i32) (x3 : Vec Ideal S256x1 .f32) (x4 : Vec Ideal S1x1 .f32) (xo : Vec Ideal S1x8x256 .f32) (b : Fin 8) (ch : Fin 256) :
    k0_pay7 x0 x1 x3 x4 x2 xo (ix3 (0 : Fin 1) b ch)
      = xo (ix3 (0 : Fin 1) b ch)
        + (0 + ∑ r : Fin 10000, hot x2 r b * (k0_pay4 x1 x3 x4 (ix2 r (0 : Fin 1)) * x0 (ix2 r ch))) := by
  have em := Cert.LibDotFirst.matmul_first dot_S10000x8_S10000x256_S8x256_0_0_1_1_n_n none rfl rfl rfl rfl rfl rfl
    (k0_pay5 x2) (mulf (broadcastTo S10000x256 (k0_pay4 x1 x3 x4) broadcasts_S10000x1_S10000x256) x0)
    (constant S8x256 .f32 0x00000000#32) b ch
  have ez : constant (F := Ideal) S8x256 .f32 0x00000000#32 (ix2 b ch) = 0 := Ideal.ofBits_zero_f32
  have es : ∀ k : Fin 10000,
      k0_pay5 x2 (ix2 k b) * mulf (broadcastTo S10000x256 (k0_pay4 x1 x3 x4) broadcasts_S10000x1_S10000x256) x0 (ix2 k ch)
        = hot x2 k b * (k0_pay4 x1 x3 x4 (ix2 k (0 : Fin 1)) * x0 (ix2 k ch)) := fun k => by
    rw [pay5_apply, mulf_apply, broadcastTo_a1_ab_apply]
  rw [ez, Finset.sum_congr rfl fun k _ => es k] at em
  show shapeCast S1x8x256 (addf (shapeCast S8x256 xo shapeCasts_S1x8x256_S8x256)
      (FloatOps.matmul dot_S10000x8_S10000x256_S8x256_0_0_1_1_n_n none (k0_pay5 x2)
        (mulf (broadcastTo S10000x256 (k0_pay4 x1 x3 x4) broadcasts_S10000x1_S10000x256) x0)
        (constant S8x256 .f32 0x00000000#32)))
      shapeCasts_S8x256_S1x8x256 (ix3 (0 : Fin 1) b ch) = _
  rw [shapeCast_ab_1ab_apply, addf_apply, shapeCast_1ab_ab_apply, em]

/-- The counts update at `b`: what the buffer held plus one for each row of the block in segment `b`. -/
theorem pay1_apply (x2 : Vec Ideal S10000x1 .i32) (xo : Vec Ideal S1x8x1 .f32) (b : Fin 8) :
    k0_pay1 (k0_pay6 x2) xo (ix3 (0 : Fin 1) b (0 : Fin 1))
      = xo (ix3 (0 : Fin 1) b (0 : Fin 1)) + (0 + ∑ r : Fin 10000, hot x2 r b * Cert.Spec.one32) := by
  have em := Cert.LibDotFirst.matmul_first dot_S10000x8_S10000x1_S8x1_0_0_1_1_n_n none rfl rfl rfl rfl rfl rfl
    (k0_pay5 x2) (broadcast S10000x1 (Scalar.ofBits (F := Ideal) .f32 0x3F800000#32))
    (constant S8x1 .f32 0x00000000#32) b (0 : Fin 1)
  have ez : constant (F := Ideal) S8x1 .f32 0x00000000#32 (ix2 b (0 : Fin 1)) = 0 := Ideal.ofBits_zero_f32
  have es : ∀ k : Fin 10000,
      k0_pay5 x2 (ix2 k b) * broadcast S10000x1 (Scalar.ofBits (F := Ideal) .f32 0x3F800000#32) (ix2 k (0 : Fin 1))
        = hot x2 k b * Cert.Spec.one32 := fun k => by
    rw [pay5_apply]; rfl
  rw [ez, Finset.sum_congr rfl fun k _ => es k] at em
  show shapeCast S1x8x1 (addf (shapeCast S8x1 xo shapeCasts_S1x8x1_S8x1)
      (FloatOps.matmul dot_S10000x8_S10000x1_S8x1_0_0_1_1_n_n none (k0_pay5 x2)
        (broadcast S10000x1 (Scalar.ofBits (F := Ideal) .f32 0x3F800000#32)) (constant S8x1 .f32 0x00000000#32)))
      shapeCasts_S8x1_S1x8x1 (ix3 (0 : Fin 1) b (0 : Fin 1)) = _
  rw [shapeCast_ab_1ab_apply, addf_apply, shapeCast_1ab_ab_apply, em]

end Cert.KernelIdeal.R0Body

end
-- ==== Proof.R0Acc.lean ====
import proofs.«419765_j47863115546696_2_alg».proof.Proof.R0Body
import proofs.«419765_j47863115546696_2_alg».proof.Proof.LibSegmentSum
import Idealize.ShloMosaic.Lib.Pipeline.Value

/-!
# What the reducing region leaves in its three output arrays

Entered with the arrays `V`, the region's twenty grid points (two cores, ten blocks of 10000 points each) leave:
the gate of every point; per core, each segment's sum of the gated rows of the core's half of the points; and per
core, each segment's count over that half. The two accumulators are written back once per core, after its last block.
-/

set_option maxRecDepth 16384

noncomputable section

namespace Cert.KernelIdeal.R0

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b)) (c : Dev nD)

/-- The image rows the region is entered with. -/
def img (n : Fin 200000) (ch : Fin 256) : EReal := (V c main_arg0 : FVec Ideal S200000x256 .f32) (ix2 n ch)
/-- The flow rows. -/
def flow (n : Fin 200000) (k : Fin 256) : EReal := (V c main_arg1 : FVec Ideal S200000x256 .f32) (ix2 n k)
/-- The segment words, one per point (a column). -/
def bidx (n : Fin 200000) : BitVec 32 := (V c main_v0 : IVec S200000x1 32) (ix2 n (0 : Fin 1))
/-- The gate's weights. -/
def ws (k : Fin 256) : EReal := (V c main_arg3 : FVec Ideal S256x1 .f32) (ix2 k (0 : Fin 1))
/-- The gate's bias. -/
def bs : EReal := (V c main_v1 : FVec Ideal S1x1 .f32) (ix2 (0 : Fin 1) (0 : Fin 1))

/-! ## The grid and the windows' block indices -/

/-- The region has twenty points. -/
theorem lt20 (t : Fin cfg0.N) : t.val < 20 := lt_of_lt_of_eq t.isLt N_0

/-- The block index of every window at every point, decided once over the grid: the four row windows move with the
    point, the two parameter windows stay, the two accumulators move with the core. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val / 10 ∧ win0_5.index t (1 : Fin 3) = 0 ∧ win0_5.index t (2 : Fin 3) = 0)
    ∧ (win0_6.index t (0 : Fin 3) = t.val / 10 ∧ win0_6.index t (1 : Fin 3) = 0 ∧ win0_6.index t (2 : Fin 3) = 0)
    ∧ (win0_7.index t (0 : Fin 2) = t.val ∧ win0_7.index t (1 : Fin 2) = 0) :=
  (by decide +kernel : ∀ t : Fin grid0.N, _)

/-! ## The input blocks at a point, as rows of the arrays -/

/-- Row `r` of the image block at point `t` is row `10000 t + r` of the image array. -/
theorem blk0_apply (t : Fin cfg0.N) (r : Fin 10000) (ch : Fin 256) (n : Fin 200000) (hn : n.val = 10000 * t.val + r.val) :
    (iblk0 V c 0 t : Vec Ideal S10000x256 .f32) (ix2 r ch) = img V c n ch := by
  obtain ⟨⟨e0, e1⟩, -⟩ := idx_facts t
  unfold iblk0 img
  rw [View.read_apply]
  show (V c main_arg0 : FVec Ideal S200000x256 .f32) _ = (V c main_arg0 : FVec Ideal S200000x256 .f32) _
  congr 1
  funext a
  apply Fin.ext
  match a with
  | ⟨0, _⟩ => show win0_0.index t (0 : Fin 2) * 10000 + 1 * r.val = n.val; rw [e0, hn]; omega
  | ⟨1, _⟩ => show win0_0.index t (1 : Fin 2) * 256 + 1 * ch.val = ch.val; rw [e1]; omega

/-- Row `r` of the flow block at point `t` is row `10000 t + r` of the flow array. -/
theorem blk1_apply (t : Fin cfg0.N) (r : Fin 10000) (k : Fin 256) (n : Fin 200000) (hn : n.val = 10000 * t.val + r.val) :
    (iblk0 V c 1 t : Vec Ideal S10000x256 .f32) (ix2 r k) = flow V c n k := by
  obtain ⟨-, ⟨e0, e1⟩, -⟩ := idx_facts t
  unfold iblk0 flow
  rw [View.read_apply]
  show (V c main_arg1 : FVec Ideal S200000x256 .f32) _ = (V c main_arg1 : FVec Ideal S200000x256 .f32) _
  congr 1
  funext a
  apply Fin.ext
  match a with
  | ⟨0, _⟩ => show win0_1.index t (0 : Fin 2) * 10000 + 1 * r.val = n.val; rw [e0, hn]; omega
  | ⟨1, _⟩ => show win0_1.index t (1 : Fin 2) * 256 + 1 * k.val = k.val; rw [e1]; omega

/-- Row `r` of the block of segment words at point `t` is the word of point `10000 t + r`. -/
theorem blk2_apply (t : Fin cfg0.N) (r : Fin 10000) (n : Fin 200000) (hn : n.val = 10000 * t.val + r.val) :
    (iblk0 V c 2 t : Vec Ideal S10000x1 .i32) (ix2 r (0 : Fin 1)) = bidx V c n := by
  obtain ⟨-, -, ⟨e0, e1⟩, -⟩ := idx_facts t
  unfold iblk0 bidx
  rw [View.read_apply]
  show (V c main_v0 : IVec S200000x1 32) _ = (V c main_v0 : IVec S200000x1 32) _
  congr 1
  funext a
  apply Fin.ext
  match a with
  | ⟨0, _⟩ => show win0_2.index t (0 : Fin 2) * 10000 + 1 * r.val = n.val; rw [e0, hn]; omega
  | ⟨1, _⟩ => show win0_2.index t (1 : Fin 2) * 1 + 1 * 0 = 0; rw [e1]

/-- The block of the gate's weights is the whole weight column at every point. -/
theorem blk3_apply (t : Fin cfg0.N) (k : Fin 256) :
    (iblk0 V c 3 t : Vec Ideal S256x1 .f32) (ix2 k (0 : Fin 1)) = ws V c k := by
  obtain ⟨-, -, -, ⟨e0, e1⟩, -⟩ := idx_facts t
  unfold iblk0 ws
  rw [View.read_apply]
  show (V c main_arg3 : FVec Ideal S256x1 .f32) _ = (V c main_arg3 : FVec Ideal S256x1 .f32) _
  congr 1
  funext a
  apply Fin.ext
  match a with
  | ⟨0, _⟩ => show win0_3.index t (0 : Fin 2) * 256 + 1 * k.val = k.val; rw [e0]; omega
  | ⟨1, _⟩ => show win0_3.index t (1 : Fin 2) * 1 + 1 * 0 = 0; rw [e1]

/-- The block of the gate's bias is the bias at every point. -/
theorem blk4_apply (t : Fin cfg0.N) :
    (iblk0 V c 4 t : Vec Ideal S1x1 .f32) (ix2 (0 : Fin 1) (0 : Fin 1)) = bs V c := by
  obtain ⟨-, -, -, -, ⟨e0, e1⟩, -⟩ := idx_facts t
  unfold iblk0 bs
  rw [View.read_apply]
  show (V c main_v1 : FVec Ideal S1x1 .f32) _ = (V c main_v1 : FVec Ideal S1x1 .f32) _
  congr 1
  funext a
  apply Fin.ext
  match a with
  | ⟨0, _⟩ => show win0_4.index t (0 : Fin 2) * 1 + 1 * 0 = 0; rw [e0]
  | ⟨1, _⟩ => show win0_4.index t (1 : Fin 2) * 1 + 1 * 0 = 0; rw [e1]

/-! ## What one point computes -/

/-- The point of row `r` of the block at grid point `t`. -/
def rowOf (t : Fin cfg0.N) (r : Fin 10000) : Fin 200000 := ⟨10000 * t.val + r.val, by have := lt20 t; have := r.isLt; omega⟩

/-- The body's gate of row `r` at point `t` is the gate of the row's point. -/
theorem gate_blk (t : Fin cfg0.N) (r : Fin 10000) :
    k0_pay4 (iblk0 V c 1 t) (iblk0 V c 3 t) (iblk0 V c 4 t) (ix2 r (0 : Fin 1))
      = Cert.Spec.gate (flow V c) (ws V c) (bs V c) (rowOf t r) := by
  refine (R0Body.pay4_apply (iblk0 V c 1 t) (iblk0 V c 3 t) (iblk0 V c 4 t) r).trans ?_
  unfold Cert.Spec.gate
  rw [blk4_apply V c t]
  refine congrArg (fun s => Ideal.logistic (s + bs V c)) (Fintype.sum_congr _ _ fun k => ?_)
  rw [blk1_apply V c t r k (rowOf t r) rfl, blk3_apply V c t k]

/-- What the point of row `n` adds to segment `b`'s sum at channel `ch`. -/
def term5 (b : Fin 8) (ch : Fin 256) (n : Fin 200000) : EReal :=
  if (bidx V c n).toInt = (b.val : ℤ) then Cert.Spec.gated (img V c) (flow V c) (ws V c) (bs V c) n ch else 0

/-- What the point of row `n` adds to segment `b`'s count. -/
def term6 (b : Fin 8) (n : Fin 200000) : EReal :=
  if (bidx V c n).toInt = (b.val : ℤ) then Cert.Spec.one32 else 0

/-- The one-hot entry of row `r` at point `t` says whether the row's word reads `b`. -/
theorem hot_blk (t : Fin cfg0.N) (r : Fin 10000) (b : Fin 8) :
    R0Body.hot (iblk0 V c 2 t) r b = if (bidx V c (rowOf t r)).toInt = (b.val : ℤ) then 1 else 0 := by
  unfold R0Body.hot
  rw [blk2_apply V c t r (rowOf t r) rfl]
  exact if_congr (Cert.LibSegmentSum.eq_ofNat_iff _ b.val (by have := b.isLt; omega)) rfl rfl

/-- The block's one-hot-weighted gated rows at `(b, ch)`, row by row, are the rows' terms. -/
theorem sum5_blk (t : Fin cfg0.N) (b : Fin 8) (ch : Fin 256) :
    ∑ r : Fin 10000, R0Body.hot (iblk0 V c 2 t) r b
        * (k0_pay4 (iblk0 V c 1 t) (iblk0 V c 3 t) (iblk0 V c 4 t) (ix2 r (0 : Fin 1)) * (iblk0 V c 0 t : Vec Ideal S10000x256 .f32) (ix2 r ch))
      = ∑ r : Fin 10000, term5 V c b ch (rowOf t r) := by
  refine Fintype.sum_congr _ _ fun r => ?_
  rw [hot_blk V c t r b, gate_blk V c t r, blk0_apply V c t r ch (rowOf t r) rfl]
  unfold term5 Cert.Spec.gated
  rw [ite_mul, one_mul, zero_mul]

/-- The block's one-hot column sums at `b`, row by row, are the rows' terms. -/
theorem sum6_blk (t : Fin cfg0.N) (b : Fin 8) :
    ∑ r : Fin 10000, R0Body.hot (iblk0 V c 2 t) r b * Cert.Spec.one32 = ∑ r : Fin 10000, term6 V c b (rowOf t r) := by
  refine Fintype.sum_congr _ _ fun r => ?_
  rw [hot_blk V c t r b]
  unfold term6
  rw [ite_mul, one_mul, zero_mul]

/-! ## What the output buffers hold after a point -/

/-- After a core's first point the sums buffer holds that point's terms. -/
theorem out5_A (t : Fin cfg0.N) (h0 : t.val % 10 = 0) (b : Fin 8) (ch : Fin 256) :
    ((outsAt0 V c t.val t.isLt).1 : Vec Ideal S1x8x256 .f32) (ix3 (0 : Fin 1) b ch)
      = 0 + (0 + ∑ r : Fin 10000, term5 V c b ch (rowOf t r)) := by
  rw [outsAt0_A V c t h0]
  dsimp only
  rw [R0Body.out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)]
  refine (R0Body.pay7_apply (iblk0 V c 0 t) (iblk0 V c 1 t) (iblk0 V c 2 t) (iblk0 V c 3 t) (iblk0 V c 4 t) (k0_pay2 (F := Ideal)) b ch).trans ?_
  rw [R0Body.pay2_apply b ch, sum5_blk V c t b ch]

/-- After any other point the sums buffer holds what the point before left plus the point's terms. -/
theorem out5_B (t : Fin cfg0.N) (h0 : ¬t.val % 10 = 0) (b : Fin 8) (ch : Fin 256) :
    ((outsAt0 V c t.val t.isLt).1 : Vec Ideal S1x8x256 .f32) (ix3 (0 : Fin 1) b ch)
      = ((outsAt0 V c (t.val - 1) (Nat.lt_of_le_of_lt (Nat.sub_le _ _) t.isLt)).1 : Vec Ideal S1x8x256 .f32) (ix3 (0 : Fin 1) b ch)
        + (0 + ∑ r : Fin 10000, term5 V c b ch (rowOf t r)) := by
  rw [outsAt0_B V c t h0]
  dsimp only
  rw [R0Body.out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2.1]
  refine (R0Body.pay7_apply (iblk0 V c 0 t) (iblk0 V c 1 t) (iblk0 V c 2 t) (iblk0 V c 3 t) (iblk0 V c 4 t) _ b ch).trans ?_
  rw [sum5_blk V c t b ch]

/-- After a core's first point the counts buffer holds that point's terms. -/
theorem out6_A (t : Fin cfg0.N) (h0 : t.val % 10 = 0) (b : Fin 8) :
    ((outsAt0 V c t.val t.isLt).2.1 : Vec Ideal S1x8x1 .f32) (ix3 (0 : Fin 1) b (0 : Fin 1))
      = 0 + (0 + ∑ r : Fin 10000, term6 V c b (rowOf t r)) := by
  rw [outsAt0_A V c t h0]
  dsimp only
  rw [R0Body.out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)]
  refine (R0Body.pay1_apply (iblk0 V c 2 t) (k0_pay3 (F := Ideal)) b).trans ?_
  rw [R0Body.pay3_apply b, sum6_blk V c t b]

/-- After any other point the counts buffer holds what the point before left plus the point's terms. -/
theorem out6_B (t : Fin cfg0.N) (h0 : ¬t.val % 10 = 0) (b : Fin 8) :
    ((outsAt0 V c t.val t.isLt).2.1 : Vec Ideal S1x8x1 .f32) (ix3 (0 : Fin 1) b (0 : Fin 1))
      = ((outsAt0 V c (t.val - 1) (Nat.lt_of_le_of_lt (Nat.sub_le _ _) t.isLt)).2.1 : Vec Ideal S1x8x1 .f32) (ix3 (0 : Fin 1) b (0 : Fin 1))
        + (0 + ∑ r : Fin 10000, term6 V c b (rowOf t r)) := by
  rw [outsAt0_B V c t h0]
  dsimp only
  rw [R0Body.out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2.1]
  refine (R0Body.pay1_apply (iblk0 V c 2 t) _ b).trans ?_
  rw [sum6_blk V c t b]

/-- After every point the gate buffer holds the gates of the point's rows. -/
theorem out7_apply (t : Fin cfg0.N) (r : Fin 10000) :
    ((outsAt0 V c t.val t.isLt).2.2 : Vec Ideal S10000x1 .f32) (ix2 r (0 : Fin 1))
      = Cert.Spec.gate (flow V c) (ws V c) (bs V c) (rowOf t r) := by
  by_cases h0 : t.val % 10 = 0
  · rw [outsAt0_A V c t h0]
    dsimp only
    rw [R0Body.out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)]
    exact gate_blk V c t r
  · rw [outsAt0_B V c t h0]
    dsimp only
    rw [R0Body.out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2.1]
    exact gate_blk V c t r

/-! ## A core's ten points add up its half of the points -/

/-- The point of position `e` in half `ci`. -/
def halfOf (ci : Fin 2) (e : Fin 100000) : Fin 200000 := ⟨ci.val * 100000 + e.val, by have := ci.isLt; have := e.isLt; omega⟩

/-- The buffers after a point do not depend on how the point's number is written. -/
theorem outs_congr (n n' : ℕ) (e : n = n') (h : n < cfg0.N) (h' : n' < cfg0.N) : outsAt0 V c n h = outsAt0 V c n' h' := by
  subst e; rfl

/-- The sums buffer after the `a`-th point of core `ci` (`0` before the first). -/
def acc5 (ci : Fin 2) (b : Fin 8) (ch : Fin 256) : ℕ → EReal
  | 0 => 0
  | a + 1 => if h : ci.val * 10 + a < cfg0.N then ((outsAt0 V c (ci.val * 10 + a) h).1 : Vec Ideal S1x8x256 .f32) (ix3 (0 : Fin 1) b ch) else 0

/-- After a core's last point the sums buffer holds the terms of the core's whole half. -/
theorem acc5_last (ci : Fin 2) (b : Fin 8) (ch : Fin 256) :
    acc5 V c ci b ch 10 = ∑ e : Fin 100000, term5 V c b ch (halfOf ci e) := by
  have hci := ci.isLt
  have hN : cfg0.N = 20 := N_0
  refine Cert.LibSegmentSum.acc_blocks 10 10000 (fun e : Fin (10 * 10000) => term5 V c b ch (halfOf ci e)) (acc5 V c ci b ch) rfl fun a ha => ?_
  have hlt : ci.val * 10 + a < cfg0.N := by omega
  have hrow : ∀ r : Fin 10000, term5 V c b ch (rowOf ⟨ci.val * 10 + a, hlt⟩ r)
      = term5 V c b ch (halfOf ci ⟨a * 10000 + r.val, Cert.LibSegmentSum.blk_lt (A := 10) ⟨a, ha⟩ r⟩) := fun r =>
    congrArg (term5 V c b ch) (Fin.ext (by show 10000 * (ci.val * 10 + a) + r.val = ci.val * 100000 + (a * 10000 + r.val); omega))
  cases a with
  | zero =>
    show (if h : ci.val * 10 + 0 < cfg0.N then _ else 0) = (0 : EReal) + _
    rw [dif_pos hlt, out5_A V c ⟨ci.val * 10 + 0, hlt⟩ (by show (ci.val * 10 + 0) % 10 = 0; omega) b ch]
    exact congrArg (fun s => (0 : EReal) + (0 + s)) (Fintype.sum_congr _ _ hrow)
  | succ a =>
    have hlt' : ci.val * 10 + a < cfg0.N := by omega
    show (if h : ci.val * 10 + (a + 1) < cfg0.N then _ else 0) = (if h : ci.val * 10 + a < cfg0.N then _ else 0) + _
    rw [dif_pos hlt, dif_pos hlt', out5_B V c ⟨ci.val * 10 + (a + 1), hlt⟩ (by show ¬(ci.val * 10 + (a + 1)) % 10 = 0; omega) b ch,
      outs_congr V c (ci.val * 10 + (a + 1) - 1) (ci.val * 10 + a) (by omega) _ hlt']
    exact congrArg (fun s => _ + (0 + s)) (Fintype.sum_congr _ _ hrow)

/-- The counts buffer after the `a`-th point of core `ci` (`0` before the first). -/
def acc6 (ci : Fin 2) (b : Fin 8) : ℕ → EReal
  | 0 => 0
  | a + 1 => if h : ci.val * 10 + a < cfg0.N then ((outsAt0 V c (ci.val * 10 + a) h).2.1 : Vec Ideal S1x8x1 .f32) (ix3 (0 : Fin 1) b (0 : Fin 1)) else 0

/-- After a core's last point the counts buffer holds the terms of the core's whole half. -/
theorem acc6_last (ci : Fin 2) (b : Fin 8) :
    acc6 V c ci b 10 = ∑ e : Fin 100000, term6 V c b (halfOf ci e) := by
  have hci := ci.isLt
  have hN : cfg0.N = 20 := N_0
  refine Cert.LibSegmentSum.acc_blocks 10 10000 (fun e : Fin (10 * 10000) => term6 V c b (halfOf ci e)) (acc6 V c ci b) rfl fun a ha => ?_
  have hlt : ci.val * 10 + a < cfg0.N := by omega
  have hrow : ∀ r : Fin 10000, term6 V c b (rowOf ⟨ci.val * 10 + a, hlt⟩ r)
      = term6 V c b (halfOf ci ⟨a * 10000 + r.val, Cert.LibSegmentSum.blk_lt (A := 10) ⟨a, ha⟩ r⟩) := fun r =>
    congrArg (term6 V c b) (Fin.ext (by show 10000 * (ci.val * 10 + a) + r.val = ci.val * 100000 + (a * 10000 + r.val); omega))
  cases a with
  | zero =>
    show (if h : ci.val * 10 + 0 < cfg0.N then _ else 0) = (0 : EReal) + _
    rw [dif_pos hlt, out6_A V c ⟨ci.val * 10 + 0, hlt⟩ (by show (ci.val * 10 + 0) % 10 = 0; omega) b]
    exact congrArg (fun s => (0 : EReal) + (0 + s)) (Fintype.sum_congr _ _ hrow)
  | succ a =>
    have hlt' : ci.val * 10 + a < cfg0.N := by omega
    show (if h : ci.val * 10 + (a + 1) < cfg0.N then _ else 0) = (if h : ci.val * 10 + a < cfg0.N then _ else 0) + _
    rw [dif_pos hlt, dif_pos hlt', out6_B V c ⟨ci.val * 10 + (a + 1), hlt⟩ (by show ¬(ci.val * 10 + (a + 1)) % 10 = 0; omega) b,
      outs_congr V c (ci.val * 10 + (a + 1) - 1) (ci.val * 10 + a) (by omega) _ hlt']
    exact congrArg (fun s => _ + (0 + s)) (Fintype.sum_congr _ _ hrow)

/-- A half's share of a segment's sum, as the sum of the half's terms. -/
theorem sumsHalf_eq (ci : Fin 2) (b : Fin 8) (ch : Fin 256) :
    Cert.Spec.sumsHalf (img V c) (flow V c) (bidx V c) (ws V c) (bs V c) ci b ch = ∑ e : Fin 100000, term5 V c b ch (halfOf ci e) := by
  unfold Cert.Spec.sumsHalf Cert.Spec.segHalf
  rw [Finset.sum_filter]
  rfl

/-- A half's share of a segment's count, as the sum of the half's terms. -/
theorem countsHalf_eq (ci : Fin 2) (b : Fin 8) :
    Cert.Spec.countsHalf (bidx V c) ci b = ∑ e : Fin 100000, term6 V c b (halfOf ci e) := by
  unfold Cert.Spec.countsHalf Cert.Spec.segHalf
  rw [Finset.sum_filter]
  rfl

/-- After core `ci`'s last point the sums buffer holds the half's share of every segment's sum. -/
theorem sums_at_last (ci : Fin 2) (b : Fin 8) (ch : Fin 256) (h : ci.val * 10 + 9 < cfg0.N) :
    ((outsAt0 V c (ci.val * 10 + 9) h).1 : Vec Ideal S1x8x256 .f32) (ix3 (0 : Fin 1) b ch)
      = Cert.Spec.sumsHalf (img V c) (flow V c) (bidx V c) (ws V c) (bs V c) ci b ch := by
  have e := acc5_last V c ci b ch
  rw [show acc5 V c ci b ch 10 = (if h : ci.val * 10 + 9 < cfg0.N then ((outsAt0 V c (ci.val * 10 + 9) h).1 : Vec Ideal S1x8x256 .f32) (ix3 (0 : Fin 1) b ch) else 0) from rfl,
    dif_pos h] at e
  rw [e, sumsHalf_eq]

/-- After core `ci`'s last point the counts buffer holds the half's share of every segment's count. -/
theorem counts_at_last (ci : Fin 2) (b : Fin 8) (h : ci.val * 10 + 9 < cfg0.N) :
    ((outsAt0 V c (ci.val * 10 + 9) h).2.1 : Vec Ideal S1x8x1 .f32) (ix3 (0 : Fin 1) b (0 : Fin 1))
      = Cert.Spec.countsHalf (bidx V c) ci b := by
  have e := acc6_last V c ci b
  rw [show acc6 V c ci b 10 = (if h : ci.val * 10 + 9 < cfg0.N then ((outsAt0 V c (ci.val * 10 + 9) h).2.1 : Vec Ideal S1x8x1 .f32) (ix3 (0 : Fin 1) b (0 : Fin 1)) else 0) from rfl,
    dif_pos h] at e
  rw [e, countsHalf_eq]

/-! ## The arrays after the run -/

/-- What the sums array ends holding. -/
def G5 : FVec Ideal S2x8x256 .f32 := fun i =>
  Cert.Spec.sumsHalf (img V c) (flow V c) (bidx V c) (ws V c) (bs V c) ⟨(i 0).val, (i 0).isLt⟩ ⟨(i 1).val, (i 1).isLt⟩ ⟨(i 2).val, (i 2).isLt⟩

/-- At `(ci, b, ch)` that is half `ci`'s share of segment `b`'s sum at channel `ch`. -/
theorem G5_apply (ci : Fin 2) (b : Fin 8) (ch : Fin 256) :
    G5 V c (ix3 ci b ch) = Cert.Spec.sumsHalf (img V c) (flow V c) (bidx V c) (ws V c) (bs V c) ci b ch := rfl

/-- What the counts array ends holding. -/
def G6 : FVec Ideal S2x8x1 .f32 := fun i =>
  Cert.Spec.countsHalf (bidx V c) ⟨(i 0).val, (i 0).isLt⟩ ⟨(i 1).val, (i 1).isLt⟩

/-- At `(ci, b, 0)` that is half `ci`'s share of segment `b`'s count. -/
theorem G6_apply (ci : Fin 2) (b : Fin 8) :
    G6 V c (ix3 ci b (0 : Fin 1)) = Cert.Spec.countsHalf (bidx V c) ci b := rfl

/-- What the gate array ends holding. -/
def G7 : FVec Ideal S200000x1 .f32 := fun i =>
  Cert.Spec.gate (flow V c) (ws V c) (bs V c) ⟨(i 0).val, (i 0).isLt⟩

/-- At `(n, 0)` that is point `n`'s gate. -/
theorem G7_apply (n : Fin 200000) :
    G7 V c (ix2 n (0 : Fin 1)) = Cert.Spec.gate (flow V c) (ws V c) (bs V c) n := rfl

attribute [irreducible] G5 G6 G7

/-- A core's last point writes back block `ci` of the sums. -/
theorem flushed5_eq (t : Fin cfg0.N) (hf : (cfg0.win 5).flush t = true) :
    (dat0 V c).flushed 5 t = ((cfg0.win 5).blk t).view.read (Elt Ideal) (G5 V c) := by
  have h9 : t.val % 10 = 9 := (flush0_5 t).mp hf
  have hN := lt20 t
  obtain ⟨-, -, -, -, -, ⟨e0, e1, e2⟩, -⟩ := idx_facts t
  show (cfg0.win 5).cut (grid0.coords t) ((dat0 V c).after 5 t) = _
  rw [after0_5]
  funext j
  obtain ⟨z, b, ch, rfl⟩ : ∃ (z : Fin 1) (b : Fin 8) (ch : Fin 256), j = ix3 z b ch := ⟨j 0, j 1, j 2, eq_ix3 j⟩
  obtain rfl : z = 0 := Subsingleton.elim _ _
  rw [View.read_apply]
  have hci : t.val / 10 < 2 := by omega
  have hlast : t.val / 10 * 10 + 9 < cfg0.N := lt_of_lt_of_eq (show t.val / 10 * 10 + 9 < 20 by omega) N_0.symm
  have hemb : ((cfg0.win 5).blk t).view.emb (ix3 (0 : Fin 1) b ch) = (ix3 (⟨t.val / 10, hci⟩ : Fin 2) b ch : S2x8x256.Idx) := by
    funext a
    apply Fin.ext
    match a with
    | ⟨0, _⟩ => show win0_5.index t (0 : Fin 3) * 1 + 1 * 0 = t.val / 10; rw [e0]; omega
    | ⟨1, _⟩ => show win0_5.index t (1 : Fin 3) * 8 + 1 * b.val = b.val; rw [e1]; omega
    | ⟨2, _⟩ => show win0_5.index t (2 : Fin 3) * 256 + 1 * ch.val = ch.val; rw [e2]; omega
  show ((outsAt0 V c t.val t.isLt).1 : Vec Ideal S1x8x256 .f32) (ix3 (0 : Fin 1) b ch) = G5 V c (((cfg0.win 5).blk t).view.emb (ix3 (0 : Fin 1) b ch))
  rw [hemb, outs_congr V c t.val ((⟨t.val / 10, hci⟩ : Fin 2).val * 10 + 9) (by show t.val = t.val / 10 * 10 + 9; omega) t.isLt hlast,
    sums_at_last V c ⟨t.val / 10, hci⟩ b ch hlast, G5_apply]

/-- A core's last point writes back block `ci` of the counts. -/
theorem flushed6_eq (t : Fin cfg0.N) (hf : (cfg0.win 6).flush t = true) :
    (dat0 V c).flushed 6 t = ((cfg0.win 6).blk t).view.read (Elt Ideal) (G6 V c) := by
  have h9 : t.val % 10 = 9 := (flush0_6 t).mp hf
  have hN := lt20 t
  obtain ⟨-, -, -, -, -, -, ⟨e0, e1, e2⟩, -⟩ := idx_facts t
  show (cfg0.win 6).cut (grid0.coords t) ((dat0 V c).after 6 t) = _
  rw [after0_6]
  funext j
  obtain ⟨z, b, z', rfl⟩ : ∃ (z : Fin 1) (b : Fin 8) (z' : Fin 1), j = ix3 z b z' := ⟨j 0, j 1, j 2, eq_ix3 j⟩
  obtain rfl : z = 0 := Subsingleton.elim _ _
  obtain rfl : z' = 0 := Subsingleton.elim _ _
  rw [View.read_apply]
  have hci : t.val / 10 < 2 := by omega
  have hlast : t.val / 10 * 10 + 9 < cfg0.N := lt_of_lt_of_eq (show t.val / 10 * 10 + 9 < 20 by omega) N_0.symm
  have hemb : ((cfg0.win 6).blk t).view.emb (ix3 (0 : Fin 1) b (0 : Fin 1)) = (ix3 (⟨t.val / 10, hci⟩ : Fin 2) b (0 : Fin 1) : S2x8x1.Idx) := by
    funext a
    apply Fin.ext
    match a with
    | ⟨0, _⟩ => show win0_6.index t (0 : Fin 3) * 1 + 1 * 0 = t.val / 10; rw [e0]; omega
    | ⟨1, _⟩ => show win0_6.index t (1 : Fin 3) * 8 + 1 * b.val = b.val; rw [e1]; omega
    | ⟨2, _⟩ => show win0_6.index t (2 : Fin 3) * 1 + 1 * 0 = 0; rw [e2]
  show ((outsAt0 V c t.val t.isLt).2.1 : Vec Ideal S1x8x1 .f32) (ix3 (0 : Fin 1) b (0 : Fin 1)) = G6 V c (((cfg0.win 6).blk t).view.emb (ix3 (0 : Fin 1) b (0 : Fin 1)))
  rw [hemb, outs_congr V c t.val ((⟨t.val / 10, hci⟩ : Fin 2).val * 10 + 9) (by show t.val = t.val / 10 * 10 + 9; omega) t.isLt hlast,
    counts_at_last V c ⟨t.val / 10, hci⟩ b hlast, G6_apply]

/-- Every point writes back its rows' gates. -/
theorem flushed7_eq (t : Fin cfg0.N) (hf : (cfg0.win 7).flush t = true) :
    (dat0 V c).flushed 7 t = ((cfg0.win 7).blk t).view.read (Elt Ideal) (G7 V c) := by
  have hN := lt20 t
  obtain ⟨-, -, -, -, -, -, -, ⟨e0, e1⟩⟩ := idx_facts t
  show (cfg0.win 7).cut (grid0.coords t) ((dat0 V c).after 7 t) = _
  rw [after0_7]
  funext j
  obtain ⟨r, z, rfl⟩ : ∃ (r : Fin 10000) (z : Fin 1), j = ix2 r z := ⟨j 0, j 1, eq_ix2 j⟩
  obtain rfl : z = 0 := Subsingleton.elim _ _
  rw [View.read_apply]
  have hemb : ((cfg0.win 7).blk t).view.emb (ix2 r (0 : Fin 1)) = (ix2 (rowOf t r) (0 : Fin 1) : S200000x1.Idx) := by
    funext a
    apply Fin.ext
    match a with
    | ⟨0, _⟩ => show win0_7.index t (0 : Fin 2) * 10000 + 1 * r.val = 10000 * t.val + r.val; rw [e0]; omega
    | ⟨1, _⟩ => show win0_7.index t (1 : Fin 2) * 1 + 1 * 0 = 0; rw [e1]
  show ((outsAt0 V c t.val t.isLt).2.2 : Vec Ideal S10000x1 .f32) (ix2 r (0 : Fin 1)) = G7 V c (((cfg0.win 7).blk t).view.emb (ix2 r (0 : Fin 1)))
  rw [hemb, out7_apply V c t r, G7_apply]

/-- The gate array ends holding every point's gate. -/
theorem gate_final (n : Fin 200000) :
    ((dat0 V c).arrAt 7 cfg0.N : FVec Ideal S200000x1 .f32) (ix2 n (0 : Fin 1))
      = Cert.Spec.gate (flow V c) (ws V c) (bs V c) n := by
  have hn := n.isLt
  have ht : n.val / 10000 < cfg0.N := lt_of_lt_of_eq (show n.val / 10000 < 20 by omega) N_0.symm
  obtain ⟨-, -, -, -, -, -, -, ⟨e0, e1⟩⟩ := idx_facts ⟨n.val / 10000, ht⟩
  refine ((dat0 V c).arrAt_apply_of_mem 7 (G7 V c) (flushed7_eq V c) cfg0.N ⟨n.val / 10000, ht⟩ (ix2 n (0 : Fin 1)) ht
    (flush0_7 _) ?_).trans (G7_apply V c n)
  show (ix2 n (0 : Fin 1) : S200000x1.Idx) ∈ ((View.whole main_v3_2).slice (win0_7.rect ⟨n.val / 10000, ht⟩)).set
  rw [View.set_slice_whole, Rect.mem_set_unit]
  intro a
  match a with
  | ⟨0, _⟩ =>
    show win0_7.index ⟨n.val / 10000, ht⟩ (0 : Fin 2) * 10000 ≤ n.val ∧ n.val < win0_7.index ⟨n.val / 10000, ht⟩ (0 : Fin 2) * 10000 + 10000
    rw [e0]; show n.val / 10000 * 10000 ≤ n.val ∧ n.val < n.val / 10000 * 10000 + 10000; omega
  | ⟨1, _⟩ =>
    show win0_7.index ⟨n.val / 10000, ht⟩ (1 : Fin 2) * 1 ≤ 0 ∧ 0 < win0_7.index ⟨n.val / 10000, ht⟩ (1 : Fin 2) * 1 + 1
    rw [e1]; omega

/-- The sums array ends holding, per core, each segment's sum over the core's half of the points. -/
theorem sums_final (ci : Fin 2) (b : Fin 8) (ch : Fin 256) :
    ((dat0 V c).arrAt 5 cfg0.N : FVec Ideal S2x8x256 .f32) (ix3 ci b ch)
      = Cert.Spec.sumsHalf (img V c) (flow V c) (bidx V c) (ws V c) (bs V c) ci b ch := by
  have hci := ci.isLt
  have ht : ci.val * 10 + 9 < cfg0.N := lt_of_lt_of_eq (show ci.val * 10 + 9 < 20 by omega) N_0.symm
  obtain ⟨-, -, -, -, -, ⟨e0, e1, e2⟩, -⟩ := idx_facts ⟨ci.val * 10 + 9, ht⟩
  refine ((dat0 V c).arrAt_apply_of_mem 5 (G5 V c) (flushed5_eq V c) cfg0.N ⟨ci.val * 10 + 9, ht⟩ (ix3 ci b ch) ht
    ((flush0_5 _).mpr (by show (ci.val * 10 + 9) % 10 = 9; omega)) ?_).trans (G5_apply V c ci b ch)
  show (ix3 ci b ch : S2x8x256.Idx) ∈ ((View.whole main_v3_0).slice (win0_5.rect ⟨ci.val * 10 + 9, ht⟩)).set
  rw [View.set_slice_whole, Rect.mem_set_unit]
  intro a
  match a with
  | ⟨0, _⟩ =>
    show win0_5.index ⟨ci.val * 10 + 9, ht⟩ (0 : Fin 3) * 1 ≤ ci.val ∧ ci.val < win0_5.index ⟨ci.val * 10 + 9, ht⟩ (0 : Fin 3) * 1 + 1
    rw [e0]; show (ci.val * 10 + 9) / 10 * 1 ≤ ci.val ∧ ci.val < (ci.val * 10 + 9) / 10 * 1 + 1; omega
  | ⟨1, _⟩ =>
    show win0_5.index ⟨ci.val * 10 + 9, ht⟩ (1 : Fin 3) * 8 ≤ b.val ∧ b.val < win0_5.index ⟨ci.val * 10 + 9, ht⟩ (1 : Fin 3) * 8 + 8
    rw [e1]; have := b.isLt; omega
  | ⟨2, _⟩ =>
    show win0_5.index ⟨ci.val * 10 + 9, ht⟩ (2 : Fin 3) * 256 ≤ ch.val ∧ ch.val < win0_5.index ⟨ci.val * 10 + 9, ht⟩ (2 : Fin 3) * 256 + 256
    rw [e2]; have := ch.isLt; omega

/-- The counts array ends holding, per core, each segment's count over the core's half of the points. -/
theorem counts_final (ci : Fin 2) (b : Fin 8) :
    ((dat0 V c).arrAt 6 cfg0.N : FVec Ideal S2x8x1 .f32) (ix3 ci b (0 : Fin 1))
      = Cert.Spec.countsHalf (bidx V c) ci b := by
  have hci := ci.isLt
  have ht : ci.val * 10 + 9 < cfg0.N := lt_of_lt_of_eq (show ci.val * 10 + 9 < 20 by omega) N_0.symm
  obtain ⟨-, -, -, -, -, -, ⟨e0, e1, e2⟩, -⟩ := idx_facts ⟨ci.val * 10 + 9, ht⟩
  refine ((dat0 V c).arrAt_apply_of_mem 6 (G6 V c) (flushed6_eq V c) cfg0.N ⟨ci.val * 10 + 9, ht⟩ (ix3 ci b (0 : Fin 1)) ht
    ((flush0_6 _).mpr (by show (ci.val * 10 + 9) % 10 = 9; omega)) ?_).trans (G6_apply V c ci b)
  show (ix3 ci b (0 : Fin 1) : S2x8x1.Idx) ∈ ((View.whole main_v3_1).slice (win0_6.rect ⟨ci.val * 10 + 9, ht⟩)).set
  rw [View.set_slice_whole, Rect.mem_set_unit]
  intro a
  match a with
  | ⟨0, _⟩ =>
    show win0_6.index ⟨ci.val * 10 + 9, ht⟩ (0 : Fin 3) * 1 ≤ ci.val ∧ ci.val < win0_6.index ⟨ci.val * 10 + 9, ht⟩ (0 : Fin 3) * 1 + 1
    rw [e0]; show (ci.val * 10 + 9) / 10 * 1 ≤ ci.val ∧ ci.val < (ci.val * 10 + 9) / 10 * 1 + 1; omega
  | ⟨1, _⟩ =>
    show win0_6.index ⟨ci.val * 10 + 9, ht⟩ (1 : Fin 3) * 8 ≤ b.val ∧ b.val < win0_6.index ⟨ci.val * 10 + 9, ht⟩ (1 : Fin 3) * 8 + 8
    rw [e1]; have := b.isLt; omega
  | ⟨2, _⟩ =>
    show win0_6.index ⟨ci.val * 10 + 9, ht⟩ (2 : Fin 3) * 1 ≤ 0 ∧ 0 < win0_6.index ⟨ci.val * 10 + 9, ht⟩ (2 : Fin 3) * 1 + 1
    rw [e2]; omega

end Cert.KernelIdeal.R0

end
-- ==== Proof.LibDotRows.lean ====
/-
  A product of two matrices that contracts the LAST axis of both, read at an entry.

  For a left operand of shape [R, K], a right operand of shape [N, K] and dimension numbers
  "contract axis 1 with axis 1, free axes 0 and 0, no batch axes", the contraction shape has the one axis of extent
  K, the left operand is read at (p, k) and the right at (n, k); so over the extended reals the product accumulated
  into the zero splat is, at (p, n), the plain sum ∑ k, l (p, k) * r (n, k): row p of the left operand against row n
  of the right.  Stated for ANY such record of dimension numbers, whatever its name, from the six equations that
  say which lists it holds (each `rfl` for a printed record).
-/
import Idealize.ShloMosaic.PureOps.Ideal.Laws
import Idealize.ShloMosaic.Lib.ValueIdx

noncomputable section

namespace Cert.LibDotRows

open Idealize.ShloMosaic Idealize.ShloMosaic.ValueIdx

variable {R K N : Nat} (D : DotDims ⟨2, ![R, K]⟩ ⟨2, ![N, K]⟩ ⟨2, ![R, N]⟩)

/-- Two coordinates of an index named by equal numbers are equal. -/
private theorem coord_congr {s : Shape} (i : s.Idx) (a b : Nat) (ha : a < s.rank) (hb : b < s.rank) (h : a = b) :
    (i ⟨a, ha⟩).val = (i ⟨b, hb⟩).val := by subst h; rfl

/-- One axis is contracted. -/
theorem contr_rank (hlc : D.lhsContracting = [1]) : D.contr.rank = 1 := by
  rw [D.rank_contr, hlc]; rfl

/-- Its extent is K, the left operand's second extent. -/
theorem contr_size (hlc : D.lhsContracting = [1]) :
    D.contr.size ⟨0, by rw [contr_rank D hlc]; exact Nat.one_pos⟩ = K := by
  have h := D.size_contr 0 (by rw [hlc]; exact Nat.one_pos)
  refine h.trans ?_
  simp only [hlc, List.getElem_cons_zero]
  rfl

/-- The left operand's row is the result's row. -/
theorem lhs_row (hln : D.lhsNonContracting = [0]) (hlb : D.lhsBatch = [])
    (i : (⟨2, ![R, N]⟩ : Shape).Idx) (q : D.contr.Idx) : (D.lhsIdx i q 0).val = (i 0).val := by
  unfold DotDims.lhsIdx
  rw [dif_neg (show ¬(0 : Fin (⟨2, ![R, K]⟩ : Shape).rank) ∈ D.lhsBatch by rw [hlb]; exact List.not_mem_nil),
    dif_pos (show (0 : Fin (⟨2, ![R, K]⟩ : Shape).rank) ∈ D.lhsNonContracting by rw [hln]; exact List.mem_singleton.mpr rfl)]
  simp only [Fin.val_cast]
  exact coord_congr i _ 0 _ (show 0 < 2 from Nat.two_pos) (by simp [hlb, hln])

/-- The left operand's column is the contraction coordinate. -/
theorem lhs_col (hlc : D.lhsContracting = [1]) (i : (⟨2, ![R, N]⟩ : Shape).Idx) (q : D.contr.Idx) :
    (D.lhsIdx i q 1).val = (q ⟨0, by rw [contr_rank D hlc]; exact Nat.one_pos⟩).val :=
  D.lhsIdx_val_of_single hlc i q

/-- The right operand's row is the result's column. -/
theorem rhs_row (hln : D.lhsNonContracting = [0]) (hrn : D.rhsNonContracting = [0]) (hlb : D.lhsBatch = [])
    (hrb : D.rhsBatch = []) (i : (⟨2, ![R, N]⟩ : Shape).Idx) (q : D.contr.Idx) : (D.rhsIdx i q 0).val = (i 1).val := by
  unfold DotDims.rhsIdx
  rw [dif_neg (show ¬(0 : Fin (⟨2, ![N, K]⟩ : Shape).rank) ∈ D.rhsBatch by rw [hrb]; exact List.not_mem_nil),
    dif_pos (show (0 : Fin (⟨2, ![N, K]⟩ : Shape).rank) ∈ D.rhsNonContracting by rw [hrn]; exact List.mem_singleton.mpr rfl)]
  simp only [Fin.val_cast]
  exact coord_congr i _ 1 _ (show 1 < 2 from Nat.one_lt_two) (by simp [hlb, hln, hrn])

/-- The right operand's column is the contraction coordinate. -/
theorem rhs_col (hlc : D.lhsContracting = [1]) (hrc : D.rhsContracting = [1]) (i : (⟨2, ![R, N]⟩ : Shape).Idx)
    (q : D.contr.Idx) : (D.rhsIdx i q 1).val = (q ⟨0, by rw [contr_rank D hlc]; exact Nat.one_pos⟩).val :=
  D.rhsIdx_val_of_single hrc i q

/-- THE PRODUCT AT AN ENTRY: accumulated into the zero splat, at (p, n), it is row p of the left operand against
    row n of the right. -/
theorem matmul_zero_rows {φ₁ φ₂ : FTy} (prec : Option ContractPrecision)
    (hlc : D.lhsContracting = [1]) (hrc : D.rhsContracting = [1]) (hln : D.lhsNonContracting = [0])
    (hrn : D.rhsNonContracting = [0]) (hlb : D.lhsBatch = []) (hrb : D.rhsBatch = [])
    (l : FVec Ideal ⟨2, ![R, K]⟩ φ₁) (r : FVec Ideal ⟨2, ![N, K]⟩ φ₂) (p : Fin R) (n : Fin N) :
    FloatOps.matmul D prec l r (constant ⟨2, ![R, N]⟩ .f32 0x00000000#32) (ix2 p n)
      = ∑ k : Fin K, l (ix2 p k) * r (ix2 n k) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 p n) ((contrEquiv1 D K (contr_rank D hlc) (contr_size D hlc)).symm k) = ix2 p k :=
    funext fun a => Fin.ext (by
      match a with
      | ⟨0, _⟩ => exact lhs_row D hln hlb _ _
      | ⟨1, _⟩ => exact (lhs_col D hlc _ _).trans hk)
  have er : D.rhsIdx (ix2 p n) ((contrEquiv1 D K (contr_rank D hlc) (contr_size D hlc)).symm k) = ix2 n k :=
    funext fun a => Fin.ext (by
      match a with
      | ⟨0, _⟩ => exact rhs_row D hln hrn hlb hrb _ _
      | ⟨1, _⟩ => exact (rhs_col D hlc hrc _ _).trans hk)
  rw [el, er]

end Cert.LibDotRows

end
-- ==== Proof.R1.lean ====
import proofs.«419765_j47863115546696_2_alg».proof.Proof.Gen.KernelIdeal.Frame
import proofs.«419765_j47863115546696_2_alg».proof.Proof.LibDotRows
import proofs.«419765_j47863115546696_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# What the feature-vector region leaves in its output array

One grid point: the two cores' partial sums and counts are added, each segment's mean row goes through the dense
layer, and each row's softmax (shifted by the row's maximum) is scaled by 256.
-/

set_option maxRecDepth 16384

noncomputable section

namespace Cert.KernelIdeal.R1

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## Layout operations and one-axis reductions read at an index -/

/-- A column `[a, 1]` broadcast to `[a, b]` reads, at `(p, c)`, the column's entry `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector's entry `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the leading axis of extent two of a `[2, a, b]` array, at `(p, q)`. -/
private theorem sum_axis0_two {φ : FTy} {a b : ℕ} (v : FVec Ideal ⟨3, ![2, a, b]⟩ φ) (acc : BitVec φ.bits)
    (h : (⟨3, ![2, a, b]⟩ : Shape).Reduces [0] ⟨2, ![a, b]⟩) (hφ : FKind.Formats φ) (hacc : acc = FKind.add.neutral φ hφ)
    (p : Fin a) (q : Fin b) :
    multiReduction .add [0] ⟨2, ![a, b]⟩ v acc h hφ hacc (ix2 p q) = v (ix3 (0 : Fin 2) p q) + v (ix3 (1 : Fin 2) p q) := by
  refine (Ideal.multiReduction_add_single v acc h hφ hacc (ix2 p q)).trans ?_
  refine (Fin.sum_univ_two (fun k : Fin 2 => v (h.lift (ix2 p q) k))).trans ?_
  have e : ∀ k : Fin 2, h.lift (ix2 p q) k = ix3 k p q := fun k => funext fun c => Fin.ext (by
    match c with
    | ⟨0, _⟩ => rfl
    | ⟨1, _⟩ => rfl
    | ⟨2, _⟩ => rfl)
  rw [e 0, e 1]

/-- The sum over the trailing axis of an `[a, b]` array, at row `p`. -/
private theorem sum_axis1 {φ : FTy} {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) := by
  refine (Ideal.multiReduction_add_single v acc h hφ hacc (ix1 p)).trans ?_
  refine Finset.sum_congr rfl fun k _ => congrArg v (funext fun c => Fin.ext (by
    match c with
    | ⟨0, _⟩ => rfl
    | ⟨1, _⟩ => rfl))

/-- The maximum over the trailing axis of an `[a, b]` array, at row `p`: the fold of `max` from the accumulator's value. -/
private theorem max_axis1 {φ : FTy} {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ v acc h hφ hacc (ix1 p)
      = (Finset.univ : Finset (Fin b)).fold max (Ideal.ofBits φ acc) (fun k => v (ix2 p k)) := by
  refine (Ideal.multiReduction_maximumf_single v acc h hφ hacc (ix1 p)).trans ?_
  refine congrArg (fun f => (Finset.univ : Finset (Fin b)).fold max (Ideal.ofBits φ acc) f) (funext fun k => ?_)
  exact congrArg v (funext fun c => Fin.ext (by
    match c with
    | ⟨0, _⟩ => rfl
    | ⟨1, _⟩ => rfl))

/-! ## The body's three stages, each read at an index -/

/-- The mean rows: the two cores' sums added, over the two cores' counts added and raised to at least one. -/
private theorem mean_apply (v0 : FVec Ideal S2x8x256 .f32) (v3 : FVec Ideal S2x8x1 .f32)
    (hc0 : S2x8x256.ShapeCasts S2x8x256) (hr0 : S2x8x256.Reduces [0] S8x256)
    (hc1 : S2x8x1.ShapeCasts S2x8x1) (hr1 : S2x8x1.Reduces [0] S8x1) (hb : S8x1.Broadcasts S8x256)
    (hφ : FKind.Formats .f32) (ha : (0x00000000#32 : BitVec 32) = FKind.add.neutral .f32 hφ) (b : Fin 8) (k : Fin 256) :
    divf (multiReduction .add [0] S8x256 (shapeCast S2x8x256 v0 hc0) 0x00000000#32 hr0 hφ ha)
      (broadcastTo S8x256 (maximumf (multiReduction .add [0] S8x1 (shapeCast S2x8x1 v3 hc1) 0x00000000#32 hr1 hφ ha)
        (broadcast S8x1 (Scalar.ofBits .f32 0x3F800000#32))) hb) (ix2 b k)
      = Cert.Spec.meanOf (fun b k => v0 (ix3 0 b k) + v0 (ix3 1 b k)) (fun b => v3 (ix3 0 b 0) + v3 (ix3 1 b 0)) b k := by
  rw [shapeCast_self, shapeCast_self]
  show Ideal.div (multiReduction .add [0] S8x256 v0 _ hr0 hφ ha (ix2 b k)) (broadcastTo S8x256 _ hb (ix2 b k)) = _
  rw [sum_axis0_two, broadcastTo_a1_ab_apply]
  show Ideal.div _ (max (multiReduction .add [0] S8x1 v3 _ hr1 hφ ha (ix2 b 0)) _) = _
  rw [sum_axis0_two]
  rfl

/-- The dense layer: each row against each row of the weights, plus the bias row. -/
private theorem lin_apply (m : FVec Ideal S8x256 .f32) (v10 : FVec Ideal S256x256 .f32) (v12 : FVec Ideal S1x256 .f32)
    (M : Fin 8 → Fin 256 → EReal) (hm : ∀ b k, m (ix2 b k) = M b k)
    (hc : S1x256.ShapeCasts S1x256) (hb : S1x256.Broadcasts S8x256) (b : Fin 8) (ch : Fin 256) :
    addf (matmul dot_S8x256_S256x256_S8x256_1_1_0_0_n_n none m v10 (constant S8x256 .f32 0x00000000#32))
      (broadcastTo S8x256 (shapeCast S1x256 v12 hc) hb) (ix2 b ch)
      = (∑ k : Fin 256, M b k * v10 (ix2 ch k)) + v12 (ix2 0 ch) := by
  rw [shapeCast_self]
  show matmul _ none m v10 _ (ix2 b ch) + broadcastTo S8x256 v12 hb (ix2 b ch) = _
  rw [broadcastTo_1b_ab_apply]
  refine congrArg (· + v12 (ix2 0 ch)) ?_
  refine (Cert.LibDotRows.matmul_zero_rows _ none rfl rfl rfl rfl rfl rfl m v10 b ch).trans ?_
  exact Finset.sum_congr rfl fun k _ => by rw [hm]

/-- The row softmax shifted by the row's maximum, times 256. -/
private theorem soft_apply (x : FVec Ideal S8x256 .f32) (L : Fin 8 → Fin 256 → EReal) (hx : ∀ b c, x (ix2 b c) = L b c)
    (hr : S8x256.Reduces [1] S8) (hc : S8.ShapeCasts S8x1) (hb : S8x1.Broadcasts S8x256)
    (hφ : FKind.Formats .f32) (hm : (0xFF800000#32 : BitVec 32) = FKind.maximumf.neutral .f32 hφ)
    (ha : (0x00000000#32 : BitVec 32) = FKind.add.neutral .f32 hφ) (b : Fin 8) (ch : Fin 256) :
    mulf (divf (exp (subf x (broadcastTo S8x256 (shapeCast S8x1 (multiReduction .maximumf [1] S8 x 0xFF800000#32 hr hφ hm) hc) hb)))
        (broadcastTo S8x256 (shapeCast S8x1 (multiReduction .add [1] S8
          (exp (subf x (broadcastTo S8x256 (shapeCast S8x1 (multiReduction .maximumf [1] S8 x 0xFF800000#32 hr hφ hm) hc) hb)))
          0x00000000#32 hr hφ ha) hc) hb))
      (broadcast S8x256 (Scalar.ofBits .f32 0x43800000#32)) (ix2 b ch)
    = Ideal.div (Ideal.exp (L b ch - (Finset.univ : Finset (Fin 256)).fold max Cert.Spec.negInf32 (fun c => L b c)))
        (∑ k : Fin 256, Ideal.exp (L b k - (Finset.univ : Finset (Fin 256)).fold max Cert.Spec.negInf32 (fun c => L b c)))
      * Cert.Spec.c256 := by
  have hmx : ∀ c : Fin 256, broadcastTo S8x256 (shapeCast S8x1 (multiReduction .maximumf [1] S8 x 0xFF800000#32 hr hφ hm) hc) hb (ix2 b c)
      = (Finset.univ : Finset (Fin 256)).fold max Cert.Spec.negInf32 (fun c => L b c) := fun c => by
    rw [broadcastTo_a1_ab_apply, shapeCast_a_a1_apply, max_axis1]
    exact congrArg (fun f => (Finset.univ : Finset (Fin 256)).fold max Cert.Spec.negInf32 f) (funext fun k => hx b k)
  have he : ∀ c : Fin 256, exp (subf x (broadcastTo S8x256 (shapeCast S8x1 (multiReduction .maximumf [1] S8 x 0xFF800000#32 hr hφ hm) hc) hb)) (ix2 b c)
      = Ideal.exp (L b c - (Finset.univ : Finset (Fin 256)).fold max Cert.Spec.negInf32 (fun c => L b c)) := fun c => by
    show Ideal.exp (x (ix2 b c) - broadcastTo S8x256 _ hb (ix2 b c)) = _
    rw [hmx, hx]
  show Ideal.div ((exp _ : FVec Ideal S8x256 .f32) (ix2 b ch)) (broadcastTo S8x256 _ hb (ix2 b ch)) * _ = _
  rw [he, broadcastTo_a1_ab_apply, shapeCast_a_a1_apply, sum_axis1]
  refine congrArg (fun s => Ideal.div _ s * _) (Finset.sum_congr rfl fun k _ => he k)

/-- THE BODY'S RESULT at an index: the softmax chain on the two cores' sums and counts added. -/
private theorem pay_apply (v0 : FVec Ideal S2x8x256 .f32) (v3 : FVec Ideal S2x8x1 .f32) (v10 : FVec Ideal S256x256 .f32)
    (v12 : FVec Ideal S1x256 .f32) (b : Fin 8) (ch : Fin 256) :
    k1_pay1 (F := Ideal) v0 v3 v10 v12 (ix2 b ch)
      = Cert.Spec.featOf (fun ch k => v10 (ix2 ch k)) (fun ch => v12 (ix2 0 ch))
          (fun b k => v0 (ix3 0 b k) + v0 (ix3 1 b k)) (fun b => v3 (ix3 0 b 0) + v3 (ix3 1 b 0)) b ch := by
  unfold k1_pay1
  exact soft_apply _ _ (fun b c => lin_apply _ v10 v12 _ (fun b k => mean_apply v0 v3 _ _ _ _ _ _ _ b k) _ _ b c) _ _ _ _ _ _ b ch

/-! ## From the one point's block to the array -/

variable (V : (c : Dev nD) → (b : Ref sig .tc) → Buf (Elt Ideal) ((c : Thread nD τ).loc b)) (c : Dev nD)

/-- Core `ci`'s partial sums the region is entered with. -/
def S (ci : Fin 2) (b : Fin 8) (k : Fin 256) : EReal := (V c main_v3_0 : FVec Ideal S2x8x256 .f32) (ix3 ci b k)
/-- Core `ci`'s partial counts. -/
def N (ci : Fin 2) (b : Fin 8) : EReal := (V c main_v3_1 : FVec Ideal S2x8x1 .f32) (ix3 ci b (0 : Fin 1))
/-- The dense layer's weights, row `ch` against the contracted `k`. -/
def wc (ch k : Fin 256) : EReal := (V c main_arg5 : FVec Ideal S256x256 .f32) (ix2 ch k)
/-- The dense layer's bias (a row). -/
def bc (ch : Fin 256) : EReal := (V c main_v2 : FVec Ideal S1x256 .f32) (ix2 (0 : Fin 1) ch)

/-- Two zero offsets, as the constant function. -/
private theorem zeros2 : (![0, 0] : Fin 2 → Nat) = fun _ => 0 := funext fun a => by fin_cases a <;> rfl
/-- Three zero offsets, as the constant function. -/
private theorem zeros3 : (![0, 0, 0] : Fin 3 → Nat) = fun _ => 0 := funext fun a => by fin_cases a <;> rfl

/-- At zero offsets a whole extent stays within itself. -/
private theorem fits_of_zero {n : Nat} {off size : Fin n → Nat} (h : off = fun _ => 0) (a : Fin n) : off a + size a ≤ size a := by
  subst h; exact (Nat.zero_add _).le

/-- The sums' block at the one point is the whole array. -/
private theorem iblk_sums (t : Fin cfg1.N) : (iblk1 V c 0 t : Vec Ideal S2x8x256 .f32) = V c main_v3_0 := by
  obtain rfl := fin_N1 t
  have hz : (fun a => win1_0.index t1_0 a * main_v3_0.ty.shape.size a) = fun _ => 0 :=
    funext fun a => by fin_cases a <;> decide
  exact Memref.read_access_unit_zero (Elt Ideal) main_v3_0 hz (fits_of_zero hz) (V c main_v3_0)

/-- The counts' block at the one point is the whole array. -/
private theorem iblk_counts (t : Fin cfg1.N) : (iblk1 V c 1 t : Vec Ideal S2x8x1 .f32) = V c main_v3_1 := by
  obtain rfl := fin_N1 t
  have hz : (fun a => win1_1.index t1_0 a * main_v3_1.ty.shape.size a) = fun _ => 0 :=
    funext fun a => by fin_cases a <;> decide
  exact Memref.read_access_unit_zero (Elt Ideal) main_v3_1 hz (fits_of_zero hz) (V c main_v3_1)

/-- The weights' block at the one point is the whole array. -/
private theorem iblk_weights (t : Fin cfg1.N) : (iblk1 V c 2 t : Vec Ideal S256x256 .f32) = V c main_arg5 := by
  obtain rfl := fin_N1 t
  have hz : (fun a => win1_2.index t1_0 a * main_arg5.ty.shape.size a) = fun _ => 0 :=
    funext fun a => by fin_cases a <;> decide
  exact Memref.read_access_unit_zero (Elt Ideal) main_arg5 hz (fits_of_zero hz) (V c main_arg5)

/-- The bias row's block at the one point is the whole array. -/
private theorem iblk_bias (t : Fin cfg1.N) : (iblk1 V c 3 t : Vec Ideal S1x256 .f32) = V c main_v2 := by
  obtain rfl := fin_N1 t
  have hz : (fun a => win1_3.index t1_0 a * main_v2.ty.shape.size a) = fun _ => 0 :=
    funext fun a => by fin_cases a <;> decide
  exact Memref.read_access_unit_zero (Elt Ideal) main_v2 hz (fits_of_zero hz) (V c main_v2)

/-- What the output array ends holding: the body's result on the four arrays the region is entered with. -/
private def G : Buf (Elt Ideal) ((c : Thread nD τ).loc main_v4) :=
  k1_pay1 (F := Ideal) (V c main_v3_0) (V c main_v3_1) (V c main_arg5) (V c main_v2)

/-- The one write-back writes it: the output's block at the one point is the whole array. -/
private theorem flushed_eq (t : Fin cfg1.N) (hf : (cfg1.win 4).flush t = true) :
    (dat1 V c).flushed 4 t = ((cfg1.win 4).blk t).view.read (Elt Ideal) (G V c) := by
  obtain rfl := fin_N1 t
  show (cfg1.win 4).cut (grid1.coords t1_0) ((dat1 V c).after 4 t1_0) = _
  rw [after1_4]
  unfold out1_4
  rw [View.canon_unit_zero zeros2]
  simp only [View.ld_unit_zero (S := S2x8x256) zeros3, View.ld_unit_zero (S := S2x8x1) zeros3,
    View.ld_unit_zero (S := S256x256) zeros2, View.ld_unit_zero (S := S1x256) zeros2]
  rw [iblk_sums, iblk_counts, iblk_weights, iblk_bias]
  have hz : (fun a => win1_4.index t1_0 a * main_v4.ty.shape.size a) = fun _ => 0 :=
    funext fun a => by fin_cases a <;> decide
  exact (Memref.read_access_unit_zero (Elt Ideal) main_v4 hz (fits_of_zero hz) (G V c)).symm

/-- An index of the output array is in the one point's block when each coordinate is within the block's extent. -/
private theorem mem_blk (i : S8x256.Idx) :
    i ∈ ((cfg1.win 4).blk t1_0).view.set ↔ ∀ a : Fin 2, win1_4.index t1_0 a * S8x256.size a ≤ (i a).val
      ∧ (i a).val < win1_4.index t1_0 a * S8x256.size a + S8x256.size a := by
  show i ∈ ((View.whole main_v4).slice (win1_4.rect t1_0)).set ↔ _
  rw [View.set_slice_whole, Rect.mem_set_unit]
  exact Iff.rfl

/-- So the output array ends holding the body's result. -/
private theorem final : (dat1 V c).arrAt 4 cfg1.N = G V c :=
  (dat1 V c).arrAt_eq_of_cover 4 (G V c) (flushed_eq V c) fun i =>
    ⟨t1_0, flush1_4 t1_0, (mem_blk i).mpr fun a => by
      have hi : win1_4.index t1_0 a = 0 := by fin_cases a <;> decide
      rw [hi]
      have hlt : (i a).val < S8x256.size a := (i a).isLt
      exact ⟨by omega, by omega⟩⟩

/-- The feature array ends at the softmax chain on the two cores' sums and counts added. -/
theorem feat_final (b : Fin 8) (ch : Fin 256) :
    ((dat1 V c).arrAt 4 cfg1.N : FVec Ideal S8x256 .f32) (ix2 b ch)
      = Cert.Spec.featOf (wc V c) (bc V c) (fun b k => S V c 0 b k + S V c 1 b k) (fun b => N V c 0 b + N V c 1 b) b ch := by
  exact (congrFun (final V c) (ix2 b ch)).trans (pay_apply _ _ _ _ b ch)

end Cert.KernelIdeal.R1

end
-- ==== Proof.R2.lean ====
import proofs.«419765_j47863115546696_2_alg».proof.Proof.Gen.KernelIdeal.Frame
import proofs.«419765_j47863115546696_2_alg».proof.Proof.LibDotCols
import proofs.«419765_j47863115546696_2_alg».proof.Proof.LibSegmentSum
import proofs.«419765_j47863115546696_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# What the fusing region leaves in its output array

Twenty grid points, one block of 10000 points each: a point's gated image row times the feature row of its segment
(picked by a one-hot product), plus the image row.
-/

set_option maxRecDepth 16384

noncomputable section

namespace Cert.KernelIdeal.R2

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-- A one-bit comparison word, widened and read as a real, is one or zero. -/
private theorem sitofp_eq_bit (x y : BitVec 32) :
    FloatOps.sitofp (F := Ideal) .f32 ((IntOp.cmpi .eq x y).setWidth 32) = if x = y then (1 : EReal) else 0 := by
  by_cases h : x = y
  · rw [if_pos h, h]
    have : IntOp.cmpi .eq y y = 1#1 := by simp [IntOp.cmpi]
    rw [this]
    show (((1#1 : BitVec 1).setWidth 32).toInt : ℝ) = (1 : EReal)
    norm_num
  · rw [if_neg h]
    have : IntOp.cmpi .eq x y = 0#1 := by
      show BitVec.ofBool (x == y) = 0#1
      rw [beq_eq_false_iff_ne.mpr h]; rfl
    rw [this]
    show (((0#1 : BitVec 1).setWidth 32).toInt : ℝ) = (0 : EReal)
    norm_num

/-- One entry of the one-hot matrix. -/
private theorem onehot_entry (v5 : IVec S10000x1 32) (r : Fin 10000) (b : Fin 8) :
    (sitofp (F := Ideal) .f32 (extui 32 (cmpi .eq (broadcastTo S10000x8 (shapeCast S10000x1 v5 shapeCasts_S10000x1_S10000x1) broadcasts_S10000x1_S10000x8)
      (iota .tc S10000x8 32 [1] iota_S10000x8_d1_w32)) natLt_1_32) : FVec Ideal S10000x8 .f32) (ix2 r b)
      = if v5 (ix2 r 0) = BitVec.ofNat 32 b.val then (1 : EReal) else 0 := by
  rw [sitofp_apply, extui_apply]
  show FloatOps.sitofp (F := Ideal) .f32 ((IntOp.cmpi .eq (broadcastTo S10000x8 (shapeCast S10000x1 v5 shapeCasts_S10000x1_S10000x1) broadcasts_S10000x1_S10000x8 (ix2 r b)) (iota .tc S10000x8 32 [1] iota_S10000x8_d1_w32 (ix2 r b))).setWidth 32) = _
  rw [sitofp_eq_bit, shapeCast_self, iota_single_apply,
    broadcastTo_apply v5 broadcasts_S10000x1_S10000x8 (ix2 r b) (ix2 r 0) (fun a => by
      match a with
      | ⟨0, _⟩ => rfl
      | ⟨1, _⟩ => rfl)]

/-- The fused block at an entry: the gate times the image entry times the one-hot row against the feature column, plus the
    image entry. -/
private theorem pay_apply (v0 : Vec Ideal S10000x256 .f32) (v1 : Vec Ideal S10000x1 .f32) (v5 : Vec Ideal S10000x1 .i32)
    (v12 : Vec Ideal S8x256 .f32) (r : Fin 10000) (ch : Fin 256) :
    k2_pay1 v0 v1 v5 v12 (ix2 r ch)
      = v1 (ix2 r 0) * v0 (ix2 r ch)
          * (0 + ∑ b : Fin 8, (if v5 (ix2 r 0) = BitVec.ofNat 32 b.val then (1 : EReal) else 0) * v12 (ix2 b ch))
        + v0 (ix2 r ch) := by
  unfold k2_pay1
  rw [addf_apply, mulf_apply, mulf_apply]
  refine congrArg₂ (· + ·) (congrArg₂ (· * ·) (congrArg₂ (· * ·) ?_ rfl) ?_) rfl
  · rw [shapeCast_self]
    exact broadcastTo_apply v1 broadcasts_S10000x1_S10000x256 (ix2 r ch) (ix2 r 0) (fun a => by
      match a with
      | ⟨0, _⟩ => rfl
      | ⟨1, _⟩ => rfl)
  · refine (Cert.LibDotCols.matmul_cols dot_S10000x8_S8x256_S10000x256_1_0_0_1_n_n none rfl rfl rfl rfl rfl rfl _ _ _ r ch).trans ?_
    rw [constant_apply, Ideal.ofBits_zero_f32]
    refine congrArg (0 + ·) (Finset.sum_congr rfl fun b _ => ?_)
    exact congrArg₂ (· * ·) (onehot_entry v5 r b) (congrFun (shapeCast_self v12 shapeCasts_S8x256_S8x256) (ix2 b ch))

/-- A word in range picks the row it names, which cutting to the eight rows leaves alone. -/
private theorem gather_row (s : BitVec 32) (h : Fin 8 → EReal) (hs : 0 ≤ s.toInt ∧ s.toInt < 8) :
    (0 : EReal) + ∑ b : Fin 8, (if s = BitVec.ofNat 32 b.val then (1 : EReal) else 0) * h b
      = h ⟨min s.toInt.toNat 7, by omega⟩ := by
  rw [zero_add, Cert.LibSegmentSum.onehot_select 8 (by norm_num) s h hs]
  refine congrArg h (Fin.ext ?_)
  show s.toInt.toNat = min s.toInt.toNat 7
  obtain ⟨h0, h1⟩ := hs
  omega

/-- The fused block at an entry, its loaded blocks read as rows of the arrays: with the row's word in range it is the gated
    image entry times the feature entry of the word's row, plus the image entry. -/
private theorem point_apply (A0 : FVec Ideal S200000x256 .f32) (A1 : FVec Ideal S200000x1 .f32) (A2 : IVec S200000x1 32)
    (A3 : FVec Ideal S8x256 .f32)
    (x0 : Vec Ideal S10000x256 .f32) (x1 : Vec Ideal S10000x1 .f32) (x2 : Vec Ideal S10000x1 .i32) (x3 : Vec Ideal S8x256 .f32)
    (n : Fin 200000) (r : Fin 10000) (ch : Fin 256)
    (h0 : x0 (ix2 r ch) = A0 (ix2 n ch)) (h1 : x1 (ix2 r 0) = A1 (ix2 n 0)) (h2 : x2 (ix2 r 0) = A2 (ix2 n 0))
    (h3 : ∀ b : Fin 8, x3 (ix2 b ch) = A3 (ix2 b ch))
    (hs : 0 ≤ (A2 (ix2 n 0)).toInt ∧ (A2 (ix2 n 0)).toInt < 8) :
    k2_pay1 x0 x1 x2 x3 (ix2 r ch)
      = A1 (ix2 n 0) * A0 (ix2 n ch) * A3 (ix2 (⟨min (A2 (ix2 n 0)).toInt.toNat 7, by omega⟩ : Fin 8) ch) + A0 (ix2 n ch) := by
  rw [pay_apply, h0, h1, h2]
  simp only [h3]
  rw [gather_row (A2 (ix2 n 0)) (fun b => A3 (ix2 b ch)) hs]

variable (V : (c : Dev nD) → (b : Ref sig .tc) → Buf (Elt Ideal) ((c : Thread nD τ).loc b)) (c : Dev nD)

/-- The image rows the region is entered with. -/
def img (n : Fin 200000) (ch : Fin 256) : EReal := (V c main_arg0 : FVec Ideal S200000x256 .f32) (ix2 n ch)
/-- The points' gates (a column). -/
def gate (n : Fin 200000) : EReal := (V c main_v3_2 : FVec Ideal S200000x1 .f32) (ix2 n (0 : Fin 1))
/-- The segment words, one per point (a column). -/
def bidx (n : Fin 200000) : BitVec 32 := (V c main_v0 : IVec S200000x1 32) (ix2 n (0 : Fin 1))
/-- The feature rows. -/
def feat (b : Fin 8) (ch : Fin 256) : EReal := (V c main_v4 : FVec Ideal S8x256 .f32) (ix2 b ch)

/-- The two zero offsets, as a constant function. -/
private theorem hz : (![0, 0] : Fin 2 → Nat) = fun _ => 0 := funext fun a => by fin_cases a <;> rfl

/-- The printed index maps over the grid: the four row-blocked windows sit at block row `t`, block column 0; the feature
    window at block (0, 0). -/
private theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What the result array ends holding: entry by entry, the gated image entry times the feature entry of the point's
    segment, plus the image entry. -/
private def G : FVec Ideal S200000x256 .f32 := fun i =>
  gate V c ⟨(i 0).val, (i 0).isLt⟩ * img V c ⟨(i 0).val, (i 0).isLt⟩ ⟨(i 1).val, (i 1).isLt⟩
      * feat V c (Cert.Spec.row (bidx V c) ⟨(i 0).val, (i 0).isLt⟩) ⟨(i 1).val, (i 1).isLt⟩
    + img V c ⟨(i 0).val, (i 0).isLt⟩ ⟨(i 1).val, (i 1).isLt⟩

/-- `G` at an entry named by its coordinates. -/
private theorem G_apply (n : Fin 200000) (ch : Fin 256) :
    G V c (ix2 n ch) = gate V c n * img V c n ch * feat V c (Cert.Spec.row (bidx V c) n) ch + img V c n ch := rfl

/-- What point `t` writes back is block `t` of `G`. -/
private theorem flushed_eq (hb : ∀ n : Fin 200000, 0 ≤ (bidx V c n).toInt ∧ (bidx V c n).toInt < 8) (t : Fin cfg2.N) :
    (dat2 V c).flushed 4 t = ((cfg2.win 4).blk t).view.read (Elt Ideal) (G V c) := by
  show (cfg2.win 4).cut (grid2.coords t) ((dat2 V c).after 4 t) = _
  rw [after2_4]
  unfold out2_4
  rw [View.canon_unit_zero hz]
  simp only [View.ld_unit_zero (S := S10000x256) hz, View.ld_unit_zero (S := S10000x1) hz, View.ld_unit_zero (S := S8x256) hz]
  obtain ⟨e00, e01, e10, e11, e20, e21, e30, e31, e40, e41⟩ := idx_facts t
  have ht : t.val < 20 := t.isLt.trans_eq N_2
  refine funext fun (j : S10000x256.Idx) => ?_
  obtain ⟨p, q, rfl⟩ : ∃ (p : Fin 10000) (q : Fin 256), j = ix2 p q := ⟨j 0, j 1, eq_ix2 j⟩
  have hp := p.isLt
  have hemb : ((cfg2.win 4).blk t).view.emb (ix2 p q) = (ix2 (⟨t.val * 10000 + p.val, by omega⟩ : Fin 200000) q : S200000x256.Idx) := by
    funext a; apply Fin.ext
    match a with
    | ⟨0, _⟩ => show win2_4.index t (0 : Fin 2) * 10000 + 1 * p.val = t.val * 10000 + p.val; rw [e40]; omega
    | ⟨1, _⟩ => show win2_4.index t (1 : Fin 2) * 256 + 1 * q.val = q.val; rw [e41]; omega
  show k2_pay1 (iblk2 V c 0 t) (iblk2 V c 1 t) (iblk2 V c 2 t) (iblk2 V c 3 t) (ix2 p q)
    = G V c (((cfg2.win 4).blk t).view.emb (ix2 p q))
  rw [hemb, G_apply]
  refine point_apply (V c main_arg0) (V c main_v3_2) (V c main_v0) (V c main_v4) _ _ _ _
    (⟨t.val * 10000 + p.val, by omega⟩ : Fin 200000) p q ?_ ?_ ?_ (fun b => ?_) (hb _)
  · show V c main_arg0 (((cfg2.win 0).blk t).view.emb (ix2 p q)) = V c main_arg0 (ix2 (⟨t.val * 10000 + p.val, by omega⟩ : Fin 200000) q)
    refine congrArg (V c main_arg0) (funext fun a => Fin.ext ?_)
    match a with
    | ⟨0, _⟩ => show win2_0.index t (0 : Fin 2) * 10000 + 1 * p.val = t.val * 10000 + p.val; rw [e00]; omega
    | ⟨1, _⟩ => show win2_0.index t (1 : Fin 2) * 256 + 1 * q.val = q.val; rw [e01]; omega
  · show V c main_v3_2 (((cfg2.win 1).blk t).view.emb (ix2 p 0)) = V c main_v3_2 (ix2 (⟨t.val * 10000 + p.val, by omega⟩ : Fin 200000) 0)
    refine congrArg (V c main_v3_2) (funext fun a => Fin.ext ?_)
    match a with
    | ⟨0, _⟩ => show win2_1.index t (0 : Fin 2) * 10000 + 1 * p.val = t.val * 10000 + p.val; rw [e10]; omega
    | ⟨1, _⟩ => show win2_1.index t (1 : Fin 2) * 1 + 1 * 0 = 0; rw [e11]
  · show V c main_v0 (((cfg2.win 2).blk t).view.emb (ix2 p 0)) = V c main_v0 (ix2 (⟨t.val * 10000 + p.val, by omega⟩ : Fin 200000) 0)
    refine congrArg (V c main_v0) (funext fun a => Fin.ext ?_)
    match a with
    | ⟨0, _⟩ => show win2_2.index t (0 : Fin 2) * 10000 + 1 * p.val = t.val * 10000 + p.val; rw [e20]; omega
    | ⟨1, _⟩ => show win2_2.index t (1 : Fin 2) * 1 + 1 * 0 = 0; rw [e21]
  · show V c main_v4 (((cfg2.win 3).blk t).view.emb (ix2 b q)) = V c main_v4 (ix2 b q)
    refine congrArg (V c main_v4) (funext fun a => Fin.ext ?_)
    match a with
    | ⟨0, _⟩ => show win2_3.index t (0 : Fin 2) * 8 + 1 * b.val = b.val; rw [e30]; omega
    | ⟨1, _⟩ => show win2_3.index t (1 : Fin 2) * 256 + 1 * q.val = q.val; rw [e31]; omega

/-- An index of the array is in point `t`'s block iff each coordinate is in the block's range on its axis. -/
private theorem mem_blk (t : Fin cfg2.N) (i : S200000x256.Idx) :
    i ∈ ((cfg2.win 4).blk t).view.set ↔ ∀ a : Fin 2, win2_4.index t a * S10000x256.size a ≤ (i a).val
      ∧ (i a).val < win2_4.index t a * S10000x256.size a + S10000x256.size a := by
  show i ∈ ((View.whole main_v5).slice (win2_4.rect t)).set ↔ _
  rw [View.set_slice_whole, Rect.mem_set_unit]
  exact Iff.rfl

/-- Every entry of the array is in the block of the point its row falls to. -/
private theorem cover (i : S200000x256.Idx) :
    ∃ t : Fin cfg2.N, (cfg2.win 4).flush t = true ∧ i ∈ ((cfg2.win 4).blk t).view.set := by
  have hi0 : (i 0).val < 200000 := (i 0).isLt
  have hi1 : (i 1).val < 256 := (i 1).isLt
  have hN : cfg2.N = 20 := N_2
  obtain ⟨t, ht⟩ : ∃ t : Fin cfg2.N, t.val = (i 0).val / 10000 := ⟨⟨(i 0).val / 10000, by rw [hN]; omega⟩, rfl⟩
  obtain ⟨-, -, -, -, -, -, -, -, e40, e41⟩ := idx_facts t
  refine ⟨t, flush2_4 t, ?_⟩
  rw [mem_blk]
  intro a
  match a with
  | ⟨0, _⟩ =>
    show win2_4.index t (0 : Fin 2) * 10000 ≤ (i 0).val ∧ (i 0).val < win2_4.index t (0 : Fin 2) * 10000 + 10000
    rw [e40, ht]; omega
  | ⟨1, _⟩ =>
    show win2_4.index t (1 : Fin 2) * 256 ≤ (i 1).val ∧ (i 1).val < win2_4.index t (1 : Fin 2) * 256 + 256
    rw [e41]; omega

/-- With every segment word in `[0, 8)`, the result array ends at the gated row times the segment's feature row,
    plus the image row. -/
theorem out_final (hb : ∀ n : Fin 200000, 0 ≤ (bidx V c n).toInt ∧ (bidx V c n).toInt < 8) (n : Fin 200000) (ch : Fin 256) :
    ((dat2 V c).arrAt 4 cfg2.N : FVec Ideal S200000x256 .f32) (ix2 n ch)
      = gate V c n * img V c n ch * feat V c (Cert.Spec.row (bidx V c) n) ch + img V c n ch := by
  rw [(dat2 V c).arrAt_eq_of_cover 4 (G V c) (fun t _ => flushed_eq V c hb t) cover]
  exact G_apply V c n ch

end Cert.KernelIdeal.R2

end
-- ==== Proof.Chain.lean ====
import proofs.«419765_j47863115546696_2_alg».proof.Proof.R0Acc
import proofs.«419765_j47863115546696_2_alg».proof.Proof.R1
import proofs.«419765_j47863115546696_2_alg».proof.Proof.R2
import Idealize.ShloMosaic.Lib.StableHlo.Run
import Idealize.ShloMosaic.Lib.Pipeline.Value
import Idealize.ShloMosaic.Lib.ValueIdx

/-!
# From the launch memory to the result array

The kernel program is three reshapes on the host and then three regions. Each region is entered with what the
one before left: the reducing region with the launch memory's arrays (the segment words, the gate's bias and the
dense layer's bias reshaped to a column, a 1 x 1 array and a row), the feature-vector region with the two cores'
sums and counts, the fusing region with the gates and the feature rows. Reading each boundary's arrays back to the
launch memory turns the three regions' results into the specification's array.
-/

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx Idealize.ShloMosaic.StableHlo
open scoped BigOperators

variable (m : (ℓ : Loc nD τ sig) → Buf (Elt Ideal) ℓ) (ρ : Dev nD → PrngReg) (c : Dev nD)

/-! ## The launch memory by coordinates -/

/-- The image rows. -/
def imgM (n : Fin 200000) (ch : Fin 256) : EReal := (m ((c : Thread nD τ).loc main_arg0) : FVec Ideal S200000x256 .f32) (ix2 n ch)
/-- The flow rows. -/
def flowM (n : Fin 200000) (k : Fin 256) : EReal := (m ((c : Thread nD τ).loc main_arg1) : FVec Ideal S200000x256 .f32) (ix2 n k)
/-- The segment words. -/
def bidxM (n : Fin 200000) : BitVec 32 := (m ((c : Thread nD τ).loc main_arg2) : IVec S200000 32) (ix1 n)
/-- The gate's weights. -/
def wsM (k : Fin 256) : EReal := (m ((c : Thread nD τ).loc main_arg3) : FVec Ideal S256x1 .f32) (ix2 k (0 : Fin 1))
/-- The gate's bias. -/
def bsM : EReal := (m ((c : Thread nD τ).loc main_arg4) : FVec Ideal S1 .f32) (ix1 (0 : Fin 1))
/-- The dense layer's weights. -/
def wcM (ch k : Fin 256) : EReal := (m ((c : Thread nD τ).loc main_arg5) : FVec Ideal S256x256 .f32) (ix2 ch k)
/-- The dense layer's bias. -/
def bcM (ch : Fin 256) : EReal := (m ((c : Thread nD τ).loc main_arg6) : FVec Ideal S256 .f32) (ix1 ch)

/-! ## After the host's three reshapes -/

theorem W1_arg0 : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.reshape_writes, Finset.mem_singleton]
      repeat' apply And.intro
      all_goals exact StableHlo.devRef_ne_of_ne (by decide)))).trans rfl
theorem W1_arg1 : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.reshape_writes, Finset.mem_singleton]
      repeat' apply And.intro
      all_goals exact StableHlo.devRef_ne_of_ne (by decide)))).trans rfl
theorem W1_arg3 : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.reshape_writes, Finset.mem_singleton]
      repeat' apply And.intro
      all_goals exact StableHlo.devRef_ne_of_ne (by decide)))).trans rfl
theorem W1_arg5 : W1 m ρ c (Proc.devRef .tc main_arg5) = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.reshape_writes, Finset.mem_singleton]
      repeat' apply And.intro
      all_goals exact StableHlo.devRef_ne_of_ne (by decide)))).trans rfl

/-- The segment words as a column. -/
theorem W1_v0 : (W1 m ρ c (Proc.devRef .tc main_v0) : IVec S200000x1 32)
    = shapeCast S200000x1 (m ((c : Thread nD τ).loc main_arg2) : IVec S200000 32) shapeCasts_S200000_S200000x1 := by
  show StableHlo.after hostOps0 (W0 m ρ c) (Proc.devRef .tc main_v0) = _
  after_results
  rfl
/-- The gate's bias as a 1 x 1 array. -/
theorem W1_v1 : (W1 m ρ c (Proc.devRef .tc main_v1) : FVec Ideal S1x1 .f32)
    = shapeCast S1x1 (m ((c : Thread nD τ).loc main_arg4) : FVec Ideal S1 .f32) shapeCasts_S1_S1x1 := by
  show StableHlo.after hostOps0 (W0 m ρ c) (Proc.devRef .tc main_v1) = _
  after_results
  rfl
/-- The dense layer's bias as a row. -/
theorem W1_v2 : (W1 m ρ c (Proc.devRef .tc main_v2) : FVec Ideal S1x256 .f32)
    = shapeCast S1x256 (m ((c : Thread nD τ).loc main_arg6) : FVec Ideal S256 .f32) shapeCasts_S256_S1x256 := by
  show StableHlo.after hostOps0 (W0 m ρ c) (Proc.devRef .tc main_v2) = _
  after_results
  rfl

/-- The column's entry of point `n` is the point's segment word. -/
theorem W1_v0_apply (n : Fin 200000) :
    (W1 m ρ c (Proc.devRef .tc main_v0) : IVec S200000x1 32) (ix2 n (0 : Fin 1)) = bidxM m c n := by
  rw [W1_v0]
  refine shapeCast_apply _ _ _ (ix1 n) ?_
  rw [Shape.rowMajor_val_one, Shape.rowMajor_val_two]
  show n.val = n.val * 1 + 0
  omega
/-- The 1 x 1 array's entry is the bias. -/
theorem W1_v1_apply :
    (W1 m ρ c (Proc.devRef .tc main_v1) : FVec Ideal S1x1 .f32) (ix2 (0 : Fin 1) (0 : Fin 1)) = bsM m c := by
  rw [W1_v1]
  refine shapeCast_apply _ _ _ (ix1 (0 : Fin 1)) ?_
  rw [Shape.rowMajor_val_one, Shape.rowMajor_val_two]
  rfl
/-- The row's entry at `ch` is the bias of channel `ch`. -/
theorem W1_v2_apply (ch : Fin 256) :
    (W1 m ρ c (Proc.devRef .tc main_v2) : FVec Ideal S1x256 .f32) (ix2 (0 : Fin 1) ch) = bcM m c ch := by
  rw [W1_v2]
  refine shapeCast_apply _ _ _ (ix1 ch) ?_
  rw [Shape.rowMajor_val_one, Shape.rowMajor_val_two]
  show ch.val = 0 * 256 + ch.val
  omega

/-! ## What the reducing region is entered with -/

theorem r0_img : R0.img (V1 m ρ) c = imgM m c := by
  funext n ch
  show (W1 m ρ c (Proc.devRef .tc main_arg0) : FVec Ideal S200000x256 .f32) (ix2 n ch) = _
  rw [W1_arg0]; rfl
theorem r0_flow : R0.flow (V1 m ρ) c = flowM m c := by
  funext n k
  show (W1 m ρ c (Proc.devRef .tc main_arg1) : FVec Ideal S200000x256 .f32) (ix2 n k) = _
  rw [W1_arg1]; rfl
theorem r0_bidx : R0.bidx (V1 m ρ) c = bidxM m c := by
  funext n
  exact W1_v0_apply m ρ c n
theorem r0_ws : R0.ws (V1 m ρ) c = wsM m c := by
  funext k
  show (W1 m ρ c (Proc.devRef .tc main_arg3) : FVec Ideal S256x1 .f32) (ix2 k (0 : Fin 1)) = _
  rw [W1_arg3]; rfl
theorem r0_bs : R0.bs (V1 m ρ) c = bsM m c := W1_v1_apply m ρ c

/-! ## What the reducing region leaves, and what it does not touch -/

theorem W2_arg0 : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_arg5 : W2 m ρ c (Proc.devRef .tc main_arg5) = m ((c : Thread nD τ).loc main_arg5) :=
  (W2_of_ne m ρ c main_arg5 (by decide)).trans (W1_arg5 m ρ c)
theorem W2_v0 : W2 m ρ c (Proc.devRef .tc main_v0) = W1 m ρ c (Proc.devRef .tc main_v0) :=
  (W2_arr m ρ c 2).trans (((dat0 (V1 m ρ) c).arrAt_in 2 rfl _).trans (A_eq0 (V1 m ρ) c 2))
theorem W2_v2 : W2 m ρ c (Proc.devRef .tc main_v2) = W1 m ρ c (Proc.devRef .tc main_v2) :=
  W2_of_ne m ρ c main_v2 (by decide)

/-- Core `ci`'s share of each segment's sum, of the launch memory. -/
theorem W2_sums (ci : Fin 2) (b : Fin 8) (k : Fin 256) :
    (W2 m ρ c (Proc.devRef .tc main_v3_0) : FVec Ideal S2x8x256 .f32) (ix3 ci b k)
      = Cert.Spec.sumsHalf (imgM m c) (flowM m c) (bidxM m c) (wsM m c) (bsM m c) ci b k := by
  rw [W2_arr m ρ c 5]
  refine (R0.sums_final (V1 m ρ) c ci b k).trans ?_
  rw [r0_img, r0_flow, r0_bidx, r0_ws, r0_bs]
/-- Core `ci`'s share of each segment's count. -/
theorem W2_counts (ci : Fin 2) (b : Fin 8) :
    (W2 m ρ c (Proc.devRef .tc main_v3_1) : FVec Ideal S2x8x1 .f32) (ix3 ci b (0 : Fin 1))
      = Cert.Spec.countsHalf (bidxM m c) ci b := by
  rw [W2_arr m ρ c 6]
  refine (R0.counts_final (V1 m ρ) c ci b).trans ?_
  rw [r0_bidx]
/-- Every point's gate. -/
theorem W2_gate (n : Fin 200000) :
    (W2 m ρ c (Proc.devRef .tc main_v3_2) : FVec Ideal S200000x1 .f32) (ix2 n (0 : Fin 1))
      = Cert.Spec.gate (flowM m c) (wsM m c) (bsM m c) n := by
  rw [W2_arr m ρ c 7]
  refine (R0.gate_final (V1 m ρ) c n).trans ?_
  rw [r0_flow, r0_ws, r0_bs]

/-! ## What the feature-vector region is entered with, and leaves -/

theorem r1_S (ci : Fin 2) : R1.S (V2 m ρ) c ci = Cert.Spec.sumsHalf (imgM m c) (flowM m c) (bidxM m c) (wsM m c) (bsM m c) ci := by
  funext b k
  exact W2_sums m ρ c ci b k
theorem r1_N (ci : Fin 2) : R1.N (V2 m ρ) c ci = Cert.Spec.countsHalf (bidxM m c) ci := by
  funext b
  exact W2_counts m ρ c ci b
theorem r1_wc : R1.wc (V2 m ρ) c = wcM m c := by
  funext ch k
  show (W2 m ρ c (Proc.devRef .tc main_arg5) : FVec Ideal S256x256 .f32) (ix2 ch k) = _
  rw [W2_arg5]; rfl
theorem r1_bc : R1.bc (V2 m ρ) c = bcM m c := by
  funext ch
  show (W2 m ρ c (Proc.devRef .tc main_v2) : FVec Ideal S1x256 .f32) (ix2 (0 : Fin 1) ch) = _
  rw [W2_v2]
  exact W1_v2_apply m ρ c ch

/-- The feature rows, of the launch memory. -/
theorem W3_feat (b : Fin 8) (ch : Fin 256) :
    (W3 m ρ c (Proc.devRef .tc main_v4) : FVec Ideal S8x256 .f32) (ix2 b ch)
      = Cert.Spec.feat (imgM m c) (flowM m c) (bidxM m c) (wsM m c) (bsM m c) (wcM m c) (bcM m c) b ch := by
  rw [W3_arr m ρ c 4]
  refine (R1.feat_final (V2 m ρ) c b ch).trans ?_
  rw [r1_wc, r1_bc, r1_S, r1_S, r1_N, r1_N]
  have hS : (fun (b : Fin 8) (k : Fin 256) =>
      Cert.Spec.sumsHalf (imgM m c) (flowM m c) (bidxM m c) (wsM m c) (bsM m c) 0 b k
        + Cert.Spec.sumsHalf (imgM m c) (flowM m c) (bidxM m c) (wsM m c) (bsM m c) 1 b k)
      = Cert.Spec.sums (imgM m c) (flowM m c) (bidxM m c) (wsM m c) (bsM m c) := by
    funext b' k; exact Cert.Spec.sumsHalf_add _ _ _ _ _ b' k
  have hN : (fun (b : Fin 8) => Cert.Spec.countsHalf (bidxM m c) 0 b + Cert.Spec.countsHalf (bidxM m c) 1 b)
      = Cert.Spec.counts (bidxM m c) := by
    funext b'; exact Cert.Spec.countsHalf_add _ b'
  rw [hS, hN]
  rfl

theorem W3_arg0 : W3 m ρ c (Proc.devRef .tc main_arg0) = m ((c : Thread nD τ).loc main_arg0) :=
  (W3_of_ne m ρ c main_arg0 (by decide)).trans (W2_arg0 m ρ c)
theorem W3_v0 : W3 m ρ c (Proc.devRef .tc main_v0) = W1 m ρ c (Proc.devRef .tc main_v0) :=
  (W3_of_ne m ρ c main_v0 (by decide)).trans (W2_v0 m ρ c)
theorem W3_gate : W3 m ρ c (Proc.devRef .tc main_v3_2) = W2 m ρ c (Proc.devRef .tc main_v3_2) :=
  W3_of_ne m ρ c main_v3_2 (by decide)

/-! ## What the fusing region is entered with, and leaves -/

theorem r2_img : R2.img (V3 m ρ) c = imgM m c := by
  funext n ch
  show (W3 m ρ c (Proc.devRef .tc main_arg0) : FVec Ideal S200000x256 .f32) (ix2 n ch) = _
  rw [W3_arg0]; rfl
theorem r2_gate : R2.gate (V3 m ρ) c = Cert.Spec.gate (flowM m c) (wsM m c) (bsM m c) := by
  funext n
  show (W3 m ρ c (Proc.devRef .tc main_v3_2) : FVec Ideal S200000x1 .f32) (ix2 n (0 : Fin 1)) = _
  rw [W3_gate]
  exact W2_gate m ρ c n
theorem r2_bidx : R2.bidx (V3 m ρ) c = bidxM m c := by
  funext n
  show (W3 m ρ c (Proc.devRef .tc main_v0) : IVec S200000x1 32) (ix2 n (0 : Fin 1)) = _
  rw [W3_v0]
  exact W1_v0_apply m ρ c n
theorem r2_feat : R2.feat (V3 m ρ) c = Cert.Spec.feat (imgM m c) (flowM m c) (bidxM m c) (wsM m c) (bsM m c) (wcM m c) (bcM m c) := by
  funext b ch
  exact W3_feat m ρ c b ch

/-- With every segment word of the launch memory in `[0, 8)`, the result array after the three regions is the
    specification's array of the launch memory. -/
theorem result_eq (hb : ∀ n : Fin 200000, 0 ≤ (bidxM m c n).toInt ∧ (bidxM m c n).toInt < 8) :
    (W4 m ρ c (Proc.devRef .tc main_v5) : FVec Ideal S200000x256 .f32)
      = Cert.Spec.outArr (imgM m c) (flowM m c) (bidxM m c) (wsM m c) (bsM m c) (wcM m c) (bcM m c) := by
  funext i
  obtain ⟨n, ch, rfl⟩ : ∃ (n : Fin 200000) (ch : Fin 256), i = ix2 n ch := ⟨i 0, i 1, eq_ix2 i⟩
  rw [Cert.Spec.outArr_apply, W4_arr m ρ c 4]
  have hb' : ∀ n : Fin 200000, 0 ≤ (R2.bidx (V3 m ρ) c n).toInt ∧ (R2.bidx (V3 m ρ) c n).toInt < 8 := by
    rw [r2_bidx]; exact hb
  refine (R2.out_final (V3 m ρ) c hb' n ch).trans ?_
  rw [r2_img, r2_gate, r2_bidx, r2_feat]
  rfl

end Cert.KernelIdeal.Chain

end
-- ==== Proof.LibScatterSum.lean ====
/-
  AN ACCUMULATING SCATTER ALONG ONE AXIS, READ AT AN INDEX. At the ideal instance a host scatter with an add body is, at
  each operand index, the operand's element plus the sum of the updates whose result index is that index; the start
  index is read signed and not clamped, and an update that lands outside the operand adds nothing. For three layouts
  with ONE index word per update (scatter indices `[E, 1]`) — updates `[C, E]` into `[C, N]` along axis 1, updates
  `[E, K]` into `[N, K]` along axis 0, updates `[E]` into `[N]` — the scatter at an index is the operand's element
  plus the plain sum, over the updates `e` whose index word read signed equals the scattered coordinate `n`, of the
  update element on the same window coordinate. Each layout: the start and the window coordinate on each operand axis,
  then when an update lands on a given index, then the sum re-indexed by coordinates.
-/
import Idealize.ShloMosaic.PureOps.Ideal
import Idealize.ShloMosaic.Lib.ValueIdx

noncomputable section

open Idealize.ShloMosaic Idealize.ShloMosaic.ValueIdx
open scoped BigOperators

namespace Cert.LibScatterSum

section Cols
variable {C N E w : Nat}
  (h : ScatterDims.WF (⟨2, ![C, N]⟩ : Shape) (⟨2, ![E, 1]⟩ : Shape) (⟨2, ![C, E]⟩ : Shape) [0] [1] [1] 1)

/-- The dimension numbers: update window axis 0, inserted operand axis 1, start indices for operand axis 1, the index
    vector on the scatter indices' axis 1. -/
abbrev colsDims : ScatterDims (⟨2, ![C, N]⟩ : Shape) (⟨2, ![E, 1]⟩ : Shape) (⟨2, ![C, E]⟩ : Shape) := ⟨[0], [1], [1], 1, h⟩

/-- No start index names operand axis 0: the window starts at 0 there. -/
theorem cols_start0 (j : (⟨2, ![C, E]⟩ : Shape).Idx) (idx : IVec (⟨2, ![E, 1]⟩ : Shape) w) (h0) :
    (colsDims h).start j idx ⟨0, h0⟩ = 0 := by
  have hm : (⟨0, h0⟩ : Fin (⟨2, ![C, N]⟩ : Shape).rank) ∉ (colsDims h).scatterDimsToOperandDims := by
    show (0 : Fin 2) ∉ ([1] : List (Fin 2)); decide
  unfold ScatterDims.start
  rw [dif_neg hm]

/-- Update `j` reads its one start-index component at `(j 1, 0)` of the scatter indices. -/
theorem cols_siIdx (j : (⟨2, ![C, E]⟩ : Shape).Idx) (c : Fin (colsDims h).scatterDimsToOperandDims.length) :
    (colsDims h).siIdx j c = ix2 (j 1) (0 : Fin 1) := by
  funext b; refine Fin.ext ?_
  match b with
  | ⟨0, _⟩ => rfl
  | ⟨1, _⟩ =>
    show c.val = 0
    have : c.val < 1 := c.isLt
    omega

/-- On operand axis 1 the window starts at the index word of update column `j 1`, read signed. -/
theorem cols_start1 (j : (⟨2, ![C, E]⟩ : Shape).Idx) (idx : IVec (⟨2, ![E, 1]⟩ : Shape) w) (h1) :
    (colsDims h).start j idx ⟨1, h1⟩ = (idx (ix2 (j 1) (0 : Fin 1))).toInt := by
  have hm : (⟨1, h1⟩ : Fin (⟨2, ![C, N]⟩ : Shape).rank) ∈ (colsDims h).scatterDimsToOperandDims := by
    show (1 : Fin 2) ∈ ([1] : List (Fin 2)); decide
  unfold ScatterDims.start
  rw [dif_pos hm, cols_siIdx h j]
  rfl

/-- On operand axis 0 the window coordinate is the update's row. -/
theorem cols_window0 (j : (⟨2, ![C, E]⟩ : Shape).Idx) (h0) : (colsDims h).window j ⟨0, h0⟩ = (j 0).val := by
  have hm : (⟨0, h0⟩ : Fin (⟨2, ![C, N]⟩ : Shape).rank) ∈ (colsDims h).sKept := by
    show (0 : Fin 2) ∈ (List.finRange 2).filter (· ∉ ([1] : List (Fin 2))); decide
  unfold ScatterDims.window
  rw [dif_pos hm]
  rfl

/-- Operand axis 1 is inserted: window coordinate 0. -/
theorem cols_window1 (j : (⟨2, ![C, E]⟩ : Shape).Idx) (h1) : (colsDims h).window j ⟨1, h1⟩ = 0 := by
  have hm : (⟨1, h1⟩ : Fin (⟨2, ![C, N]⟩ : Shape).rank) ∉ (colsDims h).sKept := by
    show (1 : Fin 2) ∉ (List.finRange 2).filter (· ∉ ([1] : List (Fin 2))); decide
  unfold ScatterDims.window
  rw [dif_neg hm]

/-- Update `j` lands on `(c, n)` exactly when its row is `c` and its column's index word, read signed, is `n`. -/
theorem cols_resultIdx_iff (j : (⟨2, ![C, E]⟩ : Shape).Idx) (idx : IVec (⟨2, ![E, 1]⟩ : Shape) w)
    (c : Fin C) (n : Fin N) :
    (colsDims h).resultIdx? j idx = some (ix2 c n) ↔
      j 0 = c ∧ (idx (ix2 (j 1) (0 : Fin 1))).toInt = (n.val : ℤ) := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b1 := (hb ⟨1, Nat.one_lt_two⟩).1
      simp only [cols_start0, cols_start1, cols_window0, cols_window1] at e0 e1 b1
      refine ⟨Fin.ext ?_, ?_⟩
      · change _ = c.val at e0; omega
      · change _ = n.val at e1; omega
    · rintro ⟨hc, hn⟩
      funext a; refine Fin.ext ?_
      match a with
      | ⟨0, h0⟩ =>
        show ((colsDims h).start j idx ⟨0, h0⟩ + ((colsDims h).window j ⟨0, h0⟩ : ℕ)).toNat = c.val
        rw [cols_start0, cols_window0, hc]; omega
      | ⟨1, h1⟩ =>
        show ((colsDims h).start j idx ⟨1, h1⟩ + ((colsDims h).window j ⟨1, h1⟩ : ℕ)).toNat = n.val
        rw [cols_start1, cols_window1, hn]; omega
  · rename_i hb
    constructor
    · intro he; cases he
    · rintro ⟨hc, hn⟩
      exfalso; apply hb
      intro a
      match a with
      | ⟨0, _⟩ =>
        show 0 ≤ _ ∧ _ < ((C : ℕ) : ℤ)
        rw [cols_start0, cols_window0, hc]; have := c.isLt; omega
      | ⟨1, _⟩ =>
        show 0 ≤ _ ∧ _ < ((N : ℕ) : ℤ)
        rw [cols_start1, cols_window1, hn]; have := n.isLt; omega

/-- The scatter at `(c, n)`, over the named dimension numbers. -/
theorem cols_sum (x : (⟨2, ![C, N]⟩ : Shape).Idx → EReal) (idx : IVec (⟨2, ![E, 1]⟩ : Shape) w)
    (upd : (⟨2, ![C, E]⟩ : Shape).Idx → EReal) (c : Fin C) (n : Fin N) :
    Ideal.hostScatterAdd (colsDims h) x idx upd (ix2 c n)
      = x (ix2 c n) + ∑ e ∈ Finset.univ.filter (fun e : Fin E => (idx (ix2 e (0 : Fin 1))).toInt = (n.val : ℤ)), upd (ix2 c e) := by
  unfold Ideal.hostScatterAdd
  congr 1
  rw [Finset.sum_filter, Finset.sum_filter, sum_idx2, Finset.sum_comm]
  refine Finset.sum_congr rfl fun e _ => ?_
  have hiff : ∀ a : Fin C, ((colsDims h).resultIdx? (ix2 a e) idx = some (ix2 c n)) ↔
      (a = c ∧ (idx (ix2 e (0 : Fin 1))).toInt = (n.val : ℤ)) := fun a => cols_resultIdx_iff h (ix2 a e) idx c n
  simp only [hiff]
  by_cases hp : (idx (ix2 e (0 : Fin 1))).toInt = (n.val : ℤ)
  · simp only [hp, and_true, if_true, Finset.sum_ite_eq', Finset.mem_univ]
  · simp only [hp, and_false, if_false, Finset.sum_const_zero]
end Cols

section Rows
variable {N K E w : Nat}
  (h : ScatterDims.WF (⟨2, ![N, K]⟩ : Shape) (⟨2, ![E, 1]⟩ : Shape) (⟨2, ![E, K]⟩ : Shape) [1] [0] [0] 1)

/-- The dimension numbers: update window axis 1, inserted operand axis 0, start indices for operand axis 0, the index
    vector on the scatter indices' axis 1. -/
abbrev rowsDims : ScatterDims (⟨2, ![N, K]⟩ : Shape) (⟨2, ![E, 1]⟩ : Shape) (⟨2, ![E, K]⟩ : Shape) := ⟨[1], [0], [0], 1, h⟩

/-- Update `j` reads its one start-index component at `(j 0, 0)` of the scatter indices. -/
theorem rows_siIdx (j : (⟨2, ![E, K]⟩ : Shape).Idx) (c : Fin (rowsDims h).scatterDimsToOperandDims.length) :
    (rowsDims h).siIdx j c = ix2 (j 0) (0 : Fin 1) := by
  funext b; refine Fin.ext ?_
  match b with
  | ⟨0, _⟩ => rfl
  | ⟨1, _⟩ =>
    show c.val = 0
    have : c.val < 1 := c.isLt
    omega

/-- On operand axis 0 the window starts at the index word of update row `j 0`, read signed. -/
theorem rows_start0 (j : (⟨2, ![E, K]⟩ : Shape).Idx) (idx : IVec (⟨2, ![E, 1]⟩ : Shape) w) (h0) :
    (rowsDims h).start j idx ⟨0, h0⟩ = (idx (ix2 (j 0) (0 : Fin 1))).toInt := by
  have hm : (⟨0, h0⟩ : Fin (⟨2, ![N, K]⟩ : Shape).rank) ∈ (rowsDims h).scatterDimsToOperandDims := by
    show (0 : Fin 2) ∈ ([0] : List (Fin 2)); decide
  unfold ScatterDims.start
  rw [dif_pos hm, rows_siIdx h j]
  rfl

/-- No start index names operand axis 1: the window starts at 0 there. -/
theorem rows_start1 (j : (⟨2, ![E, K]⟩ : Shape).Idx) (idx : IVec (⟨2, ![E, 1]⟩ : Shape) w) (h1) :
    (rowsDims h).start j idx ⟨1, h1⟩ = 0 := by
  have hm : (⟨1, h1⟩ : Fin (⟨2, ![N, K]⟩ : Shape).rank) ∉ (rowsDims h).scatterDimsToOperandDims := by
    show (1 : Fin 2) ∉ ([0] : List (Fin 2)); decide
  unfold ScatterDims.start
  rw [dif_neg hm]

/-- Operand axis 0 is inserted: window coordinate 0. -/
theorem rows_window0 (j : (⟨2, ![E, K]⟩ : Shape).Idx) (h0) : (rowsDims h).window j ⟨0, h0⟩ = 0 := by
  have hm : (⟨0, h0⟩ : Fin (⟨2, ![N, K]⟩ : Shape).rank) ∉ (rowsDims h).sKept := by
    show (0 : Fin 2) ∉ (List.finRange 2).filter (· ∉ ([0] : List (Fin 2))); decide
  unfold ScatterDims.window
  rw [dif_neg hm]

/-- On operand axis 1 the window coordinate is the update's column. -/
theorem rows_window1 (j : (⟨2, ![E, K]⟩ : Shape).Idx) (h1) : (rowsDims h).window j ⟨1, h1⟩ = (j 1).val := by
  have hm : (⟨1, h1⟩ : Fin (⟨2, ![N, K]⟩ : Shape).rank) ∈ (rowsDims h).sKept := by
    show (1 : Fin 2) ∈ (List.finRange 2).filter (· ∉ ([0] : List (Fin 2))); decide
  unfold ScatterDims.window
  rw [dif_pos hm]
  rfl

/-- Update `j` lands on `(n, k)` exactly when its row's index word, read signed, is `n` and its column is `k`. -/
theorem rows_resultIdx_iff (j : (⟨2, ![E, K]⟩ : Shape).Idx) (idx : IVec (⟨2, ![E, 1]⟩ : Shape) w)
    (n : Fin N) (k : Fin K) :
    (rowsDims h).resultIdx? j idx = some (ix2 n k) ↔
      (idx (ix2 (j 0) (0 : Fin 1))).toInt = (n.val : ℤ) ∧ j 1 = k := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b0 := (hb ⟨0, Nat.zero_lt_two⟩).1
      simp only [rows_start0, rows_start1, rows_window0, rows_window1] at e0 e1 b0
      refine ⟨?_, Fin.ext ?_⟩
      · change _ = n.val at e0; omega
      · change _ = k.val at e1; omega
    · rintro ⟨hn, hk⟩
      funext a; refine Fin.ext ?_
      match a with
      | ⟨0, h0⟩ =>
        show ((rowsDims h).start j idx ⟨0, h0⟩ + ((rowsDims h).window j ⟨0, h0⟩ : ℕ)).toNat = n.val
        rw [rows_start0, rows_window0, hn]; omega
      | ⟨1, h1⟩ =>
        show ((rowsDims h).start j idx ⟨1, h1⟩ + ((rowsDims h).window j ⟨1, h1⟩ : ℕ)).toNat = k.val
        rw [rows_start1, rows_window1, hk]; omega
  · rename_i hb
    constructor
    · intro he; cases he
    · rintro ⟨hn, hk⟩
      exfalso; apply hb
      intro a
      match a with
      | ⟨0, _⟩ =>
        show 0 ≤ _ ∧ _ < ((N : ℕ) : ℤ)
        rw [rows_start0, rows_window0, hn]; have := n.isLt; omega
      | ⟨1, _⟩ =>
        show 0 ≤ _ ∧ _ < ((K : ℕ) : ℤ)
        rw [rows_start1, rows_window1, hk]; have := k.isLt; omega

/-- The scatter at `(n, k)`, over the named dimension numbers. -/
theorem rows_sum (x : (⟨2, ![N, K]⟩ : Shape).Idx → EReal) (idx : IVec (⟨2, ![E, 1]⟩ : Shape) w)
    (upd : (⟨2, ![E, K]⟩ : Shape).Idx → EReal) (n : Fin N) (k : Fin K) :
    Ideal.hostScatterAdd (rowsDims h) x idx upd (ix2 n k)
      = x (ix2 n k) + ∑ e ∈ Finset.univ.filter (fun e : Fin E => (idx (ix2 e (0 : Fin 1))).toInt = (n.val : ℤ)), upd (ix2 e k) := by
  unfold Ideal.hostScatterAdd
  congr 1
  rw [Finset.sum_filter, Finset.sum_filter, sum_idx2]
  refine Finset.sum_congr rfl fun e _ => ?_
  have hiff : ∀ b : Fin K, ((rowsDims h).resultIdx? (ix2 e b) idx = some (ix2 n k)) ↔
      ((idx (ix2 e (0 : Fin 1))).toInt = (n.val : ℤ) ∧ b = k) := fun b => rows_resultIdx_iff h (ix2 e b) idx n k
  simp only [hiff]
  by_cases hp : (idx (ix2 e (0 : Fin 1))).toInt = (n.val : ℤ)
  · simp only [hp, true_and, if_true, Finset.sum_ite_eq', Finset.mem_univ]
  · simp only [hp, false_and, if_false, Finset.sum_const_zero]
end Rows

section Vec
variable {N E w : Nat}
  (h : ScatterDims.WF (⟨1, ![N]⟩ : Shape) (⟨2, ![E, 1]⟩ : Shape) (⟨1, ![E]⟩ : Shape) [] [0] [0] 1)

/-- The dimension numbers: no update window axis, inserted operand axis 0, start indices for operand axis 0, the index
    vector on the scatter indices' axis 1. -/
abbrev vecDims : ScatterDims (⟨1, ![N]⟩ : Shape) (⟨2, ![E, 1]⟩ : Shape) (⟨1, ![E]⟩ : Shape) := ⟨[], [0], [0], 1, h⟩

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Update `j` reads its one start-index component at `(j 0, 0)` of the scatter indices. -/
theorem vec_siIdx (j : (⟨1, ![E]⟩ : Shape).Idx) (c : Fin (vecDims h).scatterDimsToOperandDims.length) :
    (vecDims h).siIdx j c = ix2 (j 0) (0 : Fin 1) := by
  funext b; refine Fin.ext ?_
  match b with
  | ⟨0, _⟩ => rfl
  | ⟨1, _⟩ =>
    show c.val = 0
    have : c.val < 1 := c.isLt
    omega

/-- On the operand's one axis the window starts at the index word of update `j 0`, read signed. -/
theorem vec_start0 (j : (⟨1, ![E]⟩ : Shape).Idx) (idx : IVec (⟨2, ![E, 1]⟩ : Shape) w) (h0) :
    (vecDims h).start j idx ⟨0, h0⟩ = (idx (ix2 (j 0) (0 : Fin 1))).toInt := by
  have hm : (⟨0, h0⟩ : Fin (⟨1, ![N]⟩ : Shape).rank) ∈ (vecDims h).scatterDimsToOperandDims := by
    show (0 : Fin 1) ∈ ([0] : List (Fin 1)); decide
  unfold ScatterDims.start
  rw [dif_pos hm, vec_siIdx h j]
  rfl

/-- The operand's one axis is inserted: window coordinate 0. -/
theorem vec_window0 (j : (⟨1, ![E]⟩ : Shape).Idx) (h0) : (vecDims h).window j ⟨0, h0⟩ = 0 := by
  have hm : (⟨0, h0⟩ : Fin (⟨1, ![N]⟩ : Shape).rank) ∉ (vecDims h).sKept := by
    show (0 : Fin 1) ∉ (List.finRange 1).filter (· ∉ ([0] : List (Fin 1))); decide
  unfold ScatterDims.window
  rw [dif_neg hm]

/-- Update `j` lands on `n` exactly when its index word, read signed, is `n`. -/
theorem vec_resultIdx_iff (j : (⟨1, ![E]⟩ : Shape).Idx) (idx : IVec (⟨2, ![E, 1]⟩ : Shape) w) (n : Fin N) :
    (vecDims h).resultIdx? j idx = some (ix1 n) ↔ (idx (ix2 (j 0) (0 : Fin 1))).toInt = (n.val : ℤ) := by
  unfold ScatterDims.resultIdx?
  split
  · rename_i hb
    rw [Option.some.injEq]
    constructor
    · intro he
      have e0 := congrArg Fin.val (congrFun he ⟨0, Nat.zero_lt_one⟩)
      have b0 := (hb ⟨0, Nat.zero_lt_one⟩).1
      simp only [vec_start0, vec_window0] at e0 b0
      change _ = n.val at e0; omega
    · intro hn
      funext a; refine Fin.ext ?_
      match a with
      | ⟨0, h0⟩ =>
        show ((vecDims h).start j idx ⟨0, h0⟩ + ((vecDims h).window j ⟨0, h0⟩ : ℕ)).toNat = n.val
        rw [vec_start0, vec_window0, hn]; omega
  · rename_i hb
    constructor
    · intro he; cases he
    · intro hn
      exfalso; apply hb
      intro a
      match a with
      | ⟨0, _⟩ =>
        show 0 ≤ _ ∧ _ < ((N : ℕ) : ℤ)
        rw [vec_start0, vec_window0, hn]; have := n.isLt; omega

/-- The scatter at `n`, over the named dimension numbers. -/
theorem vec_sum (x : (⟨1, ![N]⟩ : Shape).Idx → EReal) (idx : IVec (⟨2, ![E, 1]⟩ : Shape) w)
    (upd : (⟨1, ![E]⟩ : Shape).Idx → EReal) (n : Fin N) :
    Ideal.hostScatterAdd (vecDims h) x idx upd (ix1 n)
      = x (ix1 n) + ∑ e ∈ Finset.univ.filter (fun e : Fin E => (idx (ix2 e (0 : Fin 1))).toInt = (n.val : ℤ)), upd (ix1 e) := by
  unfold Ideal.hostScatterAdd
  congr 1
  rw [Finset.sum_filter, Finset.sum_filter, sum_idx1]
  refine Finset.sum_congr rfl fun e _ => ?_
  have hiff : ((vecDims h).resultIdx? (ix1 e) idx = some (ix1 n)) ↔
      ((idx (ix2 e (0 : Fin 1))).toInt = (n.val : ℤ)) := vec_resultIdx_iff h (ix1 e) idx n
  simp only [hiff]
end Vec

/-! ## The three layouts, over their literal dimension numbers -/

/-- An accumulating scatter whose window axis is axis 0 and whose scattered axis is axis 1 (operand `[C, N]`,
    one index word per update column in `[E, 1]`, updates `[C, E]`), read at `(c, n)`: the operand's element plus
    the sum of the updates `(c, e)` over the columns `e` whose index word, read signed, is `n`. -/
theorem scatterAdd_cols {C N E w : Nat}
    (h : ScatterDims.WF (⟨2, ![C, N]⟩ : Shape) (⟨2, ![E, 1]⟩ : Shape) (⟨2, ![C, E]⟩ : Shape) [0] [1] [1] 1)
    (x : (⟨2, ![C, N]⟩ : Shape).Idx → EReal) (idx : IVec (⟨2, ![E, 1]⟩ : Shape) w) (upd : (⟨2, ![C, E]⟩ : Shape).Idx → EReal)
    (c : Fin C) (n : Fin N) :
    Ideal.hostScatterAdd (⟨[0], [1], [1], 1, h⟩ : ScatterDims (⟨2, ![C, N]⟩ : Shape) (⟨2, ![E, 1]⟩ : Shape) (⟨2, ![C, E]⟩ : Shape)) x idx upd (ix2 c n)
      = x (ix2 c n) + ∑ e ∈ Finset.univ.filter (fun e : Fin E => (idx (ix2 e (0 : Fin 1))).toInt = (n.val : ℤ)), upd (ix2 c e) := by
  exact cols_sum h x idx upd c n

/-- An accumulating scatter whose scattered axis is axis 0 and whose window axis is axis 1 (operand `[N, K]`,
    one index word per update row in `[E, 1]`, updates `[E, K]`), read at `(n, k)`: the operand's element plus
    the sum of the updates `(e, k)` over the rows `e` whose index word, read signed, is `n`. -/
theorem scatterAdd_rows {N K E w : Nat}
    (h : ScatterDims.WF (⟨2, ![N, K]⟩ : Shape) (⟨2, ![E, 1]⟩ : Shape) (⟨2, ![E, K]⟩ : Shape) [1] [0] [0] 1)
    (x : (⟨2, ![N, K]⟩ : Shape).Idx → EReal) (idx : IVec (⟨2, ![E, 1]⟩ : Shape) w) (upd : (⟨2, ![E, K]⟩ : Shape).Idx → EReal)
    (n : Fin N) (k : Fin K) :
    Ideal.hostScatterAdd (⟨[1], [0], [0], 1, h⟩ : ScatterDims (⟨2, ![N, K]⟩ : Shape) (⟨2, ![E, 1]⟩ : Shape) (⟨2, ![E, K]⟩ : Shape)) x idx upd (ix2 n k)
      = x (ix2 n k) + ∑ e ∈ Finset.univ.filter (fun e : Fin E => (idx (ix2 e (0 : Fin 1))).toInt = (n.val : ℤ)), upd (ix2 e k) := by
  exact rows_sum h x idx upd n k

/-- An accumulating scatter into a vector (operand `[N]`, one index word per update in `[E, 1]`, updates `[E]`,
    no window axis), read at `n`: the operand's element plus the sum of the updates `e` whose index word, read
    signed, is `n`. -/
theorem scatterAdd_vec {N E w : Nat}
    (h : ScatterDims.WF (⟨1, ![N]⟩ : Shape) (⟨2, ![E, 1]⟩ : Shape) (⟨1, ![E]⟩ : Shape) [] [0] [0] 1)
    (x : (⟨1, ![N]⟩ : Shape).Idx → EReal) (idx : IVec (⟨2, ![E, 1]⟩ : Shape) w) (upd : (⟨1, ![E]⟩ : Shape).Idx → EReal)
    (n : Fin N) :
    Ideal.hostScatterAdd (⟨[], [0], [0], 1, h⟩ : ScatterDims (⟨1, ![N]⟩ : Shape) (⟨2, ![E, 1]⟩ : Shape) (⟨1, ![E]⟩ : Shape)) x idx upd (ix1 n)
      = x (ix1 n) + ∑ e ∈ Finset.univ.filter (fun e : Fin E => (idx (ix2 e (0 : Fin 1))).toInt = (n.val : ℤ)), upd (ix1 e) := by
  exact vec_sum h x idx upd n

end Cert.LibScatterSum

end
-- ==== Proof.LibGatherRows.lean ====
/-
  A GATHER OF WHOLE ROWS, READ AT AN INDEX.

  A gather of an operand `[N, K]` at start indices `[E, 1]` with offset axis 1, collapsed operand axis 0, start index map
  `[0]`, the index vector on axis 1 of the start indices and slices `[1, K]` produces a result `[E, K]`. Its operand index
  for the result index `(e, k)` is, axis by axis, "clamped start + batching coordinate + offset coordinate":

    * on axis 0, which is in the start index map, the start is the word `idx (e, 0)` read signed, as a natural number,
      clamped to `N − 1` (the size `N` minus the slice size `1`); there is no batching axis, and axis 0 is collapsed, so
      the other two summands are `0`;
    * on axis 1, which is not in the start index map, the start is `0`; there is no batching axis; axis 1 is the only kept
      operand axis, it is read by the only offset axis of the result, axis 1, so the offset coordinate is `k`.

  Hence the result at `(e, k)` is the operand at `(min (idx (e, 0)).toInt.toNat (N − 1), k)`.
-/
import Idealize.ShloMosaic.PureOps.Ideal
import Idealize.ShloMosaic.Lib.ValueIdx

noncomputable section

open Idealize.ShloMosaic Idealize.ShloMosaic.ValueIdx

namespace Cert.LibGatherRows

/-- The dimension numbers of a row gather: operand `[N, K]`, one start-index word per result row in `[E, 1]`, result
    `[E, K]`; offset axis 1, collapsed operand axis 0, start indices for operand axis 0, the index vector on the start
    indices' axis 1, slices of one whole row. -/
abbrev rowsDims {N K E : Nat}
    (wf : GatherDims.WF (⟨2, ![N, K]⟩ : Shape) (⟨2, ![E, 1]⟩ : Shape) (⟨2, ![E, K]⟩ : Shape) [1] [0] [] [0] [] 1 ![1, K]) :
    GatherDims (⟨2, ![N, K]⟩ : Shape) (⟨2, ![E, 1]⟩ : Shape) (⟨2, ![E, K]⟩ : Shape) where
  offsetDims := [1]
  collapsedSliceDims := [0]
  operandBatchingDims := []
  startIndicesBatchingDims := []
  startIndexMap := [0]
  indexVectorDim := 1
  sliceSizes := ![1, K]
  wf := wf

/-- The start-indices index at which the result index `(e, k)` reads the only component of its start index is `(e, 0)`:
    the batch coordinate `e` on axis 0 and the component number `0` on the index vector's axis 1. -/
theorem rows_siIdx {N K E : Nat}
    (wf : GatherDims.WF (⟨2, ![N, K]⟩ : Shape) (⟨2, ![E, 1]⟩ : Shape) (⟨2, ![E, K]⟩ : Shape) [1] [0] [] [0] [] 1 ![1, K])
    (e : Fin E) (k : Fin K) (h : List.idxOf (0 : Fin 2) (rowsDims wf).startIndexMap < (rowsDims wf).startIndexMap.length) :
    (rowsDims wf).siIdx (ix2 e k) ⟨List.idxOf (0 : Fin 2) (rowsDims wf).startIndexMap, h⟩ = ix2 e (0 : Fin 1) := by
  funext b
  refine Fin.ext ?_
  match b with
  | ⟨0, _⟩ => rfl
  | ⟨1, _⟩ => rfl

/-- On operand axis 0 the row gather's operand index for `(e, k)` is the start-index word of `e` read signed and clamped
    to `N − 1`: axis 0 is in the start index map with slice size 1, it is no batching axis, and it is collapsed. -/
theorem rows_coord0 {N K E w : Nat}
    (wf : GatherDims.WF (⟨2, ![N, K]⟩ : Shape) (⟨2, ![E, 1]⟩ : Shape) (⟨2, ![E, K]⟩ : Shape) [1] [0] [] [0] [] 1 ![1, K])
    (idx : IVec (⟨2, ![E, 1]⟩ : Shape) w) (e : Fin E) (k : Fin K) :
    (rowsDims wf).start (ix2 e k) idx 0 + (rowsDims wf).batchCoord (ix2 e k) 0 + (rowsDims wf).offCoord (ix2 e k) 0
      = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims wf).startIndexMap from List.mem_singleton.mpr rfl)]
  rw [rows_siIdx wf e k]
  rfl

/-- On operand axis 1 the row gather's operand index for `(e, k)` is `k`: axis 1 is not in the start index map (start 0),
    it is no batching axis, and it is the kept operand axis the result's offset axis 1 reads. -/
theorem rows_coord1 {N K E w : Nat}
    (wf : GatherDims.WF (⟨2, ![N, K]⟩ : Shape) (⟨2, ![E, 1]⟩ : Shape) (⟨2, ![E, K]⟩ : Shape) [1] [0] [] [0] [] 1 ![1, K])
    (idx : IVec (⟨2, ![E, 1]⟩ : Shape) w) (e : Fin E) (k : Fin K) :
    (rowsDims wf).start (ix2 e k) idx 1 + (rowsDims wf).batchCoord (ix2 e k) 1 + (rowsDims wf).offCoord (ix2 e k) 1
      = k.val := by
  rw [GatherDims.batchCoord_eq_zero _ _ _ List.not_mem_nil]
  have hs : (rowsDims wf).start (ix2 e k) idx 1 = 0 := by
    unfold GatherDims.start
    rw [dif_neg (show ¬ (1 : Fin 2) ∈ (rowsDims wf).startIndexMap from (by decide : (1 : Fin 2) ∉ ([0] : List (Fin 2))))]
  rw [hs]
  simp only [Nat.add_zero, Nat.zero_add]
  unfold GatherDims.offCoord
  rw [dif_pos (show (1 : Fin 2) ∈ (rowsDims wf).sKept from
    (GatherDims.mem_sKept _ _).mpr ⟨(by decide : (1 : Fin 2) ∉ ([0] : List (Fin 2))), List.not_mem_nil⟩)]
  rfl

/-- THE ROW GATHER READ AT `(e, k)`: the operand's row at the start-index word of `e`, read signed and clamped into
    `[0, N − 1]`, at column `k`. -/
theorem gather_rows_apply {α : Type} {N K E w : Nat} (hN : 0 < N)
    (wf : GatherDims.WF (⟨2, ![N, K]⟩ : Shape) (⟨2, ![E, 1]⟩ : Shape) (⟨2, ![E, K]⟩ : Shape) [1] [0] [] [0] [] 1 ![1, K])
    (x : (⟨2, ![N, K]⟩ : Shape).Idx → α) (idx : IVec (⟨2, ![E, 1]⟩ : Shape) w) (e : Fin E) (k : Fin K) :
    Host.gather (rowsDims wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ => exact rows_coord0 wf idx e k
  | ⟨1, _⟩ => exact rows_coord1 wf idx e k

end Cert.LibGatherRows

end
-- ==== Proof.RefValue.lean ====
import proofs.«419765_j47863115546696_2_alg».proof.Proof.Gen.ReferenceIdeal.Read
import proofs.«419765_j47863115546696_2_alg».proof.Proof.LibScatterSum
import proofs.«419765_j47863115546696_2_alg».proof.Proof.LibGatherRows
import proofs.«419765_j47863115546696_2_alg».proof.Proof.Spec
import Idealize.ShloMosaic.Lib.Pipeline.Value
import Idealize.ShloMosaic.Lib.ValueIdx
import Idealize.ShloMosaic.Lib.IdealHost
import Idealize.ShloMosaic.PureOps.Ideal.Laws

/-!
# The reference's result is the specification

The reference's run, read one operation at a time: the gate by its spelled-out logistic function, the two segment sums
by scatter-adds, the dense layer and the row softmax, the feature rows gathered by segment word, and the final
multiply-add.
-/

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx
open scoped BigOperators

/-! ## The arguments read by coordinates -/

/-- The image rows. -/
abbrev aImg (x0 : FVec Ideal S200000x256 .f32) : Fin 200000 → Fin 256 → EReal := fun n ch => x0 (ix2 n ch)
/-- The flow rows. -/
abbrev aFlow (x1 : FVec Ideal S200000x256 .f32) : Fin 200000 → Fin 256 → EReal := fun n k => x1 (ix2 n k)
/-- The segment words. -/
abbrev aBidx (x2 : IVec S200000 32) : Fin 200000 → BitVec 32 := fun n => x2 (ix1 n)
/-- The gate's weight column. -/
abbrev aWs (x3 : FVec Ideal S256x1 .f32) : Fin 256 → EReal := fun k => x3 (ix2 k (0 : Fin 1))
/-- The gate's offset. -/
abbrev aBs (x4 : FVec Ideal S1 .f32) : EReal := x4 (ix1 (0 : Fin 1))
/-- The dense layer's weights. -/
abbrev aWc (x5 : FVec Ideal S256x256 .f32) : Fin 256 → Fin 256 → EReal := fun ch k => x5 (ix2 ch k)
/-- The dense layer's offsets. -/
abbrev aBc (x6 : FVec Ideal S256 .f32) : Fin 256 → EReal := fun ch => x6 (ix1 ch)

/-! ## Index equations: the composed index functions of the stages, at coordinates -/

theorem lidx0_eq (n : Fin 200000) (k : Fin 256) : lidx_main_v0 (ix2 n (0 : Fin 1)) k = ix2 n k :=
  funext fun a => Fin.ext (by match a with | ⟨0, _⟩ => rfl | ⟨1, _⟩ => rfl)
theorem ridx0_eq (n : Fin 200000) (k : Fin 256) : ridx_main_v0 (ix2 n (0 : Fin 1)) k = ix2 k (0 : Fin 1) :=
  funext fun a => Fin.ext (by match a with | ⟨0, _⟩ => rfl | ⟨1, _⟩ => rfl)
theorem idx1_eq (j : S1x1.Idx) : idx_main_v1 j = ix1 (0 : Fin 1) :=
  funext fun a => Fin.ext (by match a with | ⟨0, _⟩ => rfl)
theorem idx10_eq (n : Fin 200000) (ch : Fin 256) : idx_main_v10 (ix2 n ch) = ix2 n (0 : Fin 1) :=
  funext fun a => Fin.ext (by match a with | ⟨0, _⟩ => rfl | ⟨1, _⟩ => rfl)

/-! ## The gate and the gated rows -/

section
variable (x0 x1 : FVec Ideal S200000x256 .f32) (x2 : IVec S200000 32) (x3 : FVec Ideal S256x1 .f32)
    (x4 : FVec Ideal S1 .f32) (x5 : FVec Ideal S256x256 .f32) (x6 : FVec Ideal S256 .f32)

/-- The quotient `1 / (1 + exp (-(flow · ws + bs)))` the reference spells out is the logistic gate. -/
theorem gate_apply (n : Fin 200000) :
    val_main_v9 (F := Ideal) x1 x3 x4 (ix2 n (0 : Fin 1)) = Cert.Spec.gate (aFlow x1) (aWs x3) (aBs x4) n := by
  rw [val_main_v9_apply, val_main_v8_apply, val_main_cst_0_apply, val_main_v7_apply, val_main_v6_apply,
    val_main_cst_apply, val_main_v5_apply, val_main_v4_apply, val_main_v3_apply, val_main_v0_apply,
    val_main_v2_apply, val_main_v1_apply]
  simp only [lidx0_eq, ridx0_eq, idx1_eq, Ideal.hostDivf_def, Ideal.addf_def, Ideal.hostUnary_exp_def,
    Ideal.hostNegf_def, Ideal.negf_def, Ideal.ofBits_def, Ideal.ofBits_one_f32]
  rfl

/-- The gated image row at a point and channel. -/
theorem gated_apply (n : Fin 200000) (ch : Fin 256) :
    val_main_v11 (F := Ideal) x0 x1 x3 x4 (ix2 n ch)
      = Cert.Spec.gated (aImg x0) (aFlow x1) (aWs x3) (aBs x4) n ch := by
  rw [val_main_v11_apply, val_main_v10_apply, idx10_eq, gate_apply]
  rfl

/-! ## The segment sums and counts: the two accumulating scatters -/

theorem idx13_eq (e : Fin 200000) : idx_main_v13 (ix2 e (0 : Fin 1)) = ix1 e :=
  funext fun a => Fin.ext (by match a with | ⟨0, _⟩ => rfl)
theorem idx17_eq (e : Fin 200000) : idx_main_v17 (ix2 e (0 : Fin 1)) = ix1 e :=
  funext fun a => Fin.ext (by match a with | ⟨0, _⟩ => rfl)

/-- The scatter of the gated rows onto zeros, at segment `b` and channel `ch`, is the segment's sum. -/
theorem sums_apply (b : Fin 8) (ch : Fin 256) :
    val_main_v14 (F := Ideal) x0 x1 x2 x3 x4 (ix2 b ch)
      = Cert.Spec.sums (aImg x0) (aFlow x1) (aBidx x2) (aWs x3) (aBs x4) b ch := by
  unfold val_main_v14 Host.scatterAdd
  rw [Ideal.hostScatterAdd_def]
  refine (Cert.LibScatterSum.scatterAdd_rows scatter_S8x256_S200000x1_S200000x256_1_0_0_1_wf _ _ _ b ch).trans ?_
  rw [val_main_v12_apply, val_main_cst_1_apply]
  simp only [Ideal.ofBits_def, Ideal.ofBits_zero_f32, zero_add, val_main_v13_apply, idx13_eq, gated_apply]
  rfl

/-- The scatter of ones onto zeros, at segment `b`, is the segment's count. -/
theorem counts_apply (b : Fin 8) :
    val_main_v18 (F := Ideal) x2 (ix2 b (0 : Fin 1)) = Cert.Spec.counts (aBidx x2) b := by
  unfold val_main_v18 Host.scatterAdd
  rw [Ideal.hostScatterAdd_def]
  refine (Cert.LibScatterSum.scatterAdd_rows scatter_S8x1_S200000x1_S200000x1_1_0_0_1_wf _ _ _ b (0 : Fin 1)).trans ?_
  rw [val_main_v16_apply, val_main_cst_3_apply]
  simp only [Ideal.ofBits_def, Ideal.ofBits_zero_f32, zero_add, val_main_v17_apply, idx17_eq, val_main_v15_apply,
    val_main_cst_2_apply]
  rfl

/-! ## The mean rows and the dense layer -/

theorem idx21_eq (b : Fin 8) (k : Fin 256) : idx_main_v21 (ix2 b k) = ix2 b (0 : Fin 1) :=
  funext fun a => Fin.ext (by match a with | ⟨0, _⟩ => rfl | ⟨1, _⟩ => rfl)

/-- The segment's sum over its count, the count raised to at least one. -/
theorem mean_apply (b : Fin 8) (k : Fin 256) :
    val_main_v22 (F := Ideal) x0 x1 x2 x3 x4 (ix2 b k)
      = Cert.Spec.meanOf (Cert.Spec.sums (aImg x0) (aFlow x1) (aBidx x2) (aWs x3) (aBs x4))
          (Cert.Spec.counts (aBidx x2)) b k := by
  rw [val_main_v22_apply, val_main_v21_apply, idx21_eq, val_main_v20_apply, val_main_v19_apply, val_main_cst_4_apply,
    sums_apply, counts_apply]
  rfl

theorem lidx24_eq (b : Fin 8) (ch k : Fin 256) : lidx_main_v24 (ix2 b ch) k = ix2 b k :=
  funext fun a => Fin.ext (by match a with | ⟨0, _⟩ => rfl | ⟨1, _⟩ => rfl)
theorem ridx24_eq (b : Fin 8) (ch k : Fin 256) : ridx_main_v24 (ix2 b ch) k = ix2 k ch :=
  funext fun a => Fin.ext (by match a with | ⟨0, _⟩ => rfl | ⟨1, _⟩ => rfl)
theorem idx23_eq (k ch : Fin 256) : idx_main_v23 (ix2 k ch) = ix2 ch k :=
  funext fun a => Fin.ext (by match a with | ⟨0, _⟩ => rfl | ⟨1, _⟩ => rfl)
theorem idx26_eq (b : Fin 8) (ch : Fin 256) : idx_main_v25 (idx_main_v26 (ix2 b ch)) = ix1 ch :=
  funext fun a => Fin.ext (by match a with | ⟨0, _⟩ => rfl)

/-- The mean row against the transposed weights, plus the offset: the dense layer at `(b, ch)`. -/
theorem lin_apply (b : Fin 8) (ch : Fin 256) :
    val_main_v27 (F := Ideal) x0 x1 x2 x3 x4 x5 x6 (ix2 b ch)
      = Cert.Spec.linOf (aWc x5) (aBc x6) (Cert.Spec.sums (aImg x0) (aFlow x1) (aBidx x2) (aWs x3) (aBs x4))
          (Cert.Spec.counts (aBidx x2)) b ch := by
  rw [val_main_v27_apply, val_main_v24_apply, val_main_v26_apply, val_main_v25_apply, idx26_eq]
  simp only [lidx24_eq, ridx24_eq, val_main_v23_apply, idx23_eq, mean_apply, Ideal.addf_def]
  rfl

/-! ## The row maximum -/

/-- A segment index with channel `k` inserted on the reduced axis. -/
theorem lift_eq (h : S8x256.Reduces [1] S8) (b : Fin 8) (k : Fin 256) : h.lift (ix1 b) k = ix2 b k :=
  funext fun a => Fin.ext (by match a with | ⟨0, _⟩ => rfl | ⟨1, _⟩ => rfl)

/-- The pattern of `-inf` is the least extended real, so taking the larger with it changes nothing. -/
theorem max_negInf (x : EReal) :
    FloatOps.maximumf (F := Ideal) (φ := .f32) (FloatOps.ofBits .f32 0xFF800000#32) x = x := by
  show max (Ideal.ofBits .f32 0xFF800000#32) x = x
  have hbot : Ideal.ofBits .f32 0xFF800000#32 = (⊥ : EReal) := by simp [Ideal.ofBits, Ideal.ieee]
  rw [hbot]; exact max_eq_right bot_le

/-- The reduction with `maximum` from `-inf` along the channels is the fold of `max` over the row. -/
theorem rowmax_apply (b : Fin 8) :
    val_main_v28 (F := Ideal) x0 x1 x2 x3 x4 x5 x6 (ix1 b)
      = Cert.Spec.rowmaxOf (aWc x5) (aBc x6) (Cert.Spec.sums (aImg x0) (aFlow x1) (aBidx x2) (aWs x3) (aBs x4))
          (Cert.Spec.counts (aBidx x2)) b := by
  unfold val_main_v28
  have h : S8x256.Reduces [1] S8 := by decide
  rw [Host.reduce_eq_fold_single _ _ _ reducesTo_S8x256_S8_d1 h h_S_, val_main_cst_5_apply]
  unfold Cert.Spec.rowmaxOf
  refine Finset.fold_congr fun k _ => ?_
  exact (congrArg (val_main_v27 (F := Ideal) x0 x1 x2 x3 x4 x5 x6) (lift_eq h b k)).trans
    (lin_apply x0 x1 x2 x3 x4 x5 x6 b k)

/-- Raising the row maximum to at least `-inf` returns it. -/
theorem rowmax30_apply (b : Fin 8) :
    val_main_v30 (F := Ideal) x0 x1 x2 x3 x4 x5 x6 (ix1 b)
      = Cert.Spec.rowmaxOf (aWc x5) (aBc x6) (Cert.Spec.sums (aImg x0) (aFlow x1) (aBidx x2) (aWs x3) (aBs x4))
          (Cert.Spec.counts (aBidx x2)) b := by
  rw [val_main_v30_apply, val_main_v29_apply, val_main_cst_6_apply, rowmax_apply]
  exact max_negInf _

/-! ## The shifted exponentials and the feature rows -/

theorem idx32_eq (b : Fin 8) (ch : Fin 256) : idx_main_v31 (idx_main_v32 (ix2 b ch)) = ix1 b :=
  funext fun a => Fin.ext (by match a with | ⟨0, _⟩ => rfl)
theorem idx37_eq (b : Fin 8) (ch : Fin 256) : idx_main_v36 (idx_main_v37 (ix2 b ch)) = ix1 b :=
  funext fun a => Fin.ext (by match a with | ⟨0, _⟩ => rfl)
theorem idx35_eq (b : Fin 8) (k : Fin 256) : idx_main_v35 (ix1 b) k = ix2 b k :=
  funext fun a => Fin.ext (by match a with | ⟨0, _⟩ => rfl | ⟨1, _⟩ => rfl)

/-- The exponential of the dense layer's entry less its row's maximum. -/
theorem ex_apply (b : Fin 8) (ch : Fin 256) :
    val_main_v34 (F := Ideal) x0 x1 x2 x3 x4 x5 x6 (ix2 b ch)
      = Cert.Spec.exOf (aWc x5) (aBc x6) (Cert.Spec.sums (aImg x0) (aFlow x1) (aBidx x2) (aWs x3) (aBs x4))
          (Cert.Spec.counts (aBidx x2)) b ch := by
  rw [val_main_v34_apply, val_main_v33_apply, val_main_v32_apply, val_main_v31_apply, idx32_eq, rowmax30_apply,
    lin_apply]
  unfold Cert.Spec.exOf
  simp only [Ideal.hostUnary_exp_def, Ideal.subf_def]

/-- The row softmax times 256: the feature row of segment `b`. -/
theorem feat_apply (b : Fin 8) (ch : Fin 256) :
    val_main_v40 (F := Ideal) x0 x1 x2 x3 x4 x5 x6 (ix2 b ch)
      = Cert.Spec.feat (aImg x0) (aFlow x1) (aBidx x2) (aWs x3) (aBs x4) (aWc x5) (aBc x6) b ch := by
  rw [val_main_v40_apply, val_main_v38_apply, val_main_v37_apply, val_main_v36_apply, idx37_eq, val_main_v35_apply,
    val_main_cst_7_apply, val_main_v39_apply, val_main_cst_8_apply, ex_apply]
  unfold Cert.Spec.feat Cert.Spec.featOf
  simp only [idx35_eq, ex_apply, Ideal.ofBits_def, Ideal.ofBits_zero_f32, zero_add, Ideal.mulf_def,
    Ideal.hostDivf_def]

/-! ## The gather of feature rows by segment word, and the result -/

theorem idx46_eq (n : Fin 200000) : idx_main_v46 (ix2 n (0 : Fin 1)) = ix1 n :=
  funext fun a => Fin.ext (by match a with | ⟨0, _⟩ => rfl)

/-- A word that is not negative is not wrapped: the select on `w < 0` returns `w`. -/
theorem select_nonneg (w : BitVec 32) (h : 0 ≤ w.toInt) :
    Scalar.select (IntOp.cmpi .slt w 0#32) (IntOp.addi w 8#32) w = w := by
  have hs : w.slt 0#32 = false := by
    rw [BitVec.slt, decide_eq_false_iff_not]
    simp only [BitVec.toInt_zero]; omega
  unfold Scalar.select IntOp.cmpi
  simp only [hs]
  rfl

/-- The gather's index word of point `n` is the point's segment word. -/
theorem word_apply (hb : ∀ n : Fin 200000, 0 ≤ (x2 (ix1 n)).toInt ∧ (x2 (ix1 n)).toInt < 8) (n : Fin 200000) :
    val_main_v46 (F := Ideal) x2 (ix2 n (0 : Fin 1)) = x2 (ix1 n) := by
  rw [val_main_v46_apply, idx46_eq, val_main_v45_apply, val_main_v42_apply, val_main_v41_apply, val_main_c_apply,
    val_main_v44_apply, val_main_v43_apply, val_main_c_9_apply]
  exact select_nonneg _ (hb n).1

/-- The gathered row of point `n` is the feature row of its segment. -/
theorem gathered_apply (hb : ∀ n : Fin 200000, 0 ≤ (x2 (ix1 n)).toInt ∧ (x2 (ix1 n)).toInt < 8) (n : Fin 200000)
    (ch : Fin 256) :
    val_main_v47 (F := Ideal) x0 x1 x2 x3 x4 x5 x6 (ix2 n ch)
      = Cert.Spec.feat (aImg x0) (aFlow x1) (aBidx x2) (aWs x3) (aBs x4) (aWc x5) (aBc x6)
          (Cert.Spec.row (aBidx x2) n) ch := by
  unfold val_main_v47
  refine (Cert.LibGatherRows.gather_rows_apply (by decide)
    gather_S8x256_S200000x1_S200000x256_1_0_n_n_0_1_1256_wf _ _ n ch).trans ?_
  simp only [word_apply x2 hb n]
  exact feat_apply x0 x1 x2 x3 x4 x5 x6 _ ch

end

/-- With every segment word in `[0, 8)`, the reference's result array is the specification's, of the arguments read by
    coordinates. -/
theorem result_eq (x0 x1 : FVec Ideal S200000x256 .f32) (x2 : IVec S200000 32) (x3 : FVec Ideal S256x1 .f32)
    (x4 : FVec Ideal S1 .f32) (x5 : FVec Ideal S256x256 .f32) (x6 : FVec Ideal S256 .f32)
    (hb : ∀ n : Fin 200000, 0 ≤ (x2 (ix1 n)).toInt ∧ (x2 (ix1 n)).toInt < 8) :
    val_main_v49 (F := Ideal) x0 x1 x2 x3 x4 x5 x6
      = Cert.Spec.outArr (fun n ch => x0 (ix2 n ch)) (fun n k => x1 (ix2 n k)) (fun n => x2 (ix1 n))
          (fun k => x3 (ix2 k (0 : Fin 1))) (x4 (ix1 (0 : Fin 1))) (fun ch k => x5 (ix2 ch k)) (fun ch => x6 (ix1 ch)) := by
  funext i
  obtain ⟨n, ch, rfl⟩ : ∃ (n : Fin 200000) (ch : Fin 256), i = ix2 n ch := ⟨i 0, i 1, eq_ix2 i⟩
  rw [Cert.Spec.outArr_apply, val_main_v49_apply, val_main_v48_apply, gated_apply,
    gathered_apply x0 x1 x2 x3 x4 x5 x6 hb]
  unfold Cert.Spec.out
  simp only [Ideal.addf_def, Ideal.mulf_def]

end Cert.ReferenceIdeal.RefValue

end
-- ==== Proof.PreRange.lean ====
import proofs.«419765_j47863115546696_2_alg».proof.Proof.Gen.Pre_finite_inputs
import Idealize.ShloMosaic.Lib.ReduceAll
import Idealize.ShloMosaic.Lib.StableHlo.Predicate
import Idealize.ShloMosaic.Lib.ValueIdx

/-!
# The segment words' range, out of the precondition

The precondition's last conjunct says, of every point's segment word read signed, that it is at least 0 and below 8.
-/

set_option maxRecDepth 16384

noncomputable section

namespace Cert.Pre_finite_inputs.Range

open Cert.Pre_finite_inputs
open Idealize.ShloMosaic Idealize.ShloMosaic.ValueIdx
open scoped BigOperators

variable [Cert.Pre_finite_inputs.Facts]

/-- The rank-0 shape has one index. -/
private theorem subsingleton_scalarIdx : Subsingleton S_.Idx := ⟨fun a b => funext fun d => d.elim0⟩

/-- The last part of the chain is the conjunction of what came before with the and-reduction of its
    second argument: where it is 1, that argument is 1 at every index. -/
private theorem all_of_part2 (p : IVec S_ 1) (q : IVec S200000 1) (j : S_.Idx)
    (h : fn_part2 (F := Ideal) p q j = 1#1) (i : S200000.Idx) : q i = 1#1 := by
  have h1 : IntOp.andi (p j)
      (Host.reduce IntOp.andi q (constantI S_ 1 1#1) Facts.reducesTo_S200000_S_d0 Facts.h_S_ j) = 1#1 := h
  haveI := subsingleton_scalarIdx
  exact Host.reduce_andi_all q _ _ _ j (IntOp.andi_eq_one.1 h1).2 i

/-- A rank-0 constant broadcast along the points reads the constant at every point. -/
private theorem bcast_const (c : BitVec 32) (i : S200000.Idx) :
    broadcastInDim S200000 ![] Facts.bcast_S_S200000 (constantI S_ 32 c) i = c := by
  rw [StableHlo.Predicate.bcast_scalar Facts.bcast_S_S200000 Facts.h_S_]; rfl

/-- Where the precondition holds, every segment word lies in `[0, 8)`. -/
theorem range_of_pre (x0 x1 : FVec Ideal S200000x256 .f32) (x2 : IVec S200000 32) (x3 : FVec Ideal S256x1 .f32)
    (x4 : FVec Ideal S1 .f32) (x5 : FVec Ideal S256x256 .f32) (x6 : FVec Ideal S256 .f32)
    (h : Cert.Pre_finite_inputs.fn (F := Ideal) x0 x1 x2 x3 x4 x5 x6 = fun _ => 1#1) (n : Fin 200000) :
    0 ≤ (x2 (ix1 n)).toInt ∧ (x2 (ix1 n)).toInt < 8 := by
  have h0 := congrFun h ValueIdx.ix0
  dsimp only [fn, fn_part1] at h0
  have hq := all_of_part2 _ _ _ h0 (ix1 n)
  have hq' : IntOp.andi
      (IntOp.cmpi .sge (x2 (ix1 n)) (broadcastInDim S200000 ![] Facts.bcast_S_S200000 (constantI S_ 32 0#32) (ix1 n)))
      (IntOp.cmpi .slt (x2 (ix1 n)) (broadcastInDim S200000 ![] Facts.bcast_S_S200000 (constantI S_ 32 8#32) (ix1 n)))
      = 1#1 := hq
  rw [bcast_const, bcast_const] at hq'
  obtain ⟨hge, hlt⟩ := IntOp.andi_eq_one.1 hq'
  have hge' := IntOp.cmpi_sge.1 hge
  have hlt' := IntOp.cmpi_slt.1 hlt
  rw [show (0#32 : BitVec 32).toInt = 0 from by decide] at hge'
  rw [show (8#32 : BitVec 32).toInt = 8 from by decide] at hlt'
  exact ⟨hge', hlt'⟩

end Cert.Pre_finite_inputs.Range

end
-- ==== Proof.lean ====
/-
  Two programs over 200000 points of 256 channels, each point in one of eight segments: a gate per point (the
  logistic function of the point's flow row against a weight column), the gated image rows summed and counted
  by segment, each segment's mean row through a dense layer and a row softmax scaled by 256, and every point's
  gated row multiplied by its segment's feature row and added to its image row.

  The kernel does this in three passes. The first computes the gates and accumulates the segment sums and counts
  block by block, on two cores that each keep their own partial sums, a segment being picked by the product with
  a one-hot row of the segment word; the second adds the two cores' shares and computes the feature rows; the
  third picks each point's feature row by a one-hot product again. The reference scatters and gathers by the
  segment word. The two agree wherever every segment word lies in [0, 8): there a one-hot product with a row is
  the row itself, and a sum over all points of one-hot entries times values is the sum over the segment. Outside
  that range the reference's gather wraps and clamps the word while the one-hot row is zero, so the range is part
  of the precondition.

  The kernel's run with its result array named, the three regions' values and their chain back to the launch
  memory are in the modules imported below; the reference's result is read in RefValue; the range is drawn from
  the precondition in PreRange. Here the claims are assembled.
-/
import proofs.«419765_j47863115546696_2_alg».proof.Defs
import proofs.«419765_j47863115546696_2_alg».proof.Proof.Gen.Kernel
import proofs.«419765_j47863115546696_2_alg».proof.Proof.Gen.Kernel.Skeleton
import proofs.«419765_j47863115546696_2_alg».proof.Proof.Gen.Kernel.Launch
import proofs.«419765_j47863115546696_2_alg».proof.Proof.Gen.Kernel.Points
import proofs.«419765_j47863115546696_2_alg».proof.Proof.Gen.Kernel.Frame
import proofs.«419765_j47863115546696_2_alg».proof.Proof.Gen.KernelIdeal
import proofs.«419765_j47863115546696_2_alg».proof.Proof.Gen.KernelIdeal.Skeleton
import proofs.«419765_j47863115546696_2_alg».proof.Proof.Gen.KernelIdeal.Launch
import proofs.«419765_j47863115546696_2_alg».proof.Proof.Gen.KernelIdeal.Points
import proofs.«419765_j47863115546696_2_alg».proof.Proof.Gen.KernelIdeal.Frame
import proofs.«419765_j47863115546696_2_alg».proof.Proof.Gen.ReferenceIdeal
import proofs.«419765_j47863115546696_2_alg».proof.Proof.Gen.ReferenceIdeal.Run
import proofs.«419765_j47863115546696_2_alg».proof.Proof.Gen.ReferenceIdeal.Read
import proofs.«419765_j47863115546696_2_alg».proof.Proof.Gen.Pre_finite_inputs
import proofs.«419765_j47863115546696_2_alg».proof.Proof.RunMain
import proofs.«419765_j47863115546696_2_alg».proof.Proof.Chain
import proofs.«419765_j47863115546696_2_alg».proof.Proof.RefValue
import proofs.«419765_j47863115546696_2_alg».proof.Proof.PreRange
import Idealize.ShloMosaic.Adequacy
import Idealize.ShloMosaic.Init

noncomputable section

namespace Cert.Proof

open Idealize.ShloMosaic Idealize.SL.Sem Idealize.ShloMosaic.ValueIdx

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, with every segment word in [0, 8) by the precondition, both programs
    end with the specification's array of those arguments. -/
theorem algebraic : Cert.algebraic_KernelIdeal_ReferenceIdeal := by
  intro m ρ m' ρ' hpre hagree
  have hb : ∀ (c : Dev Cert.KernelIdeal.nD) (n : Fin 200000),
      0 ≤ (Cert.KernelIdeal.Chain.bidxM m c n).toInt ∧ (Cert.KernelIdeal.Chain.bidxM m c n).toInt < 8 :=
    fun c n => Cert.Pre_finite_inputs.Range.range_of_pre _ _ _ _ _ _ _ (hpre c) n
  refine ⟨fun c => Cert.Spec.outArr (Cert.KernelIdeal.Chain.imgM m c) (Cert.KernelIdeal.Chain.flowM m c)
      (Cert.KernelIdeal.Chain.bidxM m c) (Cert.KernelIdeal.Chain.wsM m c) (Cert.KernelIdeal.Chain.bsM m c)
      (Cert.KernelIdeal.Chain.wcM m c) (Cert.KernelIdeal.Chain.bcM m c), ?_, ?_⟩
  · exact (θ_run Cert.KernelIdeal.defs _ _).mono
      (fun r h c => ⟨((h c).1).trans (Cert.KernelIdeal.Chain.result_eq m ρ c (hb c)), (h c).2⟩)
      (Cert.KernelIdeal.RunMain.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v49_eq, (hagree c).1, (hagree c).2.1, (hagree c).2.2.1, (hagree c).2.2.2.1,
      (hagree c).2.2.2.2.1, (hagree c).2.2.2.2.2.1, (hagree c).2.2.2.2.2.2]
    exact Cert.ReferenceIdeal.RefValue.result_eq _ _ _ _ _ _ _ (hb c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
